-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x16x64 : Shape := ⟨3, ![50000, 16, 64]⟩
abbrev S256x160 : Shape := ⟨2, ![256, 160]⟩
abbrev S160 : Shape := ⟨1, ![160]⟩
abbrev S160x64 : Shape := ⟨2, ![160, 64]⟩
abbrev S64 : Shape := ⟨1, ![64]⟩
abbrev S64x64 : Shape := ⟨2, ![64, 64]⟩
abbrev S_ : Shape := ⟨0, ![]⟩
abbrev S50000x64 : Shape := ⟨2, ![50000, 64]⟩
abbrev S50000x256 : Shape := ⟨2, ![50000, 256]⟩
abbrev S50000x160 : Shape := ⟨2, ![50000, 160]⟩
abbrev S1x160 : Shape := ⟨2, ![1, 160]⟩
abbrev S1x64 : Shape := ⟨2, ![1, 64]⟩
abbrev S50000 : Shape := ⟨1, ![50000]⟩
abbrev S50000x1 : Shape := ⟨2, ![50000, 1]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x16x64 : S_.BroadcastsInDim S50000x16x64 (![] : Fin 0 → Fin S50000x16x64.rank)
  reducesTo_S50000x16x64_S_d0_1_2 : S50000x16x64.ReducesTo [0, 1, 2] S_
  bcast_S_S256x160 : S_.BroadcastsInDim S256x160 (![] : Fin 0 → Fin S256x160.rank)
  reducesTo_S256x160_S_d0_1 : S256x160.ReducesTo [0, 1] S_
  bcast_S_S160 : S_.BroadcastsInDim S160 (![] : Fin 0 → Fin S160.rank)
  reducesTo_S160_S_d0 : S160.ReducesTo [0] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S50000x16x64_S50000x64_d1 : S50000x16x64.ReducesTo [1] S50000x64
  concatenates_S50000x128_S50000x128_S50000x256_d1 : Shape.Concatenates [S50000x128, S50000x128] S50000x256 1
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S50000x160 : S_.BroadcastsInDim S50000x160 (![] : Fin 0 → Fin S50000x160.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x64_S50000x64_S50000x128_d1 : Shape.Concatenates [S50000x64, S50000x64] S50000x128 1
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  reducesTo_S50000x1_S_d0_1 : S50000x1.ReducesTo [0, 1] S_
  dot_S50000x256_S256x160_S50000x160_1_0_0_1_n_n_wf : DotDims.WF S50000x256 S256x160 S50000x160 [1] [0] [0] [1] [] []
  dot_S50000x160_S160x64_S50000x64_1_0_0_1_n_n_wf : DotDims.WF S50000x160 S160x64 S50000x64 [1] [0] [0] [1] [] []
  dot_S50000x64_S64x64_S50000x64_1_0_0_1_n_n_wf : DotDims.WF S50000x64 S64x64 S50000x64 [1] [0] [0] [1] [] []

variable [Facts]

def dot_S50000x256_S256x160_S50000x160_1_0_0_1_n_n : DotDims S50000x256 S256x160 S50000x160 where
  lhsContracting := [1]
  rhsContracting := [0]
  lhsNonContracting := [0]
  rhsNonContracting := [1]
  lhsBatch := []
  rhsBatch := []
  wf := dot_S50000x256_S256x160_S50000x160_1_0_0_1_n_n_wf
def dot_S50000x160_S160x64_S50000x64_1_0_0_1_n_n : DotDims S50000x160 S160x64 S50000x64 where
  lhsContracting := [1]
  rhsContracting := [0]
  lhsNonContracting := [0]
  rhsNonContracting := [1]
  lhsBatch := []
  rhsBatch := []
  wf := dot_S50000x160_S160x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def fn_part4 {F : FTy → Type} [FloatOps F] (main_arg9 : FVec F S64x64 .f32) (main_arg10 : FVec F S64 .f32) (main_v53 : IVec S_ 1) (main_v66 : FVec F S50000x64 .f32) (main_v70 : FVec F S50000x64 .f32) (main_cst_22 : FVec F S_ .f32) : IVec S_ 1 :=
  let main_v71 : FVec F S50000x64 .f32 := broadcastInDim S50000x64 ![] bcast_S_S50000x64 main_cst_22
  let main_v72 : FVec F S50000x64 .f32 := maximumf main_v70 main_v71
  let main_v73 : FVec F S50000x64 .f32 := (fun l r => Host.dotGeneral dot_S50000x64_S64x64_S50000x64_1_0_0_1_n_n none l r) main_v72 main_arg9
  let main_v74 : FVec F S1x64 .f32 := broadcastInDim S1x64 ![1] bcast_S64_S1x64_1 main_arg10
  let main_v75 : FVec F S50000x64 .f32 := broadcastInDim S50000x64 ![0, 1] bcast_S1x64_S50000x64_0_1 main_v74
  let main_v76 : FVec F S50000x64 .f32 := addf main_v73 main_v75
  let main_v77 : FVec F S50000x64 .f32 := Host.tanh main_v76
  let main_v78 : FVec F S50000x128 .f32 := (fun a b => concatenate S50000x128 1 [⟨S50000x64, a⟩, ⟨S50000x64, b⟩] concatenates_S50000x64_S50000x64_S50000x128_d1) main_v66 main_v77
  let main_v79 : FVec F S50000x128 .f32 := mulf main_v78 main_v78
  let main_cst_23 : FVec F S_ .f32 := constant S_ .f32 0x00000000#32
  let main_v80 : FVec F S50000 .f32 := (fun x v => Host.reduceAdd x v reducesTo_S50000x128_S50000_d1 h_S_) main_v79 main_cst_23
  let main_v81 : FVec F S50000x1 .f32 := broadcastInDim S50000x1 ![0] bcast_S50000_S50000x1_0 main_v80
  let main_v82 : FVec F S50000x1 .f32 := Host.sqrt main_v81
  let main_cst_24 : FVec F S_ .f32 := constant S_ .f32 0x00000000#32
  let main_v83 : FVec F S50000x1 .f32 := broadcastInDim S50000x1 ![] bcast_S_S50000x1 main_cst_24
  let main_v84 : IVec S50000x1 1 := cmpf .olt main_v83 main_v82
  let main_c_25 : IVec S_ 1 := constantI S_ 1 1#1
  let main_v85 : IVec S_ 1 := (fun x v => Host.reduce IntOp.andi x v reducesTo_S50000x1_S_d0_1 h_S_) main_v84 main_c_25
  let main_v86 : IVec S_ 1 := andi main_v53 main_v85
  main_v86

def fn_part3 {F : FTy → Type} [FloatOps F] (main_arg0 : FVec F S50000x128 .f32) (main_arg1 : FVec F S50000x128 .f32) (main_arg2 : FVec F S50000x16x64 .f32) (main_arg3 : FVec F S256x160 .f32) (main_arg4 : FVec F S160 .f32) (main_arg5 : FVec F S160x64 .f32) (main_arg6 : FVec F S64 .f32) (main_arg7 : FVec F S64x64 .f32) (main_arg8 : FVec F S64 .f32) (main_arg9 : FVec F S64x64 .f32) (main_arg10 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_cst_20 : FVec F S_ .f32 := constant S_ .f32 0x00000000#32
  let main_v54 : FVec F S50000x64 .f32 := (fun x v => Host.reduceAdd x v reducesTo_S50000x16x64_S50000x64_d1 h_S_) main_arg2 main_cst_20
  let main_v55 : FVec F S50000x256 .f32 := (fun a b => concatenate S50000x256 1 [⟨S50000x128, a⟩, ⟨S50000x128, b⟩] concatenates_S50000x128_S50000x128_S50000x256_d1) main_arg0 main_arg1
  let main_v56 : FVec F S50000x160 .f32 := (fun l r => Host.dotGeneral dot_S50000x256_S256x160_S50000x160_1_0_0_1_n_n none l r) main_v55 main_arg3
  let main_v57 : FVec F S1x160 .f32 := broadcastInDim S1x160 ![1] bcast_S160_S1x160_1 main_arg4
  let main_v58 : FVec F S50000x160 .f32 := broadcastInDim S50000x160 ![0, 1] bcast_S1x160_S50000x160_0_1 main_v57
  let main_v59 : FVec F S50000x160 .f32 := addf main_v56 main_v58
  let main_cst_21 : FVec F S_ .f32 := constant S_ .f32 0x00000000#32
  let main_v60 : FVec F S50000x160 .f32 := broadcastInDim S50000x160 ![] bcast_S_S50000x160 main_cst_21
  let main_v61 : FVec F S50000x160 .f32 := maximumf main_v59 main_v60
  let main_v62 : FVec F S50000x64 .f32 := (fun l r => Host.dotGeneral dot_S50000x160_S160x64_S50000x64_1_0_0_1_n_n none l r) main_v61 main_arg5
  let main_v63 : FVec F S1x64 .f32 := broadcastInDim S1x64 ![1] bcast_S64_S1x64_1 main_arg6
  let main_v64 : FVec F S50000x64 .f32 := broadcastInDim S50000x64 ![0, 1] bcast_S1x64_S50000x64_0_1 main_v63
  let main_v65 : FVec F S50000x64 .f32 := addf main_v62 main_v64
  let main_v66 : FVec F S50000x64 .f32 := Host.tanh main_v65
  let main_v67 : FVec F S50000x64 .f32 := (fun l r => Host.dotGeneral dot_S50000x64_S64x64_S50000x64_1_0_0_1_n_n none l r) main_v54 main_arg7
  let main_v68 : FVec F S1x64 .f32 := broadcastInDim S1x64 ![1] bcast_S64_S1x64_1 main_arg8
  let main_v69 : FVec F S50000x64 .f32 := broadcastInDim S50000x64 ![0, 1] bcast_S1x64_S50000x64_0_1 main_v68
  let main_v70 : FVec F S50000x64 .f32 := addf main_v67 main_v69
  let main_cst_22 : FVec F S_ .f32 := constant S_ .f32 0x00000000#32
  fn_part4 (F := F) main_arg9 main_arg10 main_v53 main_v66 main_v70 main_cst_22

def fn_part2 {F : FTy → Type} [FloatOps F] (main_arg0 : FVec F S50000x128 .f32) (main_arg1 : FVec F S50000x128 .f32) (main_arg2 : FVec F S50000x16x64 .f32) (main_arg3 : FVec F S256x160 .f32) (main_arg4 : FVec F S160 .f32) (main_arg5 : FVec F S160x64 .f32) (main_arg6 : FVec F S64 .f32) (main_arg7 : FVec F S64x64 .f32) (main_arg8 : FVec F S64 .f32) (main_arg9 : FVec F S64x64 .f32) (main_arg10 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg0 main_arg1 main_arg2 main_arg3 main_arg4 main_arg5 main_arg6 main_arg7 main_arg8 main_arg9 main_arg10 main_v48 main_v49 main_v50

def fn_part1 {F : FTy → Type} [FloatOps F] (main_arg0 : FVec F S50000x128 .f32) (main_arg1 : FVec F S50000x128 .f32) (main_arg2 : FVec F S50000x16x64 .f32) (main_arg3 : FVec F S256x160 .f32) (main_arg4 : FVec F S160 .f32) (main_arg5 : FVec F S160x64 .f32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S256x160 1) : IVec S_ 1 :=
  let main_c_5 : IVec S_ 1 := constantI S_ 1 1#1
  let main_v17 : IVec S_ 1 := (fun x v => Host.reduce IntOp.andi x v reducesTo_S256x160_S_d0_1 h_S_) main_v16 main_c_5
  let main_v18 : IVec S_ 1 := andi main_v13 main_v17
  let main_v19 : FVec F S160 .f32 := Host.absf main_arg4
  let main_cst_6 : FVec F S_ .f32 := constant S_ .f32 0x7F800000#32
  let main_v20 : FVec F S160 .f32 := broadcastInDim S160 ![] bcast_S_S160 main_cst_6
  let main_v21 : IVec S160 1 := cmpf .olt main_v19 main_v20
  let main_c_7 : IVec S_ 1 := constantI S_ 1 1#1
  let main_v22 : IVec S_ 1 := (fun x v => Host.reduce IntOp.andi x v reducesTo_S160_S_d0 h_S_) main_v21 main_c_7
  let main_v23 : IVec S_ 1 := andi main_v18 main_v22
  let main_v24 : FVec F S160x64 .f32 := Host.absf main_arg5
  let main_cst_8 : FVec F S_ .f32 := constant S_ .f32 0x7F800000#32
  let main_v25 : FVec F S160x64 .f32 := broadcastInDim S160x64 ![] bcast_S_S160x64 main_cst_8
  let main_v26 : IVec S160x64 1 := cmpf .olt main_v24 main_v25
  let main_c_9 : IVec S_ 1 := constantI S_ 1 1#1
  let main_v27 : IVec S_ 1 := (fun x v => Host.reduce IntOp.andi x v reducesTo_S160x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_v33

def fn {F : FTy → Type} [FloatOps F] (main_arg0 : FVec F S50000x128 .f32) (main_arg1 : FVec F S50000x128 .f32) (main_arg2 : FVec F S50000x16x64 .f32) (main_arg3 : FVec F S256x160 .f32) (main_arg4 : FVec F S160 .f32) (main_arg5 : FVec F S160x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x16x64 .f32 := Host.absf main_arg2
  let main_cst_2 : FVec F S_ .f32 := constant S_ .f32 0x7F800000#32
  let main_v10 : FVec F S50000x16x64 .f32 := broadcastInDim S50000x16x64 ![] bcast_S_S50000x16x64 main_cst_2
  let main_v11 : IVec S50000x16x64 1 := cmpf .olt main_v9 main_v10
  let main_c_3 : IVec S_ 1 := constantI S_ 1 1#1
  let main_v12 : IVec S_ 1 := (fun x v => Host.reduce IntOp.andi x v reducesTo_S50000x16x64_S_d0_1_2 h_S_) main_v11 main_c_3
  let main_v13 : IVec S_ 1 := andi main_v8 main_v12
  let main_v14 : FVec F S256x160 .f32 := Host.absf main_arg3
  let main_cst_4 : FVec F S_ .f32 := constant S_ .f32 0x7F800000#32
  let main_v15 : FVec F S256x160 .f32 := broadcastInDim S256x160 ![] bcast_S_S256x160 main_cst_4
  let main_v16 : IVec S256x160 1 := cmpf .olt main_v14 main_v15
  fn_part1 (F := F) main_arg0 main_arg1 main_arg2 main_arg3 main_arg4 main_arg5 main_arg6 main_arg7 main_arg8 main_arg9 main_arg10 main_v13 main_v16
-- ==== Kernel.lean ====
abbrev S50000x128 : Shape := ⟨2, ![50000, 128]⟩
abbrev S50000x16x64 : Shape := ⟨3, ![50000, 16, 64]⟩
abbrev S256x160 : Shape := ⟨2, ![256, 160]⟩
abbrev S160 : Shape := ⟨1, ![160]⟩
abbrev S160x64 : Shape := ⟨2, ![160, 64]⟩
abbrev S64 : Shape := ⟨1, ![64]⟩
abbrev S64x64 : Shape := ⟨2, ![64, 64]⟩
abbrev S128x160 : Shape := ⟨2, ![128, 160]⟩
abbrev S50000x1024 : Shape := ⟨2, ![50000, 1024]⟩
abbrev S128x64 : Shape := ⟨2, ![128, 64]⟩
abbrev S1x160 : Shape := ⟨2, ![1, 160]⟩
abbrev S1x64 : Shape := ⟨2, ![1, 64]⟩
abbrev S2000x128 : Shape := ⟨2, ![2000, 128]⟩
abbrev S1000x1024 : Shape := ⟨2, ![1000, 1024]⟩
abbrev S1000x128 : Shape := ⟨2, ![1000, 128]⟩
abbrev S1000x512 : Shape := ⟨2, ![1000, 512]⟩
abbrev S1000x256 : Shape := ⟨2, ![1000, 256]⟩
abbrev S1000x160 : Shape := ⟨2, ![1000, 160]⟩
abbrev S1000x64 : Shape := ⟨2, ![1000, 64]⟩
abbrev S1000 : Shape := ⟨1, ![1000]⟩
abbrev S1000x1 : Shape := ⟨2, ![1000, 1]⟩

abbrev nBuf : Space → Nat
  | .hbm => 20
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x16x64, .f32⟩
  | .hbm, ⟨3, _⟩ => ⟨S256x160, .f32⟩
  | .hbm, ⟨4, _⟩ => ⟨S160, .f32⟩
  | .hbm, ⟨5, _⟩ => ⟨S160x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S128x160, .f32⟩
  | .hbm, ⟨12, _⟩ => ⟨S128x160, .f32⟩
  | .hbm, ⟨13, _⟩ => ⟨S50000x1024, .f32⟩
  | .hbm, ⟨14, _⟩ => ⟨S128x64, .f32⟩
  | .hbm, ⟨15, _⟩ => ⟨S1x160, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1000x1024, .f32⟩
  | .local _ .vmem, ⟨8, _⟩ => ⟨S128x160, .f32⟩
  | .local _ .vmem, ⟨9, _⟩ => ⟨S128x160, .f32⟩
  | .local _ .vmem, ⟨10, _⟩ => ⟨S1x160, .f32⟩
  | .local _ .vmem, ⟨11, _⟩ => ⟨S160x64, .f32⟩
  | .local _ .vmem, ⟨12, _⟩ => ⟨S1x64, .f32⟩
  | .local _ .vmem, ⟨13, _⟩ => ⟨S128x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S2000x128, .f32⟩
  | .local _ .vmem, ⟨18, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S160x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S256x160_S128x160_0_0 : S256x160.Slices ![0, 0] S128x160
  slices_S256x160_S128x160_128_0 : S256x160.Slices ![128, 0] S128x160
  shapeCasts_S50000x16x64_S50000x1024 : S50000x16x64.ShapeCasts S50000x1024
  concatenates_S64x64_S64x64_S128x64_d0 : Shape.Concatenates [S64x64, S64x64] S128x64 0
  shapeCasts_S160_S1x160 : S160.ShapeCasts S1x160
  shapeCasts_S64_S1x64 : S64.ShapeCasts S1x64
  inb_S128x160_S128x160_0_0 : ∀ a, (![0, 0] : Fin 2 → Nat) a + S128x160.size a ≤ S128x160.size a
  h_S128x160 : 0 < S128x160.numel
  shapeCasts_S128x160_S128x160 : S128x160.ShapeCasts S128x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  inb_S160x64_S160x64_0_0 : ∀ a, (![0, 0] : Fin 2 → Nat) a + S160x64.size a ≤ S160x64.size a
  h_S160x64 : 0 < S160x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  inb_S2000x128_S1000x128_0_0 : ∀ a, (![0, 0] : Fin 2 → Nat) a + S1000x128.size a ≤ S2000x128.size a
  h_S1000x128 : 0 < S1000x128.numel
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  slices_S1000x1024_o0_0_S1000x512 : S1000x1024.Slices ![0, 0] S1000x512
  slices_S1000x1024_o0_512_S1000x512 : S1000x1024.Slices ![0, 512] S1000x512
  slices_S1000x512_o0_0_S1000x256 : S1000x512.Slices ![0, 0] S1000x256
  slices_S1000x512_o0_256_S1000x256 : S1000x512.Slices ![0, 256] S1000x256
  slices_S1000x256_o0_0_S1000x128 : S1000x256.Slices ![0, 0] S1000x128
  slices_S1000x256_o0_128_S1000x128 : S1000x256.Slices ![0, 128] S1000x128
  broadcasts_S1x160_S1000x160 : S1x160.Broadcasts S1000x160
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  inb_S2000x128_S1000x64_0_0 : ∀ a, (![0, 0] : Fin 2 → Nat) a + S1000x64.size a ≤ S2000x128.size a
  h_S1000x64 : 0 < S1000x64.numel
  inb_S2000x128_S1000x64_0_64 : ∀ a, (![0, 64] : Fin 2 → Nat) a + S1000x64.size a ≤ S2000x128.size a
  inb_S2000x128_S1000x128_1000_0 : ∀ a, (![1000, 0] : Fin 2 → Nat) a + S1000x128.size a ≤ S2000x128.size a
  inb_S2000x128_S1000x64_1000_0 : ∀ a, (![1000, 0] : Fin 2 → Nat) a + S1000x64.size a ≤ S2000x128.size a
  inb_S2000x128_S1000x64_1000_64 : ∀ a, (![1000, 64] : Fin 2 → Nat) a + S1000x64.size a ≤ S2000x128.size a
  dot_S1000x128_S128x160_S1000x160_1_0_0_1_n_n_wf : DotDims.WF S1000x128 S128x160 S1000x160 [1] [0] [0] [1] [] []
  dot_S1000x160_S160x64_S1000x64_1_0_0_1_n_n_wf : DotDims.WF S1000x160 S160x64 S1000x64 [1] [0] [0] [1] [] []
  dot_S1000x128_S128x64_S1000x64_1_0_0_1_n_n_wf : DotDims.WF S1000x128 S128x64 S1000x64 [1] [0] [0] [1] [] []
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S50000x1024.size a
  hwx0_2 : ∀ i : grid0.Coords, EltTy.bits .f32 = 32 ∨ (Rect.block (s := S50000x1024) S1000x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S50000x1024.size a
  hwx0_3 : ∀ i : grid0.Coords, EltTy.bits .f32 = 32 ∨ (Rect.block (s := S50000x1024) S1000x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x160.size a ≤ S128x160.size a
  hwx0_4 : ∀ i : grid0.Coords, EltTy.bits .f32 = 32 ∨ (Rect.block (s := S128x160) S128x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x160.size a ≤ S128x160.size a
  hwx0_5 : ∀ i : grid0.Coords, EltTy.bits .f32 = 32 ∨ (Rect.block (s := S128x160) S128x160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x160.size a ≤ S1x160.size a
  hwx0_6 : ∀ i : grid0.Coords, EltTy.bits .f32 = 32 ∨ (Rect.block (s := S1x160) S1x160.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S160x64.size a ≤ S160x64.size a
  hwx0_7 : ∀ i : grid0.Coords, EltTy.bits .f32 = 32 ∨ (Rect.block (s := S160x64) S160x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)

variable [Facts₀]

def dot_S1000x128_S128x160_S1000x160_1_0_0_1_n_n : DotDims S1000x128 S128x160 S1000x160 where
  lhsContracting := [1]
  rhsContracting := [0]
  lhsNonContracting := [0]
  rhsNonContracting := [1]
  lhsBatch := []
  rhsBatch := []
  wf := dot_S1000x128_S128x160_S1000x160_1_0_0_1_n_n_wf
def dot_S1000x160_S160x64_S1000x64_1_0_0_1_n_n : DotDims S1000x160 S160x64 S1000x64 where
  lhsContracting := [1]
  rhsContracting := [0]
  lhsNonContracting := [0]
  rhsNonContracting := [1]
  lhsBatch := []
  rhsBatch := []
  wf := dot_S1000x160_S160x64_S1000x64_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1000x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1000x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S128x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S128x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S1x160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S160x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v3) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v6) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v7) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x16x64 : Shape := ⟨3, ![50000, 16, 64]⟩
abbrev S256x160 : Shape := ⟨2, ![256, 160]⟩
abbrev S160 : Shape := ⟨1, ![160]⟩
abbrev S160x64 : Shape := ⟨2, ![160, 64]⟩
abbrev S64 : Shape := ⟨1, ![64]⟩
abbrev S64x64 : Shape := ⟨2, ![64, 64]⟩
abbrev S_ : Shape := ⟨0, ![]⟩
abbrev S50000x64 : Shape := ⟨2, ![50000, 64]⟩
abbrev S50000x256 : Shape := ⟨2, ![50000, 256]⟩
abbrev S50000x160 : Shape := ⟨2, ![50000, 160]⟩
abbrev S1x160 : Shape := ⟨2, ![1, 160]⟩
abbrev S1x64 : Shape := ⟨2, ![1, 64]⟩
abbrev S50000 : Shape := ⟨1, ![50000]⟩
abbrev S50000x1 : Shape := ⟨2, ![50000, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x16x64, .f32⟩
  | .hbm, ⟨3, _⟩ => ⟨S256x160, .f32⟩
  | .hbm, ⟨4, _⟩ => ⟨S160, .f32⟩
  | .hbm, ⟨5, _⟩ => ⟨S160x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .f32⟩
  | .hbm, ⟨12, _⟩ => ⟨S50000x64, .f32⟩
  | .hbm, ⟨13, _⟩ => ⟨S50000x256, .f32⟩
  | .hbm, ⟨14, _⟩ => ⟨S50000x160, .f32⟩
  | .hbm, ⟨15, _⟩ => ⟨S1x160, .f32⟩
  | .hbm, ⟨16, _⟩ => ⟨S50000x160, .f32⟩
  | .hbm, ⟨17, _⟩ => ⟨S50000x160, .f32⟩
  | .hbm, ⟨18, _⟩ => ⟨S_, .f32⟩
  | .hbm, ⟨19, _⟩ => ⟨S50000x160, .f32⟩
  | .hbm, ⟨20, _⟩ => ⟨S50000x160, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S1x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S50000x128, .f32⟩
  | .hbm, ⟨45, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  reducesTo_S50000x16x64_S50000x64_d1 : S50000x16x64.ReducesTo [1] S50000x64
  h_S_ : 0 < S_.numel
  concatenates_S50000x128_S50000x128_S50000x256_d1 : Shape.Concatenates [S50000x128, S50000x128] S50000x256 1
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S50000x160 : S_.BroadcastsInDim S50000x160 (![] : Fin 0 → Fin S50000x160.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x64_S50000x64_S50000x128_d1 : Shape.Concatenates [S50000x64, S50000x64] S50000x128 1
  reducesTo_S50000x128_S50000_d1 : S50000x128.ReducesTo [1] S50000
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x256_S256x160_S50000x160_1_0_0_1_n_n_wf : DotDims.WF S50000x256 S256x160 S50000x160 [1] [0] [0] [1] [] []
  dot_S50000x160_S160x64_S50000x64_1_0_0_1_n_n_wf : DotDims.WF S50000x160 S160x64 S50000x64 [1] [0] [0] [1] [] []
  dot_S50000x64_S64x64_S50000x64_1_0_0_1_n_n_wf : DotDims.WF S50000x64 S64x64 S50000x64 [1] [0] [0] [1] [] []

variable [Facts₀]

def dot_S50000x256_S256x160_S50000x160_1_0_0_1_n_n : DotDims S50000x256 S256x160 S50000x160 where
  lhsContracting := [1]
  rhsContracting := [0]
  lhsNonContracting := [0]
  rhsNonContracting := [1]
  lhsBatch := []
  rhsBatch := []
  wf := dot_S50000x256_S256x160_S50000x160_1_0_0_1_n_n_wf
def dot_S50000x160_S160x64_S50000x64_1_0_0_1_n_n : DotDims S50000x160 S160x64 S50000x64 where
  lhsContracting := [1]
  rhsContracting := [0]
  lhsNonContracting := [0]
  rhsNonContracting := [1]
  lhsBatch := []
  rhsBatch := []
  wf := dot_S50000x160_S160x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelOut.lean ====
/-
  What one grid step of the kernel leaves in its output block, as a function of the thirteen input blocks.

  The step handles 2000 nodes in two halves of 1000. Each half loads its 1000 rows of the two feature blocks and its own
  1000-row mailbox block (the first half from the mailbox window of even block index, the second from the one of odd
  block index), applies the two small networks and the row normalisation, and stores branch 1 into columns 0–63 and
  branch 2 into columns 64–127 of its 1000 rows of the output block. The four stores tile the [2000, 128] block, so the
  block afterwards is the overlay of the four stored values, whatever it held before.
-/
import proofs.«121214_g34196529611290_cont_8to1_b_1671_18_alg».proof.Proof.Gen.Kernel.Skeleton
import Idealize.ShloMosaic.Lib.Pipeline.FrameBody

set_option maxRecDepth 16384

noncomputable section

namespace Cert.Kernel.Hand

open Idealize.ShloMosaic Idealize.ShloMosaic.TcCoe
open Cert.Kernel Cert.Kernel.Gen

variable {F : FTy → Type} [FloatOps F]

/-! ## The rectangles the body reads and writes -/

/-- Rows 0–999 of a [2000, 128] feature block. -/
abbrev rTop : Rect S2000x128 := Rect.unit (s := S2000x128) ![0, 0] S1000x128.size inb_S2000x128_S1000x128_0_0
/-- Rows 1000–1999 of a [2000, 128] feature block. -/
abbrev rBot : Rect S2000x128 := Rect.unit (s := S2000x128) ![1000, 0] S1000x128.size inb_S2000x128_S1000x128_1000_0
/-- A whole [1000, 1024] mailbox block. -/
abbrev rE : Rect S1000x1024 := Rect.unit (s := S1000x1024) ![0, 0] S1000x1024.size inb_S1000x1024_S1000x1024_0_0
abbrev rW1 : Rect S128x160 := Rect.unit (s := S128x160) ![0, 0] S128x160.size inb_S128x160_S128x160_0_0
abbrev rB1a : Rect S1x160 := Rect.unit (s := S1x160) ![0, 0] S1x160.size inb_S1x160_S1x160_0_0
abbrev rW1b : Rect S160x64 := Rect.unit (s := S160x64) ![0, 0] S160x64.size inb_S160x64_S160x64_0_0
abbrev rB64 : Rect S1x64 := Rect.unit (s := S1x64) ![0, 0] S1x64.size inb_S1x64_S1x64_0_0
abbrev rW2 : Rect S128x64 := Rect.unit (s := S128x64) ![0, 0] S128x64.size inb_S128x64_S128x64_0_0
abbrev rW2b : Rect S64x64 := Rect.unit (s := S64x64) ![0, 0] S64x64.size inb_S64x64_S64x64_0_0
/-- The four quarters of the output block: rows 0–999 / 1000–1999, columns 0–63 / 64–127. -/
abbrev rO00 : Rect S2000x128 := Rect.unit (s := S2000x128) ![0, 0] S1000x64.size inb_S2000x128_S1000x64_0_0
abbrev rO01 : Rect S2000x128 := Rect.unit (s := S2000x128) ![0, 64] S1000x64.size inb_S2000x128_S1000x64_0_64
abbrev rO10 : Rect S2000x128 := Rect.unit (s := S2000x128) ![1000, 0] S1000x64.size inb_S2000x128_S1000x64_1000_0
abbrev rO11 : Rect S2000x128 := Rect.unit (s := S2000x128) ![1000, 64] S1000x64.size inb_S2000x128_S1000x64_1000_64

/-! ## The four stored values -/

section
variable (x0 x1 : Vec F S2000x128 .f32) (x2 x3 : Vec F S1000x1024 .f32) (x4 x5 : Vec F S128x160 .f32) (x6 : Vec F S1x160 .f32)
  (x7 : Vec F S160x64 .f32) (x8 : Vec F S1x64 .f32) (x9 : Vec F S128x64 .f32) (x10 : Vec F S1x64 .f32) (x11 : Vec F S64x64 .f32)
  (x12 : Vec F S1x64 .f32)

/-- First half, branch 1 (rows 0–999, columns 0–63). -/
def pay00 : Vec F S1000x64 .f32 :=
  k0_pay19 (View.ld x7 rW1b) (k0_pay9 (View.ld x8 rB64)) (k0_pay10 (View.ld x9 rW2)) (k0_pay11 (View.ld x10 rB64)) (View.ld x11 rW2b)
    (k0_pay12 (View.ld x12 rB64)) (k0_pay13 (View.ld x2 rE))
    (k0_pay14 (View.ld x4 rW1) (View.ld x5 rW1) (View.ld x0 rTop) (View.ld x1 rTop)) (k0_pay15 (View.ld x6 rB1a))

/-- First half, branch 2 (rows 0–999, columns 64–127). -/
def pay01 : Vec F S1000x64 .f32 :=
  k0_pay20 (View.ld x7 rW1b) (k0_pay9 (View.ld x8 rB64)) (k0_pay10 (View.ld x9 rW2)) (k0_pay11 (View.ld x10 rB64)) (View.ld x11 rW2b)
    (k0_pay12 (View.ld x12 rB64)) (k0_pay13 (View.ld x2 rE))
    (k0_pay14 (View.ld x4 rW1) (View.ld x5 rW1) (View.ld x0 rTop) (View.ld x1 rTop)) (k0_pay15 (View.ld x6 rB1a))

/-- Second half, branch 1 (rows 1000–1999, columns 0–63). -/
def pay10 : Vec F S1000x64 .f32 :=
  k0_pay4 (k0_pay6 (View.ld x4 rW1)) (k0_pay7 (View.ld x5 rW1)) (k0_pay8 (View.ld x6 rB1a)) (View.ld x7 rW1b) (k0_pay9 (View.ld x8 rB64))
    (k0_pay10 (View.ld x9 rW2)) (k0_pay11 (View.ld x10 rB64)) (View.ld x11 rW2b) (k0_pay12 (View.ld x12 rB64))
    (View.ld x0 rBot) (View.ld x1 rBot) (k0_pay21 (View.ld x3 rE)) (k0_pay22 (View.ld x3 rE))

/-- Second half, branch 2 (rows 1000–1999, columns 64–127). -/
def pay11 : Vec F S1000x64 .f32 :=
  k0_pay5 (k0_pay6 (View.ld x4 rW1)) (k0_pay7 (View.ld x5 rW1)) (k0_pay8 (View.ld x6 rB1a)) (View.ld x7 rW1b) (k0_pay9 (View.ld x8 rB64))
    (k0_pay10 (View.ld x9 rW2)) (k0_pay11 (View.ld x10 rB64)) (View.ld x11 rW2b) (k0_pay12 (View.ld x12 rB64))
    (View.ld x0 rBot) (View.ld x1 rBot) (k0_pay21 (View.ld x3 rE)) (k0_pay22 (View.ld x3 rE))

/-- The output block after the step: the four stores as pieces, last first. -/
def outBlock : Vec F S2000x128 .f32 :=
  View.canon [⟨rO11, pay11 x0 x1 x3 x4 x5 x6 x7 x8 x9 x10 x11 x12⟩, ⟨rO10, pay10 x0 x1 x3 x4 x5 x6 x7 x8 x9 x10 x11 x12⟩,
    ⟨rO01, pay01 x0 x1 x2 x4 x5 x6 x7 x8 x9 x10 x11 x12⟩, ⟨rO00, pay00 x0 x1 x2 x4 x5 x6 x7 x8 x9 x10 x11 x12⟩]

end

/-- The four quarters tile the block, so they cover it. -/
theorem cover_out (p0 p1 p2 p3 : Vec F S1000x64 .f32) (y : S2000x128.Idx) :
    ∃ pc ∈ ([⟨rO11, p0⟩, ⟨rO10, p1⟩, ⟨rO01, p2⟩, ⟨rO00, p3⟩] : List (View.Piece (Elt F) S2000x128 .f32)), y ∈ pc.1.set :=
  View.cover_of_tiled [⟨rO11, p0⟩, ⟨rO10, p1⟩, ⟨rO01, p2⟩, ⟨rO00, p3⟩] S1000x64.size (by rfl) y

end Cert.Kernel.Hand

end
-- ==== Proof.KernelFrame.lean ====
/-
  The program runs to its end, faults nowhere and leaves its arguments as they were; and its result array ends at what
  the pipeline wrote back block by block.

  @main is eight host operations (two slices of `W1a`, the mailbox read flat, `W2a` stacked on itself, four biases
  reshaped to one row) and then one pipelined region of 25 grid steps over fourteen windows. The flat mailbox is handed
  to the region through TWO windows, the blocks of even index and the blocks of odd index: the region holds that one
  array at two half shares, one per window, and every other array at the full share. A step reads its thirteen input
  blocks, stores the four quarters of its output block (KernelOut's `outBlock`), and the block is written back.
-/
import proofs.«121214_g34196529611290_cont_8to1_b_1671_18_alg».proof.Proof.Gen.Kernel.Launch
import proofs.«121214_g34196529611290_cont_8to1_b_1671_18_alg».proof.Proof.Gen.Kernel.Skeleton
import proofs.«121214_g34196529611290_cont_8to1_b_1671_18_alg».proof.Proof.Gen.Kernel.Points
import proofs.«121214_g34196529611290_cont_8to1_b_1671_18_alg».proof.Proof.KernelOut
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: as launched, overwritten by the eight host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every step, fetched there or not (an unfetched window's block
    index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- One step of the body on whole staging buffers, the inputs' at contents `xW` and the output's at anything, ends with
    the inputs' as they were and the output's at `outBlock` of the inputs'. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S1000x1024 .f32) (harg3 : arg3.IsWhole) (arg4 : Memref sig .tc .vmem S1000x1024 .f32) (harg4 : arg4.IsWhole) (arg5 : Memref sig .tc .vmem S128x160 .f32) (harg5 : arg5.IsWhole) (arg6 : Memref sig .tc .vmem S128x160 .f32) (harg6 : arg6.IsWhole) (arg7 : Memref sig .tc .vmem S1x160 .f32) (harg7 : arg7.IsWhole) (arg8 : Memref sig .tc .vmem S160x64 .f32) (harg8 : arg8.IsWhole) (arg9 : Memref sig .tc .vmem S1x64 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2000x128 .f32) (harg14 : arg14.IsWhole)
    (x0 : Vec F S2000x128 .f32) (x1 : Vec F S2000x128 .f32) (x2 : Vec F S1000x1024 .f32) (x3 : Vec F S1000x1024 .f32) (x4 : Vec F S128x160 .f32) (x5 : Vec F S128x160 .f32) (x6 : Vec F S1x160 .f32) (x7 : Vec F S160x64 .f32) (x8 : Vec F S1x64 .f32) (x9 : Vec F S128x64 .f32) (x10 : Vec F S1x64 .f32) (x11 : Vec F S64x64 .f32) (x12 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  unfold outBlock pay00 pay01 pay10 pay11
  exact View.read_writes_eq_canon _ _ _ (cover_out _ _ _ _)

/-! ## The pipeline's proof data -/

/-- The arrays as the region finds them; after a step each input's buffer at its block and the output's at `outBlock` of
    the input blocks; nothing kept between steps beyond the core's scratch; the flat mailbox held at one half share by
    each of its two windows, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The arrays dealt to the windows -/

/-- The thirteen distinct buffers behind the fourteen windows' arrays, each whole at the full share, are the windows'
    arrays at their shares: the flat mailbox's full share split into its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hR : (dats m 0 c).arrays ((dats m 0 c).arrAt · 0)
      = bigSep Finset.univ fun w : Fin 14 => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hR]
  have hL : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_call0_v2) ↦{fullShare} V m c main_call0_v2) ∗ (((c.tc : Thread nD τ).loc main_call0_v0) ↦{fullShare} V m c main_call0_v0) ∗ (((c.tc : Thread nD τ).loc main_call0_v1) ↦{fullShare} V m c main_call0_v1) ∗ (((c.tc : Thread nD τ).loc main_call0_v4) ↦{fullShare} V m c main_call0_v4) ∗ (((c.tc : Thread nD τ).loc main_arg5) ↦{fullShare} V m c main_arg5) ∗ (((c.tc : Thread nD τ).loc main_call0_v5) ↦{fullShare} V m c main_call0_v5) ∗ (((c.tc : Thread nD τ).loc main_call0_v3) ↦{fullShare} V m c main_call0_v3) ∗ (((c.tc : Thread nD τ).loc main_call0_v6) ↦{fullShare} V m c main_call0_v6) ∗ (((c.tc : Thread nD τ).loc main_arg9) ↦{fullShare} V m c main_arg9) ∗ (((c.tc : Thread nD τ).loc main_call0_v7) ↦{fullShare} V m c main_call0_v7) ∗ (((c.tc : Thread nD τ).loc main_v0) ↦{fullShare} V m c main_v0)) := by
    unfold Pipeline.arrBufs
    exact bigSep_eq_bigSepL_of_eq [main_arg0, main_arg1, main_call0_v2, main_call0_v0, main_call0_v1, main_call0_v4, main_arg5, main_call0_v5, main_call0_v3, main_call0_v6, main_arg9, main_call0_v7, main_v0] (by decide) (by decide) _
  rw [hL, bigSep_W0]
  iintro ⟨H0, H1, H2, H4, H5, H6, H7, H8, H9, H10, H11, H12, H13⟩
  ihave ⟨H2, H3⟩ := (pointsTo_share (PosShare.mem_left_op_right fullShare)).1 $$ H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The run -/

theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem emp_sep_elim (P : sProp 𝕄) : iprop(BI.emp ∗ P) ⊢ P := by
  iintro ⟨-, H⟩
  iexact H

theorem emp_sep_intro (P : sProp 𝕄) : P ⊢ iprop(BI.emp ∗ P) := by
  iintro H
  isplitr [H]
  · iempintro
  · iexact H

set_option backward.isDefEq.respectTransparency.types false in
/-- Every weakly fair execution of @main terminates, and in every final state each window's array holds what the
    write-backs left of it and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := _) (hu₀ := Entails.of_eq (ownU_emb₁ _))
    (V := V m) (hmain := hmain m Variants.none) (hsplit := hsplit m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := fun c => emp_sep_intro _)
    (hin := fun c => by rw [Φ_eq]; exact emp_sep_elim _)
    (hout := fun c => by rw [Φ_eq]; exact emp_sep_intro _)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the eleven arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 7).trans (((dats m 0 c).arrAt_in 7 rfl _).trans ((A_eq m c 7).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 11).trans (((dats m 0 c).arrAt_in 11 rfl _).trans ((A_eq m c 11).trans (V_main_arg9 m c))),
      ((h c).2 main_arg10 (Pipeline.mem_restRefs_of main_arg10 (by decide) (by decide))).trans (V_main_arg10 m c)⟩) (run_main m ρ)

end Cert.Kernel.Hand

end
-- ==== Proof.KernelIdealOut.lean ====
/-
  What one grid step of the kernel leaves in its output block, as a function of the thirteen input blocks.

  The step handles 2000 nodes in two halves of 1000. Each half loads its 1000 rows of the two feature blocks and its own
  1000-row mailbox block (the first half from the mailbox window of even block index, the second from the one of odd
  block index), applies the two small networks and the row normalisation, and stores branch 1 into columns 0–63 and
  branch 2 into columns 64–127 of its 1000 rows of the output block. The four stores tile the [2000, 128] block, so the
  block afterwards is the overlay of the four stored values, whatever it held before.
-/
import proofs.«121214_g34196529611290_cont_8to1_b_1671_18_alg».proof.Proof.Gen.KernelIdeal.Skeleton
import Idealize.ShloMosaic.Lib.Pipeline.FrameBody

set_option maxRecDepth 16384

noncomputable section

namespace Cert.KernelIdeal.Hand

open Idealize.ShloMosaic Idealize.ShloMosaic.TcCoe
open Cert.KernelIdeal Cert.KernelIdeal.Gen

variable {F : FTy → Type} [FloatOps F]

/-! ## The rectangles the body reads and writes -/

/-- Rows 0–999 of a [2000, 128] feature block. -/
abbrev rTop : Rect S2000x128 := Rect.unit (s := S2000x128) ![0, 0] S1000x128.size inb_S2000x128_S1000x128_0_0
/-- Rows 1000–1999 of a [2000, 128] feature block. -/
abbrev rBot : Rect S2000x128 := Rect.unit (s := S2000x128) ![1000, 0] S1000x128.size inb_S2000x128_S1000x128_1000_0
/-- A whole [1000, 1024] mailbox block. -/
abbrev rE : Rect S1000x1024 := Rect.unit (s := S1000x1024) ![0, 0] S1000x1024.size inb_S1000x1024_S1000x1024_0_0
abbrev rW1 : Rect S128x160 := Rect.unit (s := S128x160) ![0, 0] S128x160.size inb_S128x160_S128x160_0_0
abbrev rB1a : Rect S1x160 := Rect.unit (s := S1x160) ![0, 0] S1x160.size inb_S1x160_S1x160_0_0
abbrev rW1b : Rect S160x64 := Rect.unit (s := S160x64) ![0, 0] S160x64.size inb_S160x64_S160x64_0_0
abbrev rB64 : Rect S1x64 := Rect.unit (s := S1x64) ![0, 0] S1x64.size inb_S1x64_S1x64_0_0
abbrev rW2 : Rect S128x64 := Rect.unit (s := S128x64) ![0, 0] S128x64.size inb_S128x64_S128x64_0_0
abbrev rW2b : Rect S64x64 := Rect.unit (s := S64x64) ![0, 0] S64x64.size inb_S64x64_S64x64_0_0
/-- The four quarters of the output block: rows 0–999 / 1000–1999, columns 0–63 / 64–127. -/
abbrev rO00 : Rect S2000x128 := Rect.unit (s := S2000x128) ![0, 0] S1000x64.size inb_S2000x128_S1000x64_0_0
abbrev rO01 : Rect S2000x128 := Rect.unit (s := S2000x128) ![0, 64] S1000x64.size inb_S2000x128_S1000x64_0_64
abbrev rO10 : Rect S2000x128 := Rect.unit (s := S2000x128) ![1000, 0] S1000x64.size inb_S2000x128_S1000x64_1000_0
abbrev rO11 : Rect S2000x128 := Rect.unit (s := S2000x128) ![1000, 64] S1000x64.size inb_S2000x128_S1000x64_1000_64

/-! ## The four stored values -/

section
variable (x0 x1 : Vec F S2000x128 .f32) (x2 x3 : Vec F S1000x1024 .f32) (x4 x5 : Vec F S128x160 .f32) (x6 : Vec F S1x160 .f32)
  (x7 : Vec F S160x64 .f32) (x8 : Vec F S1x64 .f32) (x9 : Vec F S128x64 .f32) (x10 : Vec F S1x64 .f32) (x11 : Vec F S64x64 .f32)
  (x12 : Vec F S1x64 .f32)

/-- First half, branch 1 (rows 0–999, columns 0–63). -/
def pay00 : Vec F S1000x64 .f32 :=
  k0_pay19 (View.ld x7 rW1b) (k0_pay9 (View.ld x8 rB64)) (k0_pay10 (View.ld x9 rW2)) (k0_pay11 (View.ld x10 rB64)) (View.ld x11 rW2b)
    (k0_pay12 (View.ld x12 rB64)) (k0_pay13 (View.ld x2 rE))
    (k0_pay14 (View.ld x4 rW1) (View.ld x5 rW1) (View.ld x0 rTop) (View.ld x1 rTop)) (k0_pay15 (View.ld x6 rB1a))

/-- First half, branch 2 (rows 0–999, columns 64–127). -/
def pay01 : Vec F S1000x64 .f32 :=
  k0_pay20 (View.ld x7 rW1b) (k0_pay9 (View.ld x8 rB64)) (k0_pay10 (View.ld x9 rW2)) (k0_pay11 (View.ld x10 rB64)) (View.ld x11 rW2b)
    (k0_pay12 (View.ld x12 rB64)) (k0_pay13 (View.ld x2 rE))
    (k0_pay14 (View.ld x4 rW1) (View.ld x5 rW1) (View.ld x0 rTop) (View.ld x1 rTop)) (k0_pay15 (View.ld x6 rB1a))

/-- Second half, branch 1 (rows 1000–1999, columns 0–63). -/
def pay10 : Vec F S1000x64 .f32 :=
  k0_pay4 (k0_pay6 (View.ld x4 rW1)) (k0_pay7 (View.ld x5 rW1)) (k0_pay8 (View.ld x6 rB1a)) (View.ld x7 rW1b) (k0_pay9 (View.ld x8 rB64))
    (k0_pay10 (View.ld x9 rW2)) (k0_pay11 (View.ld x10 rB64)) (View.ld x11 rW2b) (k0_pay12 (View.ld x12 rB64))
    (View.ld x0 rBot) (View.ld x1 rBot) (k0_pay21 (View.ld x3 rE)) (k0_pay22 (View.ld x3 rE))

/-- Second half, branch 2 (rows 1000–1999, columns 64–127). -/
def pay11 : Vec F S1000x64 .f32 :=
  k0_pay5 (k0_pay6 (View.ld x4 rW1)) (k0_pay7 (View.ld x5 rW1)) (k0_pay8 (View.ld x6 rB1a)) (View.ld x7 rW1b) (k0_pay9 (View.ld x8 rB64))
    (k0_pay10 (View.ld x9 rW2)) (k0_pay11 (View.ld x10 rB64)) (View.ld x11 rW2b) (k0_pay12 (View.ld x12 rB64))
    (View.ld x0 rBot) (View.ld x1 rBot) (k0_pay21 (View.ld x3 rE)) (k0_pay22 (View.ld x3 rE))

/-- The output block after the step: the four stores as pieces, last first. -/
def outBlock : Vec F S2000x128 .f32 :=
  View.canon [⟨rO11, pay11 x0 x1 x3 x4 x5 x6 x7 x8 x9 x10 x11 x12⟩, ⟨rO10, pay10 x0 x1 x3 x4 x5 x6 x7 x8 x9 x10 x11 x12⟩,
    ⟨rO01, pay01 x0 x1 x2 x4 x5 x6 x7 x8 x9 x10 x11 x12⟩, ⟨rO00, pay00 x0 x1 x2 x4 x5 x6 x7 x8 x9 x10 x11 x12⟩]

end

/-- The four quarters tile the block, so they cover it. -/
theorem cover_out (p0 p1 p2 p3 : Vec F S1000x64 .f32) (y : S2000x128.Idx) :
    ∃ pc ∈ ([⟨rO11, p0⟩, ⟨rO10, p1⟩, ⟨rO01, p2⟩, ⟨rO00, p3⟩] : List (View.Piece (Elt F) S2000x128 .f32)), y ∈ pc.1.set :=
  View.cover_of_tiled [⟨rO11, p0⟩, ⟨rO10, p1⟩, ⟨rO01, p2⟩, ⟨rO00, p3⟩] S1000x64.size (by rfl) y

end Cert.KernelIdeal.Hand

end
-- ==== Proof.KernelIdealFrame.lean ====
/-
  The program runs to its end, faults nowhere and leaves its arguments as they were; and its result array ends at what
  the pipeline wrote back block by block.

  @main is eight host operations (two slices of `W1a`, the mailbox read flat, `W2a` stacked on itself, four biases
  reshaped to one row) and then one pipelined region of 25 grid steps over fourteen windows. The flat mailbox is handed
  to the region through TWO windows, the blocks of even index and the blocks of odd index: the region holds that one
  array at two half shares, one per window, and every other array at the full share. A step reads its thirteen input
  blocks, stores the four quarters of its output block (KernelIdealOut's `outBlock`), and the block is written back.
-/
import proofs.«121214_g34196529611290_cont_8to1_b_1671_18_alg».proof.Proof.Gen.KernelIdeal.Launch
import proofs.«121214_g34196529611290_cont_8to1_b_1671_18_alg».proof.Proof.Gen.KernelIdeal.Skeleton
import proofs.«121214_g34196529611290_cont_8to1_b_1671_18_alg».proof.Proof.Gen.KernelIdeal.Points
import proofs.«121214_g34196529611290_cont_8to1_b_1671_18_alg».proof.Proof.KernelIdealOut
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: as launched, overwritten by the eight host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every step, fetched there or not (an unfetched window's block
    index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- One step of the body on whole staging buffers, the inputs' at contents `xW` and the output's at anything, ends with
    the inputs' as they were and the output's at `outBlock` of the inputs'. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S1000x1024 .f32) (harg3 : arg3.IsWhole) (arg4 : Memref sig .tc .vmem S1000x1024 .f32) (harg4 : arg4.IsWhole) (arg5 : Memref sig .tc .vmem S128x160 .f32) (harg5 : arg5.IsWhole) (arg6 : Memref sig .tc .vmem S128x160 .f32) (harg6 : arg6.IsWhole) (arg7 : Memref sig .tc .vmem S1x160 .f32) (harg7 : arg7.IsWhole) (arg8 : Memref sig .tc .vmem S160x64 .f32) (harg8 : arg8.IsWhole) (arg9 : Memref sig .tc .vmem S1x64 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2000x128 .f32) (harg14 : arg14.IsWhole)
    (x0 : Vec F S2000x128 .f32) (x1 : Vec F S2000x128 .f32) (x2 : Vec F S1000x1024 .f32) (x3 : Vec F S1000x1024 .f32) (x4 : Vec F S128x160 .f32) (x5 : Vec F S128x160 .f32) (x6 : Vec F S1x160 .f32) (x7 : Vec F S160x64 .f32) (x8 : Vec F S1x64 .f32) (x9 : Vec F S128x64 .f32) (x10 : Vec F S1x64 .f32) (x11 : Vec F S64x64 .f32) (x12 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  unfold outBlock pay00 pay01 pay10 pay11
  exact View.read_writes_eq_canon _ _ _ (cover_out _ _ _ _)

/-! ## The pipeline's proof data -/

/-- The arrays as the region finds them; after a step each input's buffer at its block and the output's at `outBlock` of
    the input blocks; nothing kept between steps beyond the core's scratch; the flat mailbox held at one half share by
    each of its two windows, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The arrays dealt to the windows -/

/-- The thirteen distinct buffers behind the fourteen windows' arrays, each whole at the full share, are the windows'
    arrays at their shares: the flat mailbox's full share split into its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hR : (dats m 0 c).arrays ((dats m 0 c).arrAt · 0)
      = bigSep Finset.univ fun w : Fin 14 => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hR]
  have hL : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_call0_v2) ↦{fullShare} V m c main_call0_v2) ∗ (((c.tc : Thread nD τ).loc main_call0_v0) ↦{fullShare} V m c main_call0_v0) ∗ (((c.tc : Thread nD τ).loc main_call0_v1) ↦{fullShare} V m c main_call0_v1) ∗ (((c.tc : Thread nD τ).loc main_call0_v4) ↦{fullShare} V m c main_call0_v4) ∗ (((c.tc : Thread nD τ).loc main_arg5) ↦{fullShare} V m c main_arg5) ∗ (((c.tc : Thread nD τ).loc main_call0_v5) ↦{fullShare} V m c main_call0_v5) ∗ (((c.tc : Thread nD τ).loc main_call0_v3) ↦{fullShare} V m c main_call0_v3) ∗ (((c.tc : Thread nD τ).loc main_call0_v6) ↦{fullShare} V m c main_call0_v6) ∗ (((c.tc : Thread nD τ).loc main_arg9) ↦{fullShare} V m c main_arg9) ∗ (((c.tc : Thread nD τ).loc main_call0_v7) ↦{fullShare} V m c main_call0_v7) ∗ (((c.tc : Thread nD τ).loc main_v0) ↦{fullShare} V m c main_v0)) := by
    unfold Pipeline.arrBufs
    exact bigSep_eq_bigSepL_of_eq [main_arg0, main_arg1, main_call0_v2, main_call0_v0, main_call0_v1, main_call0_v4, main_arg5, main_call0_v5, main_call0_v3, main_call0_v6, main_arg9, main_call0_v7, main_v0] (by decide) (by decide) _
  rw [hL, bigSep_W0]
  iintro ⟨H0, H1, H2, H4, H5, H6, H7, H8, H9, H10, H11, H12, H13⟩
  ihave ⟨H2, H3⟩ := (pointsTo_share (PosShare.mem_left_op_right fullShare)).1 $$ H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The run -/

theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem emp_sep_elim (P : sProp 𝕄) : iprop(BI.emp ∗ P) ⊢ P := by
  iintro ⟨-, H⟩
  iexact H

theorem emp_sep_intro (P : sProp 𝕄) : P ⊢ iprop(BI.emp ∗ P) := by
  iintro H
  isplitr [H]
  · iempintro
  · iexact H

set_option backward.isDefEq.respectTransparency.types false in
/-- Every weakly fair execution of @main terminates, and in every final state each window's array holds what the
    write-backs left of it and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := _) (hu₀ := Entails.of_eq (ownU_emb₁ _))
    (V := V m) (hmain := hmain m Variants.none) (hsplit := hsplit m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := fun c => emp_sep_intro _)
    (hin := fun c => by rw [Φ_eq]; exact emp_sep_elim _)
    (hout := fun c => by rw [Φ_eq]; exact emp_sep_intro _)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the eleven arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 7).trans (((dats m 0 c).arrAt_in 7 rfl _).trans ((A_eq m c 7).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 11).trans (((dats m 0 c).arrAt_in 11 rfl _).trans ((A_eq m c 11).trans (V_main_arg9 m c))),
      ((h c).2 main_arg10 (Pipeline.mem_restRefs_of main_arg10 (by decide) (by decide))).trans (V_main_arg10 m c)⟩) (run_main m ρ)

end Cert.KernelIdeal.Hand

end
-- ==== Proof.RowSpec.lean ====
/-
  The mathematics of one node's row, with no program in sight.

  For one node the kernel and the reference both compute, from the node's two feature rows `x y : Fin 128`, its mailbox
  of sixteen edge states `E : Fin 16 → Fin 64` and the two small networks' weights, the 128 numbers
  `(tanh-branch 1 ‖ tanh-branch 2) / ‖·‖₂`.  They differ in how they arrange the sums:

  * the kernel feeds branch 1 with `x · W1a[0:128] + y · W1a[128:256]` where the reference multiplies the concatenated
    row `x ‖ y` by `W1a` whole;
  * the kernel adds the mailbox, read flat as 1024 numbers, by three halvings down to 128 lanes (`lane`) and lets the
    product with `W2a` stacked on itself finish the sum over the sixteen edges, where the reference sums the edges
    first (`msg`) and multiplies by `W2a`;
  * the kernel multiplies by `rsqrt` of the two branches' squared sums added, where the reference divides by the square
    root of the squared sum of the concatenated row.

  This file only states the two forms.
-/
import Idealize.ShloMosaic.PureOps.Ideal

noncomputable section

namespace Cert.RowSpec

open Idealize.ShloMosaic

/-- A dense layer on a rectified input followed by tanh: `tanh (Σ_k max (h k) 0 · W k j + b j)`. -/
def act {K : ℕ} (h : Fin K → EReal) (W : Fin K → Fin 64 → EReal) (b : Fin 64 → EReal) (j : Fin 64) : EReal :=
  Ideal.tanh ((∑ k : Fin K, max (h k) 0 * W k j) + b j)

/-! ## The kernel's arrangement -/

/-- Branch 1's hidden layer from the two feature rows against the two halves of `W1a`. -/
def hid1K (x y : Fin 128 → EReal) (wt wb : Fin 128 → Fin 160 → EReal) (b1a : Fin 160 → EReal) (k : Fin 160) : EReal :=
  ((∑ a : Fin 128, x a * wt a k) + (∑ a : Fin 128, y a * wb a k)) + b1a k

/-- The flat mailbox folded to 128 lanes by three halvings: 1024 → 512 → 256 → 128. -/
def lane (e : Fin 1024 → EReal) (j : Fin 128) : EReal :=
  ((e ⟨j.val, by omega⟩ + e ⟨j.val + 512, by omega⟩) + (e ⟨j.val + 256, by omega⟩ + e ⟨j.val + 768, by omega⟩))
    + ((e ⟨j.val + 128, by omega⟩ + e ⟨j.val + 640, by omega⟩) + (e ⟨j.val + 384, by omega⟩ + e ⟨j.val + 896, by omega⟩))

/-- Branch 2's hidden layer: the 128 lanes against `W2a` stacked on itself. -/
def hid2K (e : Fin 1024 → EReal) (w2 : Fin 128 → Fin 64 → EReal) (b2a : Fin 64 → EReal) (c : Fin 64) : EReal :=
  (∑ i : Fin 128, lane e i * w2 i c) + b2a c

/-- The kernel's first output half, branch 1. -/
def o1K (x y : Fin 128 → EReal) (wt wb : Fin 128 → Fin 160 → EReal) (b1a : Fin 160 → EReal)
    (W1b : Fin 160 → Fin 64 → EReal) (b1b : Fin 64 → EReal) : Fin 64 → EReal :=
  act (hid1K x y wt wb b1a) W1b b1b

/-- The kernel's second output half, branch 2. -/
def o2K (e : Fin 1024 → EReal) (w2 : Fin 128 → Fin 64 → EReal) (b2a : Fin 64 → EReal)
    (W2b : Fin 64 → Fin 64 → EReal) (b2b : Fin 64 → EReal) : Fin 64 → EReal :=
  act (hid2K e w2 b2a) W2b b2b

/-- The kernel's scale: `rsqrt` of the two halves' squared sums added. -/
def invK (o1 o2 : Fin 64 → EReal) : EReal :=
  Ideal.rsqrt ((∑ j : Fin 64, o1 j * o1 j) + (∑ j : Fin 64, o2 j * o2 j))

/-! ## The reference's arrangement -/

/-- The two feature rows side by side. -/
def cat2 {n : ℕ} (u v : Fin n → EReal) (a : Fin (n + n)) : EReal :=
  if h : a.val < n then u ⟨a.val, h⟩ else v ⟨a.val - n, by omega⟩

/-- Branch 1's hidden layer from the concatenated row against `W1a` whole. -/
def hid1R (x y : Fin 128 → EReal) (W1a : Fin 256 → Fin 160 → EReal) (b1a : Fin 160 → EReal) (k : Fin 160) : EReal :=
  (∑ a : Fin 256, cat2 x y a * W1a a k) + b1a k

/-- The mailbox summed over its sixteen edges. -/
def msg (E : Fin 16 → Fin 64 → EReal) (c : Fin 64) : EReal := ∑ d : Fin 16, E d c

/-- Branch 2's hidden layer from the summed mailbox. -/
def hid2R (E : Fin 16 → Fin 64 → EReal) (W2a : Fin 64 → Fin 64 → EReal) (b2a : Fin 64 → EReal) (c : Fin 64) : EReal :=
  (∑ c' : Fin 64, msg E c' * W2a c' c) + b2a c

/-- The reference's unnormalised row: branch 1 then branch 2. -/
def catR (x y : Fin 128 → EReal) (E : Fin 16 → Fin 64 → EReal) (W1a : Fin 256 → Fin 160 → EReal) (b1a : Fin 160 → EReal)
    (W1b : Fin 160 → Fin 64 → EReal) (b1b : Fin 64 → EReal) (W2a : Fin 64 → Fin 64 → EReal) (b2a : Fin 64 → EReal)
    (W2b : Fin 64 → Fin 64 → EReal) (b2b : Fin 64 → EReal) : Fin 128 → EReal :=
  cat2 (act (hid1R x y W1a b1a) W1b b1b) (act (hid2R E W2a b2a) W2b b2b)

/-- The row's Euclidean norm. -/
def nrmR (r : Fin 128 → EReal) : EReal := Ideal.sqrt (∑ j : Fin 128, r j * r j)

/-- The reference's row: each entry over the norm. -/
def outR (r : Fin 128 → EReal) (j : Fin 128) : EReal := Ideal.div (r j) (nrmR r)

/-! ## How the kernel's operands are cut from the reference's -/

/-- The mailbox read flat, edge-major: entry `64 d + c` is edge `d`, feature `c`. -/
def flat (E : Fin 16 → Fin 64 → EReal) (i : Fin 1024) : EReal :=
  E ⟨i.val / 64, by omega⟩ ⟨i.val % 64, by omega⟩

/-- The first 128 rows of `W1a`. -/
def top (W : Fin 256 → Fin 160 → EReal) (a : Fin 128) (k : Fin 160) : EReal := W ⟨a.val, by omega⟩ k

/-- The last 128 rows of `W1a`. -/
def bot (W : Fin 256 → Fin 160 → EReal) (a : Fin 128) (k : Fin 160) : EReal := W ⟨a.val + 128, by omega⟩ k

/-- `W2a` stacked on itself. -/
def stack (W : Fin 64 → Fin 64 → EReal) (i : Fin 128) (c : Fin 64) : EReal :=
  if h : i.val < 64 then W ⟨i.val, h⟩ c else W ⟨i.val - 64, by omega⟩ c

/-- The kernel's row from the reference's operands. -/
def outK (x y : Fin 128 → EReal) (E : Fin 16 → Fin 64 → EReal) (W1a : Fin 256 → Fin 160 → EReal) (b1a : Fin 160 → EReal)
    (W1b : Fin 160 → Fin 64 → EReal) (b1b : Fin 64 → EReal) (W2a : Fin 64 → Fin 64 → EReal) (b2a : Fin 64 → EReal)
    (W2b : Fin 64 → Fin 64 → EReal) (b2b : Fin 64 → EReal) : Fin 128 → EReal :=
  cat2
    (fun j => o1K x y (top W1a) (bot W1a) b1a W1b b1b j
      * invK (o1K x y (top W1a) (bot W1a) b1a W1b b1b) (o2K (flat E) (stack W2a) b2a W2b b2b))
    (fun j => o2K (flat E) (stack W2a) b2a W2b b2b j
      * invK (o1K x y (top W1a) (bot W1a) b1a W1b b1b) (o2K (flat E) (stack W2a) b2a W2b b2b))

end Cert.RowSpec

end
-- ==== Proof.RowArgs.lean ====
/-
  One node's operands cut from the whole argument arrays: node `n`'s two feature rows, its mailbox and the weights, as
  plain functions, and with them the two forms of its output row (RowSpec) as functions of the eleven arrays.
-/
import proofs.«121214_g34196529611290_cont_8to1_b_1671_18_alg».proof.Proof.RowSpec
import Idealize.ShloMosaic.Lib.ValueIdx

noncomputable section

namespace Cert.RowSpec

open Idealize.ShloMosaic Idealize.ShloMosaic.ValueIdx

section
variable (x0 x1 : (⟨2, ![50000, 128]⟩ : Shape).Idx → EReal) (x2 : (⟨3, ![50000, 16, 64]⟩ : Shape).Idx → EReal)
  (x3 : (⟨2, ![256, 160]⟩ : Shape).Idx → EReal) (x4 : (⟨1, ![160]⟩ : Shape).Idx → EReal)
  (x5 : (⟨2, ![160, 64]⟩ : Shape).Idx → EReal) (x6 : (⟨1, ![64]⟩ : Shape).Idx → EReal)
  (x7 : (⟨2, ![64, 64]⟩ : Shape).Idx → EReal) (x8 : (⟨1, ![64]⟩ : Shape).Idx → EReal)
  (x9 : (⟨2, ![64, 64]⟩ : Shape).Idx → EReal) (x10 : (⟨1, ![64]⟩ : Shape).Idx → EReal)

/-- Node `n`'s unnormalised row, the reference's arrangement, from the eleven argument arrays. -/
def catRow (n : Fin 50000) : Fin 128 → EReal :=
  catR (fun a => x0 (ix2 n a)) (fun a => x1 (ix2 n a)) (fun d c => x2 (ix3 n d c)) (fun a k => x3 (ix2 a k))
    (fun k => x4 (ix1 k)) (fun k j => x5 (ix2 k j)) (fun j => x6 (ix1 j)) (fun a c => x7 (ix2 a c)) (fun c => x8 (ix1 c))
    (fun c j => x9 (ix2 c j)) (fun j => x10 (ix1 j))

/-- Node `n`'s output row, the kernel's arrangement, from the eleven argument arrays. -/
def kerRow (n : Fin 50000) : Fin 128 → EReal :=
  outK (fun a => x0 (ix2 n a)) (fun a => x1 (ix2 n a)) (fun d c => x2 (ix3 n d c)) (fun a k => x3 (ix2 a k))
    (fun k => x4 (ix1 k)) (fun k j => x5 (ix2 k j)) (fun j => x6 (ix1 j)) (fun a c => x7 (ix2 a c)) (fun c => x8 (ix1 c))
    (fun c j => x9 (ix2 c j)) (fun j => x10 (ix1 j))

end

end Cert.RowSpec

end
-- ==== Proof.RowBlock.lean ====
/-
  The kernel's row from operands as the kernel holds them: the two feature rows, the node's mailbox read flat, the two
  halves of `W1a`, `W2a` stacked on itself, the biases as plain vectors. `RowSpec.outK` is this at the operands cut
  from the reference's.
-/
import proofs.«121214_g34196529611290_cont_8to1_b_1671_18_alg».proof.Proof.RowSpec

noncomputable section

namespace Cert.RowSpec

/-- One node's 128 outputs in the kernel's arrangement: branch 1 then branch 2, each times `rsqrt` of the summed squares. -/
def kerRowOf (x y : Fin 128 → EReal) (e : Fin 1024 → EReal) (wt wb : Fin 128 → Fin 160 → EReal) (b1a : Fin 160 → EReal)
    (W1b : Fin 160 → Fin 64 → EReal) (b1b : Fin 64 → EReal) (w2 : Fin 128 → Fin 64 → EReal) (b2a : Fin 64 → EReal)
    (W2b : Fin 64 → Fin 64 → EReal) (b2b : Fin 64 → EReal) : Fin 128 → EReal :=
  cat2 (fun j => o1K x y wt wb b1a W1b b1b j * invK (o1K x y wt wb b1a W1b b1b) (o2K e w2 b2a W2b b2b))
    (fun j => o2K e w2 b2a W2b b2b j * invK (o1K x y wt wb b1a W1b b1b) (o2K e w2 b2a W2b b2b))

theorem outK_eq_kerRowOf (x y : Fin 128 → EReal) (E : Fin 16 → Fin 64 → EReal) (W1a : Fin 256 → Fin 160 → EReal) (b1a : Fin 160 → EReal)
    (W1b : Fin 160 → Fin 64 → EReal) (b1b : Fin 64 → EReal) (W2a : Fin 64 → Fin 64 → EReal) (b2a : Fin 64 → EReal)
    (W2b : Fin 64 → Fin 64 → EReal) (b2b : Fin 64 → EReal) :
    outK x y E W1a b1a W1b b1b W2a b2a W2b b2b
      = kerRowOf x y (flat E) (top W1a) (bot W1a) b1a W1b b1b (stack W2a) b2a W2b b2b := rfl

end Cert.RowSpec

end
-- ==== Proof.KernelIdealValue1.lean ====
/-
  The thirteen input blocks of a grid step, entry by entry, as entries of the eleven argument arrays.

  Before the region the host cuts `W1a` into its two halves, reads the mailbox [50000, 16, 64] flat as [50000, 1024],
  stacks `W2a` on itself and reshapes the four biases and `b1a` to one row each. A window's block at step `t` sits in
  its array at block index times block size plus the coordinate inside the block; the block indices over the 25 steps
  are decided once. So each block entry is one entry of an argument array, named here by coordinates.
-/
import proofs.«121214_g34196529611290_cont_8to1_b_1671_18_alg».proof.Proof.KernelIdealFrame
import proofs.«121214_g34196529611290_cont_8to1_b_1671_18_alg».proof.Proof.RowArgs
import proofs.«121214_g34196529611290_cont_8to1_b_1671_18_alg».proof.Proof.RowBlock
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx Cert.RowSpec
open Idealize.ShloMosaic.Pipeline (Dat)

variable (m : (ℓ : Loc nD τ sig) → Buf (Elt Ideal) ℓ)

/-! ## The index maps over the grid -/

/-- The fourteen windows' block indices at each of the 25 grid steps: the two feature windows and the output move one
    block a step, the two mailbox windows take the even and the odd block of each pair, the weights' windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

/-! ## The arrays the host operations wrote before the region -/

theorem V_v0 (c : Dev nD) : (V m c main_call0_v0 : S128x160.Idx → EReal)
    = extractStridedSlice S128x160 ![0, 0] (m ((c : Thread nD τ).loc main_arg3) : S256x160.Idx → EReal) slices_S256x160_S128x160_0_0 := by
  dsimp only [V, hostOps0]; after_results; rfl

theorem V_v1 (c : Dev nD) : (V m c main_call0_v1 : S128x160.Idx → EReal)
    = extractStridedSlice S128x160 ![128, 0] (m ((c : Thread nD τ).loc main_arg3) : S256x160.Idx → EReal) slices_S256x160_S128x160_128_0 := by
  dsimp only [V, hostOps0]; after_results; rfl

theorem V_v2 (c : Dev nD) : (V m c main_call0_v2 : S50000x1024.Idx → EReal)
    = shapeCast S50000x1024 (m ((c : Thread nD τ).loc main_arg2) : S50000x16x64.Idx → EReal) shapeCasts_S50000x16x64_S50000x1024 := by
  dsimp only [V, hostOps0]; after_results; rfl

theorem V_v3 (c : Dev nD) : (V m c main_call0_v3 : S128x64.Idx → EReal)
    = concatenate S128x64 0 [⟨S64x64, (m ((c : Thread nD τ).loc main_arg7) : S64x64.Idx → EReal)⟩, ⟨S64x64, (m ((c : Thread nD τ).loc main_arg7) : S64x64.Idx → EReal)⟩] concatenates_S64x64_S64x64_S128x64_d0 := by
  dsimp only [V, hostOps0]; after_results; rfl

theorem V_v4 (c : Dev nD) : (V m c main_call0_v4 : S1x160.Idx → EReal)
    = shapeCast S1x160 (m ((c : Thread nD τ).loc main_arg4) : S160.Idx → EReal) shapeCasts_S160_S1x160 := by
  dsimp only [V, hostOps0]; after_results; rfl

theorem V_v5 (c : Dev nD) : (V m c main_call0_v5 : S1x64.Idx → EReal)
    = shapeCast S1x64 (m ((c : Thread nD τ).loc main_arg6) : S64.Idx → EReal) shapeCasts_S64_S1x64 := by
  dsimp only [V, hostOps0]; after_results; rfl

theorem V_v6 (c : Dev nD) : (V m c main_call0_v6 : S1x64.Idx → EReal)
    = shapeCast S1x64 (m ((c : Thread nD τ).loc main_arg8) : S64.Idx → EReal) shapeCasts_S64_S1x64 := by
  dsimp only [V, hostOps0]; after_results; rfl

theorem V_v7 (c : Dev nD) : (V m c main_call0_v7 : S1x64.Idx → EReal)
    = shapeCast S1x64 (m ((c : Thread nD τ).loc main_arg10) : S64.Idx → EReal) shapeCasts_S64_S1x64 := by
  dsimp only [V, hostOps0]; after_results; rfl

/-- A [64, 64] array concatenated with itself along the rows, read at row `i`, is the array at row `i` or `i - 64`. -/
theorem concat_self_apply (x : S64x64.Idx → EReal) (i : Fin 128) (q : Fin 64) (j : S128x64.Idx)
    (hj0 : (j 0).val = i.val) (hj1 : (j 1).val = q.val) :
    concatenate S128x64 0 [⟨S64x64, x⟩, ⟨S64x64, x⟩] concatenates_S64x64_S64x64_S128x64_d0 j
      = stack (fun a c' => x (ix2 a c')) i q := by
  unfold stack
  split
  · next h =>
    exact concatenate_pair_apply_left (t := S128x64) (s₁ := S64x64) (s₂ := S64x64) (0 : Fin 2) x x concatenates_S64x64_S64x64_S128x64_d0 j rfl
      (ix2 (⟨i.val, h⟩ : Fin 64) q) (by
        intro b
        match b with
        | ⟨0, _⟩ => exact hj0.symm
        | ⟨1, _⟩ => exact hj1.symm)
  · next h =>
    exact concatenate_pair_apply_right (t := S128x64) (s₁ := S64x64) (s₂ := S64x64) (0 : Fin 2) x x concatenates_S64x64_S64x64_S128x64_d0 j rfl rfl
      (ix2 (⟨i.val - 64, by have := i.isLt; omega⟩ : Fin 64) q) (by
        intro b hb
        match b with
        | ⟨0, _⟩ => exact absurd rfl hb
        | ⟨1, _⟩ => exact hj1.symm) (by
        show i.val - 64 + 64 = (j 0).val; omega)

/-! ## What each window's block holds -/

/-- Window 0's block at step `t`: rows `2000 t … 2000 t + 1999` of the first feature array. -/
theorem blk0_apply (c : Dev nD) (t : Fin cfg0.N) (r : Fin 2000) (a : Fin 128) (k : S50000x128.Idx)
    (hk0 : (k 0).val = 2000 * t.val + r.val) (hk1 : (k 1).val = a.val) :
    (iblk m c 0 t : Vec Ideal S2000x128 .f32) (ix2 r a) = (m ((c : Thread nD τ).loc main_arg0) : S50000x128.Idx → EReal) k := by
  obtain ⟨e0, e1, -⟩ := idx_facts t
  show V m c main_arg0 (((cfg0.win 0).blk t).view.emb (ix2 r a)) = _
  rw [V_main_arg0]
  congr 1
  funext d; apply Fin.ext
  match d with
  | ⟨0, _⟩ => show win0_0.index t (0 : Fin 2) * 2000 + 1 * r.val = (k 0).val; omega
  | ⟨1, _⟩ => show win0_0.index t (1 : Fin 2) * 128 + 1 * a.val = (k 1).val; omega

/-- Window 1's block at step `t`: the same rows of the second feature array. -/
theorem blk1_apply (c : Dev nD) (t : Fin cfg0.N) (r : Fin 2000) (a : Fin 128) (k : S50000x128.Idx)
    (hk0 : (k 0).val = 2000 * t.val + r.val) (hk1 : (k 1).val = a.val) :
    (iblk m c 1 t : Vec Ideal S2000x128 .f32) (ix2 r a) = (m ((c : Thread nD τ).loc main_arg1) : S50000x128.Idx → EReal) k := by
  obtain ⟨-, -, e0, e1, -⟩ := idx_facts t
  show V m c main_arg1 (((cfg0.win 1).blk t).view.emb (ix2 r a)) = _
  rw [V_main_arg1]
  congr 1
  funext d; apply Fin.ext
  match d with
  | ⟨0, _⟩ => show win0_1.index t (0 : Fin 2) * 2000 + 1 * r.val = (k 0).val; omega
  | ⟨1, _⟩ => show win0_1.index t (1 : Fin 2) * 128 + 1 * a.val = (k 1).val; omega

/-- Window 2's block at step `t`: the mailboxes of nodes `2000 t … 2000 t + 999`, each read flat, edge-major. -/
theorem blk2_apply (c : Dev nD) (t : Fin cfg0.N) (r : Fin 1000) (i : Fin 1024) (k : S50000x16x64.Idx)
    (hk0 : (k 0).val = 2000 * t.val + r.val) (hk1 : (k 1).val = i.val / 64) (hk2 : (k 2).val = i.val % 64) :
    (iblk m c 2 t : Vec Ideal S1000x1024 .f32) (ix2 r i) = (m ((c : Thread nD τ).loc main_arg2) : S50000x16x64.Idx → EReal) k := by
  obtain ⟨-, -, -, -, e0, e1, -⟩ := idx_facts t
  show V m c main_call0_v2 (((cfg0.win 2).blk t).view.emb (ix2 r i)) = _
  rw [V_v2]
  refine shapeCast_apply _ _ _ k ?_
  rw [Shape.rowMajor_val_two, Shape.rowMajor_val_three]
  show ((k 0).val * 16 + (k 1).val) * 64 + (k 2).val = (win0_2.index t (0 : Fin 2) * 1000 + 1 * r.val) * 1024 + (win0_2.index t (1 : Fin 2) * 1024 + 1 * i.val)
  have := i.isLt
  omega

/-- Window 3's block at step `t`: the mailboxes of nodes `2000 t + 1000 … 2000 t + 1999`. -/
theorem blk3_apply (c : Dev nD) (t : Fin cfg0.N) (r : Fin 1000) (i : Fin 1024) (k : S50000x16x64.Idx)
    (hk0 : (k 0).val = 2000 * t.val + (r.val + 1000)) (hk1 : (k 1).val = i.val / 64) (hk2 : (k 2).val = i.val % 64) :
    (iblk m c 3 t : Vec Ideal S1000x1024 .f32) (ix2 r i) = (m ((c : Thread nD τ).loc main_arg2) : S50000x16x64.Idx → EReal) k := by
  obtain ⟨-, -, -, -, -, -, e0, e1, -⟩ := idx_facts t
  show V m c main_call0_v2 (((cfg0.win 3).blk t).view.emb (ix2 r i)) = _
  rw [V_v2]
  refine shapeCast_apply _ _ _ k ?_
  rw [Shape.rowMajor_val_two, Shape.rowMajor_val_three]
  show ((k 0).val * 16 + (k 1).val) * 64 + (k 2).val = (win0_3.index t (0 : Fin 2) * 1000 + 1 * r.val) * 1024 + (win0_3.index t (1 : Fin 2) * 1024 + 1 * i.val)
  have := i.isLt
  omega

/-- Window 4's one block: the first 128 rows of `W1a`. -/
theorem blk4_apply (c : Dev nD) (t : Fin cfg0.N) (a : Fin 128) (p : Fin 160) (k : S256x160.Idx)
    (hk0 : (k 0).val = a.val) (hk1 : (k 1).val = p.val) :
    (iblk m c 4 t : Vec Ideal S128x160 .f32) (ix2 a p) = (m ((c : Thread nD τ).loc main_arg3) : S256x160.Idx → EReal) k := by
  obtain ⟨-, -, -, -, -, -, -, -, e0, e1, -⟩ := idx_facts t
  show V m c main_call0_v0 (((cfg0.win 4).blk t).view.emb (ix2 a p)) = _
  rw [V_v0]
  refine extractStridedSlice_apply _ _ _ _ k fun d => ?_
  match d with
  | ⟨0, _⟩ => show (k 0).val = 0 + (win0_4.index t (0 : Fin 2) * 128 + 1 * a.val); omega
  | ⟨1, _⟩ => show (k 1).val = 0 + (win0_4.index t (1 : Fin 2) * 160 + 1 * p.val); omega

/-- Window 5's one block: the last 128 rows of `W1a`. -/
theorem blk5_apply (c : Dev nD) (t : Fin cfg0.N) (a : Fin 128) (p : Fin 160) (k : S256x160.Idx)
    (hk0 : (k 0).val = a.val + 128) (hk1 : (k 1).val = p.val) :
    (iblk m c 5 t : Vec Ideal S128x160 .f32) (ix2 a p) = (m ((c : Thread nD τ).loc main_arg3) : S256x160.Idx → EReal) k := by
  obtain ⟨-, -, -, -, -, -, -, -, -, -, e0, e1, -⟩ := idx_facts t
  show V m c main_call0_v1 (((cfg0.win 5).blk t).view.emb (ix2 a p)) = _
  rw [V_v1]
  refine extractStridedSlice_apply _ _ _ _ k fun d => ?_
  match d with
  | ⟨0, _⟩ => show (k 0).val = 128 + (win0_5.index t (0 : Fin 2) * 128 + 1 * a.val); omega
  | ⟨1, _⟩ => show (k 1).val = 0 + (win0_5.index t (1 : Fin 2) * 160 + 1 * p.val); omega

/-- Window 6's one block: the bias `b1a` as one row. -/
theorem blk6_apply (c : Dev nD) (t : Fin cfg0.N) (p : Fin 160) :
    (iblk m c 6 t : Vec Ideal S1x160 .f32) (ix2 (0 : Fin 1) p) = (m ((c : Thread nD τ).loc main_arg4) : S160.Idx → EReal) (ix1 p) := by
  obtain ⟨-, -, -, -, -, -, -, -, -, -, -, -, e0, e1, -⟩ := idx_facts t
  show V m c main_call0_v4 (((cfg0.win 6).blk t).view.emb (ix2 (0 : Fin 1) p)) = _
  rw [V_v4]
  refine shapeCast_apply _ _ _ (ix1 p) ?_
  rw [Shape.rowMajor_val_one, Shape.rowMajor_val_two]
  show p.val = (win0_6.index t (0 : Fin 2) * 1 + 1 * 0) * 160 + (win0_6.index t (1 : Fin 2) * 160 + 1 * p.val)
  omega

/-- Window 7's one block: `W1b` whole. -/
theorem blk7_apply (c : Dev nD) (t : Fin cfg0.N) (p : Fin 160) (j : Fin 64) :
    (iblk m c 7 t : Vec Ideal S160x64 .f32) (ix2 p j) = (m ((c : Thread nD τ).loc main_arg5) : S160x64.Idx → EReal) (ix2 p j) := by
  obtain ⟨-, -, -, -, -, -, -, -, -, -, -, -, -, -, e0, e1, -⟩ := idx_facts t
  show V m c main_arg5 (((cfg0.win 7).blk t).view.emb (ix2 p j)) = _
  rw [V_main_arg5]
  congr 1
  funext d; apply Fin.ext
  match d with
  | ⟨0, _⟩ => show win0_7.index t (0 : Fin 2) * 160 + 1 * p.val = p.val; omega
  | ⟨1, _⟩ => show win0_7.index t (1 : Fin 2) * 64 + 1 * j.val = j.val; omega

/-- Window 8's one block: the bias `b1b` as one row. -/
theorem blk8_apply (c : Dev nD) (t : Fin cfg0.N) (j : Fin 64) :
    (iblk m c 8 t : Vec Ideal S1x64 .f32) (ix2 (0 : Fin 1) j) = (m ((c : Thread nD τ).loc main_arg6) : S64.Idx → EReal) (ix1 j) := by
  obtain ⟨-, -, -, -, -, -, -, -, -, -, -, -, -, -, -, -, e0, e1, -⟩ := idx_facts t
  show V m c main_call0_v5 (((cfg0.win 8).blk t).view.emb (ix2 (0 : Fin 1) j)) = _
  rw [V_v5]
  refine shapeCast_apply _ _ _ (ix1 j) ?_
  rw [Shape.rowMajor_val_one, Shape.rowMajor_val_two]
  show j.val = (win0_8.index t (0 : Fin 2) * 1 + 1 * 0) * 64 + (win0_8.index t (1 : Fin 2) * 64 + 1 * j.val)
  omega

/-- Window 9's one block: `W2a` stacked on itself. -/
theorem blk9_apply (c : Dev nD) (t : Fin cfg0.N) (i : Fin 128) (q : Fin 64) :
    (iblk m c 9 t : Vec Ideal S128x64 .f32) (ix2 i q)
      = stack (fun a c' => (m ((c : Thread nD τ).loc main_arg7) : S64x64.Idx → EReal) (ix2 a c')) i q := by
  obtain ⟨-, -, -, -, -, -, -, -, -, -, -, -, -, -, -, -, -, -, e0, e1, -⟩ := idx_facts t
  show V m c main_call0_v3 (((cfg0.win 9).blk t).view.emb (ix2 i q)) = _
  rw [V_v3]
  refine concat_self_apply _ i q _ ?_ ?_
  · show win0_9.index t (0 : Fin 2) * 128 + 1 * i.val = i.val; omega
  · show win0_9.index t (1 : Fin 2) * 64 + 1 * q.val = q.val; omega

/-- Window 10's one block: the bias `b2a` as one row. -/
theorem blk10_apply (c : Dev nD) (t : Fin cfg0.N) (j : Fin 64) :
    (iblk m c 10 t : Vec Ideal S1x64 .f32) (ix2 (0 : Fin 1) j) = (m ((c : Thread nD τ).loc main_arg8) : S64.Idx → EReal) (ix1 j) := by
  obtain ⟨-, -, -, -, -, -, -, -, -, -, -, -, -, -, -, -, -, -, -, -, e0, e1, -⟩ := idx_facts t
  show V m c main_call0_v6 (((cfg0.win 10).blk t).view.emb (ix2 (0 : Fin 1) j)) = _
  rw [V_v6]
  refine shapeCast_apply _ _ _ (ix1 j) ?_
  rw [Shape.rowMajor_val_one, Shape.rowMajor_val_two]
  show j.val = (win0_10.index t (0 : Fin 2) * 1 + 1 * 0) * 64 + (win0_10.index t (1 : Fin 2) * 64 + 1 * j.val)
  omega

/-- Window 11's one block: `W2b` whole. -/
theorem blk11_apply (c : Dev nD) (t : Fin cfg0.N) (p j : Fin 64) :
    (iblk m c 11 t : Vec Ideal S64x64 .f32) (ix2 p j) = (m ((c : Thread nD τ).loc main_arg9) : S64x64.Idx → EReal) (ix2 p j) := by
  obtain ⟨-, -, -, -, -, -, -, -, -, -, -, -, -, -, -, -, -, -, -, -, -, -, e0, e1, -⟩ := idx_facts t
  show V m c main_arg9 (((cfg0.win 11).blk t).view.emb (ix2 p j)) = _
  rw [V_main_arg9]
  congr 1
  funext d; apply Fin.ext
  match d with
  | ⟨0, _⟩ => show win0_11.index t (0 : Fin 2) * 64 + 1 * p.val = p.val; omega
  | ⟨1, _⟩ => show win0_11.index t (1 : Fin 2) * 64 + 1 * j.val = j.val; omega

/-- Window 12's one block: the bias `b2b` as one row. -/
theorem blk12_apply (c : Dev nD) (t : Fin cfg0.N) (j : Fin 64) :
    (iblk m c 12 t : Vec Ideal S1x64 .f32) (ix2 (0 : Fin 1) j) = (m ((c : Thread nD τ).loc main_arg10) : S64.Idx → EReal) (ix1 j) := by
  obtain ⟨-, -, -, -, -, -, -, -, -, -, -, -, -, -, -, -, -, -, -, -, -, -, -, -, e0, e1, -⟩ := idx_facts t
  show V m c main_call0_v7 (((cfg0.win 12).blk t).view.emb (ix2 (0 : Fin 1) j)) = _
  rw [V_v7]
  refine shapeCast_apply _ _ _ (ix1 j) ?_
  rw [Shape.rowMajor_val_one, Shape.rowMajor_val_two]
  show j.val = (win0_12.index t (0 : Fin 2) * 1 + 1 * 0) * 64 + (win0_12.index t (1 : Fin 2) * 64 + 1 * j.val)
  omega

end Cert.KernelIdeal.Hand

end
-- ==== Proof.KernelIdealCover.lean ====
/-
  The 25 output blocks of 2000 rows cover the [50000, 128] result array: row `n` lies in block `n / 2000`.
-/
import proofs.«121214_g34196529611290_cont_8to1_b_1671_18_alg».proof.Proof.KernelIdealFrame
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The output window's block index at grid step `t` is `(t, 0)`. -/
theorem out_index : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- An index of the result array is in step `t`'s block iff each coordinate is in the block's range on its axis. -/
theorem mem_blk13 (t : Fin cfg0.N) (i : S50000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v0).slice (win0_13.rect t)).set ↔ _
  rw [View.set_slice_whole, Rect.mem_set_unit]
  exact Iff.rfl

/-- Every index of the result array lies in the block of some step, and every step writes its block back. -/
theorem cover13 (i : S50000x128.Idx) : ∃ t : Fin cfg0.N, (cfg0.win 13).flush t = true ∧ i ∈ ((cfg0.win 13).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_13 _, ?_⟩
  rw [mem_blk13]
  obtain ⟨e0, e1⟩ := out_index ⟨(i 0).val / 2000, by rw [hN]; omega⟩
  intro a
  match a with
  | ⟨0, _⟩ =>
    show win0_13.index _ (0 : Fin 2) * 2000 ≤ (i 0).val ∧ (i 0).val < win0_13.index _ (0 : Fin 2) * 2000 + 2000
    rw [e0]; show (i 0).val / 2000 * 2000 ≤ (i 0).val ∧ (i 0).val < (i 0).val / 2000 * 2000 + 2000; omega
  | ⟨1, _⟩ =>
    show win0_13.index _ (1 : Fin 2) * 128 ≤ (i 1).val ∧ (i 1).val < win0_13.index _ (1 : Fin 2) * 128 + 128
    rw [e1]; omega

end Cert.KernelIdeal.Hand

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow1.lean ====
/-
  The operations of one half of the kernel's step that are not entry by entry, read at an entry of the extended reals:
  the four matrix products (each accumulated into a zero block, so each is a plain sum over the inner axis), the sum of a
  [1000, 64] block along its rows, and the pointwise operations tanh and reciprocal square root. Each product is read
  through the bijection between its one contracted axis and the inner positions; the two operand entries at an inner
  position are then named coordinate by coordinate.
-/
import proofs.«121214_g34196529611290_cont_8to1_b_1671_18_alg».proof.Proof.Gen.KernelIdeal.Skeleton
import proofs.«121214_g34196529611290_cont_8to1_b_1671_18_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-! ## The four products -/

/-! ### Feature rows against one half of the first layer's matrix of branch 1: [1000, 128] × [128, 160] -/

theorem lhs_fw_0 (i : S1000x160.Idx) (q : dot_S1000x128_S128x160_S1000x160_1_0_0_1_n_n.contr.Idx) :
    (dot_S1000x128_S128x160_S1000x160_1_0_0_1_n_n.lhsIdx i q 0).val = (i 0).val := by
  unfold DotDims.lhsIdx
  rw [dif_neg (show ¬(0 : Fin S1000x128.rank) ∈ dot_S1000x128_S128x160_S1000x160_1_0_0_1_n_n.lhsBatch by decide), dif_pos (show (0 : Fin S1000x128.rank) ∈ dot_S1000x128_S128x160_S1000x160_1_0_0_1_n_n.lhsNonContracting by decide)]
  rfl
theorem lhs_fw_1 (i : S1000x160.Idx) (q : dot_S1000x128_S128x160_S1000x160_1_0_0_1_n_n.contr.Idx) :
    (dot_S1000x128_S128x160_S1000x160_1_0_0_1_n_n.lhsIdx i q 1).val = (q ⟨0, by decide⟩).val :=
  dot_S1000x128_S128x160_S1000x160_1_0_0_1_n_n.lhsIdx_val_of_single rfl i q
theorem rhs_fw_0 (i : S1000x160.Idx) (q : dot_S1000x128_S128x160_S1000x160_1_0_0_1_n_n.contr.Idx) :
    (dot_S1000x128_S128x160_S1000x160_1_0_0_1_n_n.rhsIdx i q 0).val = (q ⟨0, by decide⟩).val :=
  dot_S1000x128_S128x160_S1000x160_1_0_0_1_n_n.rhsIdx_val_of_single rfl i q
theorem rhs_fw_1 (i : S1000x160.Idx) (q : dot_S1000x128_S128x160_S1000x160_1_0_0_1_n_n.contr.Idx) :
    (dot_S1000x128_S128x160_S1000x160_1_0_0_1_n_n.rhsIdx i q 1).val = (i 1).val := by
  unfold DotDims.rhsIdx
  rw [dif_neg (show ¬(1 : Fin S128x160.rank) ∈ dot_S1000x128_S128x160_S1000x160_1_0_0_1_n_n.rhsBatch by decide), dif_pos (show (1 : Fin S128x160.rank) ∈ dot_S1000x128_S128x160_S1000x160_1_0_0_1_n_n.rhsNonContracting by decide)]
  rfl

/-- The product of a [1000, 128] block with a [128, 160] matrix, accumulated into zero, at (r, c): the sum over the 128 inner
    positions of the row's entry times the column's. -/
theorem matmul_fw_apply (A : FVec Ideal S1000x128 .f32) (B : FVec Ideal S128x160 .f32) (r : Fin 1000) (c : Fin 160) :
    matmul dot_S1000x128_S128x160_S1000x160_1_0_0_1_n_n none A B (constant (F := Ideal) S1000x160 .f32 0x00000000#32) (ix2 r c)
      = ∑ a : Fin 128, A (ix2 r a) * B (ix2 a c) := by
  simp only [matmul]
  rw [Ideal.matmul_constant_zero_apply, ← Equiv.sum_comp (ValueIdx.contrEquiv1 dot_S1000x128_S128x160_S1000x160_1_0_0_1_n_n 128 rfl rfl).symm]
  refine Finset.sum_congr rfl fun a _ => ?_
  have hk := ValueIdx.contrEquiv1_symm_val dot_S1000x128_S128x160_S1000x160_1_0_0_1_n_n 128 rfl rfl a
  have el : dot_S1000x128_S128x160_S1000x160_1_0_0_1_n_n.lhsIdx (ix2 r c) ((ValueIdx.contrEquiv1 dot_S1000x128_S128x160_S1000x160_1_0_0_1_n_n 128 rfl rfl).symm a) = ix2 r a := funext fun x => Fin.ext (by
    match x with
    | ⟨0, _⟩ => exact lhs_fw_0 _ _
    | ⟨1, _⟩ => exact (lhs_fw_1 _ _).trans hk)
  have er : dot_S1000x128_S128x160_S1000x160_1_0_0_1_n_n.rhsIdx (ix2 r c) ((ValueIdx.contrEquiv1 dot_S1000x128_S128x160_S1000x160_1_0_0_1_n_n 128 rfl rfl).symm a) = ix2 a c := funext fun x => Fin.ext (by
    match x with
    | ⟨0, _⟩ => exact (rhs_fw_0 _ _).trans hk
    | ⟨1, _⟩ => exact rhs_fw_1 _ _)
  rw [el, er]

/-! ### Branch 1's rectified hidden layer against its second matrix: [1000, 160] × [160, 64] -/

theorem lhs_hw_0 (i : S1000x64.Idx) (q : dot_S1000x160_S160x64_S1000x64_1_0_0_1_n_n.contr.Idx) :
    (dot_S1000x160_S160x64_S1000x64_1_0_0_1_n_n.lhsIdx i q 0).val = (i 0).val := by
  unfold DotDims.lhsIdx
  rw [dif_neg (show ¬(0 : Fin S1000x160.rank) ∈ dot_S1000x160_S160x64_S1000x64_1_0_0_1_n_n.lhsBatch by decide), dif_pos (show (0 : Fin S1000x160.rank) ∈ dot_S1000x160_S160x64_S1000x64_1_0_0_1_n_n.lhsNonContracting by decide)]
  rfl
theorem lhs_hw_1 (i : S1000x64.Idx) (q : dot_S1000x160_S160x64_S1000x64_1_0_0_1_n_n.contr.Idx) :
    (dot_S1000x160_S160x64_S1000x64_1_0_0_1_n_n.lhsIdx i q 1).val = (q ⟨0, by decide⟩).val :=
  dot_S1000x160_S160x64_S1000x64_1_0_0_1_n_n.lhsIdx_val_of_single rfl i q
theorem rhs_hw_0 (i : S1000x64.Idx) (q : dot_S1000x160_S160x64_S1000x64_1_0_0_1_n_n.contr.Idx) :
    (dot_S1000x160_S160x64_S1000x64_1_0_0_1_n_n.rhsIdx i q 0).val = (q ⟨0, by decide⟩).val :=
  dot_S1000x160_S160x64_S1000x64_1_0_0_1_n_n.rhsIdx_val_of_single rfl i q
theorem rhs_hw_1 (i : S1000x64.Idx) (q : dot_S1000x160_S160x64_S1000x64_1_0_0_1_n_n.contr.Idx) :
    (dot_S1000x160_S160x64_S1000x64_1_0_0_1_n_n.rhsIdx i q 1).val = (i 1).val := by
  unfold DotDims.rhsIdx
  rw [dif_neg (show ¬(1 : Fin S160x64.rank) ∈ dot_S1000x160_S160x64_S1000x64_1_0_0_1_n_n.rhsBatch by decide), dif_pos (show (1 : Fin S160x64.rank) ∈ dot_S1000x160_S160x64_S1000x64_1_0_0_1_n_n.rhsNonContracting by decide)]
  rfl

/-- The product of a [1000, 160] block with a [160, 64] matrix, accumulated into zero, at (r, c): the sum over the 160 inner
    positions of the row's entry times the column's. -/
theorem matmul_hw_apply (A : FVec Ideal S1000x160 .f32) (B : FVec Ideal S160x64 .f32) (r : Fin 1000) (c : Fin 64) :
    matmul dot_S1000x160_S160x64_S1000x64_1_0_0_1_n_n none A B (constant (F := Ideal) S1000x64 .f32 0x00000000#32) (ix2 r c)
      = ∑ a : Fin 160, A (ix2 r a) * B (ix2 a c) := by
  simp only [matmul]
  rw [Ideal.matmul_constant_zero_apply, ← Equiv.sum_comp (ValueIdx.contrEquiv1 dot_S1000x160_S160x64_S1000x64_1_0_0_1_n_n 160 rfl rfl).symm]
  refine Finset.sum_congr rfl fun a _ => ?_
  have hk := ValueIdx.contrEquiv1_symm_val dot_S1000x160_S160x64_S1000x64_1_0_0_1_n_n 160 rfl rfl a
  have el : dot_S1000x160_S160x64_S1000x64_1_0_0_1_n_n.lhsIdx (ix2 r c) ((ValueIdx.contrEquiv1 dot_S1000x160_S160x64_S1000x64_1_0_0_1_n_n 160 rfl rfl).symm a) = ix2 r a := funext fun x => Fin.ext (by
    match x with
    | ⟨0, _⟩ => exact lhs_hw_0 _ _
    | ⟨1, _⟩ => exact (lhs_hw_1 _ _).trans hk)
  have er : dot_S1000x160_S160x64_S1000x64_1_0_0_1_n_n.rhsIdx (ix2 r c) ((ValueIdx.contrEquiv1 dot_S1000x160_S160x64_S1000x64_1_0_0_1_n_n 160 rfl rfl).symm a) = ix2 a c := funext fun x => Fin.ext (by
    match x with
    | ⟨0, _⟩ => exact (rhs_hw_0 _ _).trans hk
    | ⟨1, _⟩ => exact rhs_hw_1 _ _)
  rw [el, er]

/-! ### The mailbox lanes against the stacked first matrix of branch 2: [1000, 128] × [128, 64] -/

theorem lhs_lw_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_lw_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs_lw_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs_lw_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The product of a [1000, 128] block with a [128, 64] matrix, accumulated into zero, at (r, c): the sum over the 128 inner
    positions of the row's entry times the column's. -/
theorem matmul_lw_apply (A : FVec Ideal S1000x128 .f32) (B : FVec Ideal S128x64 .f32) (r : Fin 1000) (c : Fin 64) :
    matmul dot_S1000x128_S128x64_S1000x64_1_0_0_1_n_n none A B (constant (F := Ideal) S1000x64 .f32 0x00000000#32) (ix2 r c)
      = ∑ a : Fin 128, A (ix2 r a) * B (ix2 a c) := by
  simp only [matmul]
  rw [Ideal.matmul_constant_zero_apply, ← Equiv.sum_comp (ValueIdx.contrEquiv1 dot_S1000x128_S128x64_S1000x64_1_0_0_1_n_n 128 rfl rfl).symm]
  refine Finset.sum_congr rfl fun a _ => ?_
  have hk := ValueIdx.contrEquiv1_symm_val dot_S1000x128_S128x64_S1000x64_1_0_0_1_n_n 128 rfl rfl a
  have el : dot_S1000x128_S128x64_S1000x64_1_0_0_1_n_n.lhsIdx (ix2 r c) ((ValueIdx.contrEquiv1 dot_S1000x128_S128x64_S1000x64_1_0_0_1_n_n 128 rfl rfl).symm a) = ix2 r a := funext fun x => Fin.ext (by
    match x with
    | ⟨0, _⟩ => exact lhs_lw_0 _ _
    | ⟨1, _⟩ => exact (lhs_lw_1 _ _).trans hk)
  have er : dot_S1000x128_S128x64_S1000x64_1_0_0_1_n_n.rhsIdx (ix2 r c) ((ValueIdx.contrEquiv1 dot_S1000x128_S128x64_S1000x64_1_0_0_1_n_n 128 rfl rfl).symm a) = ix2 a c := funext fun x => Fin.ext (by
    match x with
    | ⟨0, _⟩ => exact (rhs_lw_0 _ _).trans hk
    | ⟨1, _⟩ => exact rhs_lw_1 _ _)
  rw [el, er]

/-! ### Branch 2's rectified hidden layer against its second matrix: [1000, 64] × [64, 64] -/

theorem lhs_gw_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs_gw_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs_gw_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs_gw_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The product of a [1000, 64] block with a [64, 64] matrix, accumulated into zero, at (r, c): the sum over the 64 inner
    positions of the row's entry times the column's. -/
theorem matmul_gw_apply (A : FVec Ideal S1000x64 .f32) (B : FVec Ideal S64x64 .f32) (r : Fin 1000) (c : Fin 64) :
    matmul dot_S1000x64_S64x64_S1000x64_1_0_0_1_n_n none A B (constant (F := Ideal) S1000x64 .f32 0x00000000#32) (ix2 r c)
      = ∑ a : Fin 64, A (ix2 r a) * B (ix2 a c) := by
  simp only [matmul]
  rw [Ideal.matmul_constant_zero_apply, ← Equiv.sum_comp (ValueIdx.contrEquiv1 dot_S1000x64_S64x64_S1000x64_1_0_0_1_n_n 64 rfl rfl).symm]
  refine Finset.sum_congr rfl fun a _ => ?_
  have hk := ValueIdx.contrEquiv1_symm_val dot_S1000x64_S64x64_S1000x64_1_0_0_1_n_n 64 rfl rfl a
  have el : dot_S1000x64_S64x64_S1000x64_1_0_0_1_n_n.lhsIdx (ix2 r c) ((ValueIdx.contrEquiv1 dot_S1000x64_S64x64_S1000x64_1_0_0_1_n_n 64 rfl rfl).symm a) = ix2 r a := funext fun x => Fin.ext (by
    match x with
    | ⟨0, _⟩ => exact lhs_gw_0 _ _
    | ⟨1, _⟩ => exact (lhs_gw_1 _ _).trans hk)
  have er : dot_S1000x64_S64x64_S1000x64_1_0_0_1_n_n.rhsIdx (ix2 r c) ((ValueIdx.contrEquiv1 dot_S1000x64_S64x64_S1000x64_1_0_0_1_n_n 64 rfl rfl).symm a) = ix2 a c := funext fun x => Fin.ext (by
    match x with
    | ⟨0, _⟩ => exact (rhs_gw_0 _ _).trans hk
    | ⟨1, _⟩ => exact rhs_gw_1 _ _)
  rw [el, er]

/-! ## The sum along a row, tanh, reciprocal square root -/

/-- The sum of a [1000, 64] block along its rows, at row r, is the sum of the row's 64 entries. -/
theorem rowsum_apply (v : FVec Ideal S1000x64 .f32) (hacc : (0x00000000#32 : BitVec 32) = 0x00000000#32) (r : Fin 1000) :
    multiReduction (F := Ideal) .add [1] S1000 v 0x00000000#32 reduces_S1000x64_S1000 (.inl rfl) hacc (ix1 r) = ∑ j : Fin 64, v (ix2 r j) := by
  refine (Ideal.multiReduction_add_single v 0x00000000#32 reduces_S1000x64_S1000 (.inl rfl) hacc (ix1 r)).trans ?_
  refine Finset.sum_congr rfl fun j _ => congrArg v ?_
  funext c
  match c with
  | ⟨0, _⟩ => rfl
  | ⟨1, _⟩ => rfl

/-- tanh of a block is tanh of each entry. -/
theorem tanh_apply {s : Shape} (v : FVec Ideal s .f32) (i : s.Idx) : tanh v i = Ideal.tanh (v i) := rfl

/-- The reciprocal square root of a block is that of each entry. -/
theorem rsqrt_apply {s : Shape} (v : FVec Ideal s .f32) (i : s.Idx) : rsqrt v i = Ideal.rsqrt (v i) := rfl

/-- The zero word, as the scalar a rectifier compares with, is the extended real 0. -/
theorem scalar_zero : (Scalar.ofBits (F := Ideal) .f32 0x00000000#32 : Ideal .f32) = (0 : EReal) := Ideal.ofBits_zero_f32

/-- A block rectified against the zero splat is, entry by entry, the larger of the entry and 0. -/
theorem relu_apply {s : Shape} (v : FVec Ideal s .f32) (i : s.Idx) :
    maximumf v (broadcast s (Scalar.ofBits (F := Ideal) .f32 0x00000000#32)) i = max (v i) (0 : EReal) := by
  rw [maximumf_apply, broadcast_apply, scalar_zero]

end Cert.KernelIdeal.Hand

end
-- ==== Proof.KernelRow2.lean ====
/-
  One half of the kernel's step, entry by entry, at the extended reals.

  A half takes its 1000 rows of the two feature blocks, its own [1000, 1024] mailbox block and the nine loaded weight
  blocks. Its stored values are, at row r and column j: branch 1 (the dense-rectify-dense-tanh network on the two feature
  rows against the two halves of the first matrix) and branch 2 (the same kind of network on the mailbox row folded to
  128 lanes by three halvings), each times the reciprocal square root of the two branches' squared row sums added. Every
  generated payload of the half is read at an entry; the result is the row specification's o1K, o2K and invK at the
  half's rows. Both halves of the step are this one function of their blocks.
-/
import proofs.«121214_g34196529611290_cont_8to1_b_1671_18_alg».proof.Proof.KernelRow1
import proofs.«121214_g34196529611290_cont_8to1_b_1671_18_alg».proof.Proof.RowSpec

noncomputable section

namespace Cert.KernelIdeal.Hand

open Idealize.ShloMosaic Idealize.ShloMosaic.ValueIdx Cert.KernelIdeal Cert.KernelIdeal.Gen Cert.RowSpec

/-! ## The mailbox lanes -/

/-- A block's left half plus its right half (cut at column h), at (r, c): the caller names the two source columns. -/
theorem fold_apply {n h : ℕ} (V : FVec Ideal ⟨2, ![1000, n]⟩ .f32) (hl : (⟨2, ![1000, n]⟩ : Shape).Slices ![0, 0] ⟨2, ![1000, h]⟩)
    (hr : (⟨2, ![1000, n]⟩ : Shape).Slices ![0, h] ⟨2, ![1000, h]⟩) (r : Fin 1000) (c : Fin h) (c0 c1 : Fin n)
    (h0 : c0.val = c.val) (h1 : c1.val = c.val + h) :
    addf (extractStridedSlice ⟨2, ![1000, h]⟩ ![0, 0] V hl) (extractStridedSlice ⟨2, ![1000, h]⟩ ![0, h] V hr) (ix2 r c)
      = V (ix2 r c0) + V (ix2 r c1) := by
  rw [addf_apply, slice2_axis1_apply 0 V hl r c c0 (by omega), slice2_axis1_apply h V hr r c c1 (by omega)]

/-- Three halvings of a [1000, 1024] mailbox block leave, at (r, i), the eight entries of row r that lie 128 apart from
    column i, added in the order of the halvings. -/
theorem pay13_apply (E : Vec Ideal S1000x1024 .f32) (r : Fin 1000) (i : Fin 128) :
    k0_pay13 E (ix2 r i) = lane (fun c => E (ix2 r c)) i := by
  have hi := i.isLt
  unfold k0_pay13
  rw [shapeCast_self]
  rw [fold_apply (n := 256) (h := 128) _ slices_S1000x256_o0_0_S1000x128 slices_S1000x256_o0_128_S1000x128 r i
      ⟨i.val, by omega⟩ ⟨i.val + 128, by omega⟩ rfl rfl]
  rw [fold_apply (n := 512) (h := 256) _ slices_S1000x512_o0_0_S1000x256 slices_S1000x512_o0_256_S1000x256 r ⟨i.val, by omega⟩
      ⟨i.val, by omega⟩ ⟨i.val + 256, by omega⟩ rfl rfl,
    fold_apply (n := 512) (h := 256) _ slices_S1000x512_o0_0_S1000x256 slices_S1000x512_o0_256_S1000x256 r ⟨i.val + 128, by omega⟩
      ⟨i.val + 128, by omega⟩ ⟨i.val + 384, by omega⟩ rfl (by show i.val + 384 = i.val + 128 + 256; omega)]
  rw [fold_apply (n := 1024) (h := 512) E slices_S1000x1024_o0_0_S1000x512 slices_S1000x1024_o0_512_S1000x512 r ⟨i.val, by omega⟩
      ⟨i.val, by omega⟩ ⟨i.val + 512, by omega⟩ rfl rfl,
    fold_apply (n := 1024) (h := 512) E slices_S1000x1024_o0_0_S1000x512 slices_S1000x1024_o0_512_S1000x512 r ⟨i.val + 256, by omega⟩
      ⟨i.val + 256, by omega⟩ ⟨i.val + 768, by omega⟩ rfl (by show i.val + 768 = i.val + 256 + 512; omega),
    fold_apply (n := 1024) (h := 512) E slices_S1000x1024_o0_0_S1000x512 slices_S1000x1024_o0_512_S1000x512 r ⟨i.val + 128, by omega⟩
      ⟨i.val + 128, by omega⟩ ⟨i.val + 640, by omega⟩ rfl (by show i.val + 640 = i.val + 128 + 512; omega),
    fold_apply (n := 1024) (h := 512) E slices_S1000x1024_o0_0_S1000x512 slices_S1000x1024_o0_512_S1000x512 r ⟨i.val + 384, by omega⟩
      ⟨i.val + 384, by omega⟩ ⟨i.val + 896, by omega⟩ rfl (by show i.val + 896 = i.val + 384 + 512; omega)]
  rfl

/-! ## Branch 1's hidden layer -/

/-- The two feature blocks against the two halves of the first matrix, at (r, k). -/
theorem pay14_apply (W4 W5 : Vec Ideal S128x160 .f32) (X Y : Vec Ideal S1000x128 .f32) (r : Fin 1000) (k : Fin 160) :
    k0_pay14 W4 W5 X Y (ix2 r k) = (∑ a : Fin 128, X (ix2 r a) * W4 (ix2 a k)) + (∑ a : Fin 128, Y (ix2 r a) * W5 (ix2 a k)) := by
  unfold k0_pay14 k0_pay6 k0_pay7
  rw [addf_apply, shapeCast_self, shapeCast_self, matmul_fw_apply, matmul_fw_apply]

/-- The first bias, one row spread over the 1000 rows. -/
theorem pay15_apply (W6 : Vec Ideal S1x160 .f32) (r : Fin 1000) (k : Fin 160) : k0_pay15 W6 (ix2 r k) = W6 (ix2 (0 : Fin 1) k) := by
  unfold k0_pay15 k0_pay8
  rw [shapeCast_self, broadcastTo_1b_ab_apply]

/-! ## The two tanh layers -/

/-- Branch 1's output before scaling, at (r, j): the dense layer on the rectified sum of the two hidden summands. -/
theorem pay16_apply (W : Vec Ideal S160x64 .f32) (b : FVec Ideal S1x64 .f32) (u v : FVec Ideal S1000x160 .f32) (r : Fin 1000) (j : Fin 64) :
    k0_pay16 W b u v (ix2 r j)
      = act (fun k => u (ix2 r k) + v (ix2 r k)) (fun k j => W (ix2 k j)) (fun j => b (ix2 (0 : Fin 1) j)) j := by
  unfold k0_pay16
  rw [tanh_apply, addf_apply, matmul_hw_apply, broadcastTo_1b_ab_apply]
  unfold act
  refine congrArg Ideal.tanh (congrArg (· + _) (Finset.sum_congr rfl fun k _ => ?_))
  rw [relu_apply, addf_apply]

/-- Branch 2's output before scaling, at (r, j): the dense layer on the rectified hidden layer of the lanes. -/
theorem pay17_apply (W9 : FVec Ideal S128x64 .f32) (b2a : FVec Ideal S1x64 .f32) (W11 : Vec Ideal S64x64 .f32) (b2b : FVec Ideal S1x64 .f32)
    (m : FVec Ideal S1000x128 .f32) (r : Fin 1000) (j : Fin 64) :
    k0_pay17 W9 b2a W11 b2b m (ix2 r j)
      = act (fun c => (∑ i : Fin 128, m (ix2 r i) * W9 (ix2 i c)) + b2a (ix2 (0 : Fin 1) c)) (fun c j => W11 (ix2 c j))
          (fun j => b2b (ix2 (0 : Fin 1) j)) j := by
  unfold k0_pay17
  rw [tanh_apply, addf_apply, matmul_gw_apply, broadcastTo_1b_ab_apply]
  unfold act
  refine congrArg Ideal.tanh (congrArg (· + _) (Finset.sum_congr rfl fun c _ => ?_))
  rw [relu_apply, addf_apply, matmul_lw_apply, broadcastTo_1b_ab_apply]

/-! ## The scale and the two stored values -/

section Scale
variable (v6 : Vec Ideal S160x64 .f32) (v8 : FVec Ideal S1x64 .f32) (v10 : FVec Ideal S128x64 .f32) (v12 : FVec Ideal S1x64 .f32)
  (v13 : Vec Ideal S64x64 .f32) (v15 : FVec Ideal S1x64 .f32) (v28 : FVec Ideal S1000x128 .f32) (v31 v32 : FVec Ideal S1000x160 .f32)

/-- The row's scale: the reciprocal square root of the two branches' squared sums added. -/
theorem pay18_apply (r : Fin 1000) (u : Fin 1) :
    k0_pay18 v6 v8 v10 v12 v13 v15 v28 v31 v32 (ix2 r u)
      = invK (fun j => k0_pay16 v6 v8 v31 v32 (ix2 r j)) (fun j => k0_pay17 v10 v12 v13 v15 v28 (ix2 r j)) := by
  unfold k0_pay18
  rw [rsqrt_apply, addf_apply, shapeCast_a_a1_apply, shapeCast_a_a1_apply]
  unfold invK
  refine congrArg Ideal.rsqrt ?_
  refine (congrArg (· + _) ((rowsum_apply _ _ r).trans (Finset.sum_congr rfl fun j _ => mulf_apply _ _ _))).trans ?_
  exact congrArg (_ + ·) ((rowsum_apply _ _ r).trans (Finset.sum_congr rfl fun j _ => mulf_apply _ _ _))

/-- The first stored value at (r, j): branch 1 times the row's scale. -/
theorem pay19_apply (r : Fin 1000) (j : Fin 64) :
    k0_pay19 v6 v8 v10 v12 v13 v15 v28 v31 v32 (ix2 r j)
      = k0_pay16 v6 v8 v31 v32 (ix2 r j)
        * invK (fun j => k0_pay16 v6 v8 v31 v32 (ix2 r j)) (fun j => k0_pay17 v10 v12 v13 v15 v28 (ix2 r j)) := by
  unfold k0_pay19
  rw [mulf_apply, broadcastTo_a1_ab_apply, pay18_apply]

/-- The second stored value at (r, j): branch 2 times the row's scale. -/
theorem pay20_apply (r : Fin 1000) (j : Fin 64) :
    k0_pay20 v6 v8 v10 v12 v13 v15 v28 v31 v32 (ix2 r j)
      = k0_pay17 v10 v12 v13 v15 v28 (ix2 r j)
        * invK (fun j => k0_pay16 v6 v8 v31 v32 (ix2 r j)) (fun j => k0_pay17 v10 v12 v13 v15 v28 (ix2 r j)) := by
  unfold k0_pay20
  rw [mulf_apply, broadcastTo_a1_ab_apply, pay18_apply]

end Scale

/-! ## One half as a function of its loaded blocks -/

section Half
variable {F : FTy → Type} [FloatOps F]

/-- One half's first stored value (branch 1), from the half's loaded feature and mailbox blocks and the loaded weights. -/
def halfA (X Y : Vec F S1000x128 .f32) (E : Vec F S1000x1024 .f32) (W4 W5 : Vec F S128x160 .f32) (W6 : Vec F S1x160 .f32)
    (W7 : Vec F S160x64 .f32) (W8 : Vec F S1x64 .f32) (W9 : Vec F S128x64 .f32) (W10 : Vec F S1x64 .f32) (W11 : Vec F S64x64 .f32)
    (W12 : Vec F S1x64 .f32) : Vec F S1000x64 .f32 :=
  k0_pay19 W7 (k0_pay9 W8) (k0_pay10 W9) (k0_pay11 W10) W11 (k0_pay12 W12) (k0_pay13 E) (k0_pay14 W4 W5 X Y) (k0_pay15 W6)

/-- One half's second stored value (branch 2). -/
def halfB (X Y : Vec F S1000x128 .f32) (E : Vec F S1000x1024 .f32) (W4 W5 : Vec F S128x160 .f32) (W6 : Vec F S1x160 .f32)
    (W7 : Vec F S160x64 .f32) (W8 : Vec F S1x64 .f32) (W9 : Vec F S128x64 .f32) (W10 : Vec F S1x64 .f32) (W11 : Vec F S64x64 .f32)
    (W12 : Vec F S1x64 .f32) : Vec F S1000x64 .f32 :=
  k0_pay20 W7 (k0_pay9 W8) (k0_pay10 W9) (k0_pay11 W10) W11 (k0_pay12 W12) (k0_pay13 E) (k0_pay14 W4 W5 X Y) (k0_pay15 W6)

end Half

section HalfAt
variable (X Y : Vec Ideal S1000x128 .f32) (E : Vec Ideal S1000x1024 .f32) (W4 W5 : Vec Ideal S128x160 .f32) (W6 : Vec Ideal S1x160 .f32)
  (W7 : Vec Ideal S160x64 .f32) (W8 : Vec Ideal S1x64 .f32) (W9 : Vec Ideal S128x64 .f32) (W10 : Vec Ideal S1x64 .f32)
  (W11 : Vec Ideal S64x64 .f32) (W12 : Vec Ideal S1x64 .f32)

/-- Row r of branch 1 before scaling is the row specification's first half. -/
theorem row1_eq (r : Fin 1000) (j : Fin 64) :
    k0_pay16 W7 (k0_pay9 W8) (k0_pay14 W4 W5 X Y) (k0_pay15 W6) (ix2 r j)
      = o1K (fun a => X (ix2 r a)) (fun a => Y (ix2 r a)) (fun a k => W4 (ix2 a k)) (fun a k => W5 (ix2 a k))
          (fun k => W6 (ix2 (0 : Fin 1) k)) (fun k j => W7 (ix2 k j)) (fun j => W8 (ix2 (0 : Fin 1) j)) j := by
  rw [pay16_apply]
  unfold k0_pay9 o1K
  rw [shapeCast_self]
  refine congrArg (fun h => act h _ _ j) (funext fun k => ?_)
  rw [pay14_apply, pay15_apply]
  rfl

/-- Row r of branch 2 before scaling is the row specification's second half. -/
theorem row2_eq (r : Fin 1000) (j : Fin 64) :
    k0_pay17 (k0_pay10 W9) (k0_pay11 W10) W11 (k0_pay12 W12) (k0_pay13 E) (ix2 r j)
      = o2K (fun i => E (ix2 r i)) (fun i c => W9 (ix2 i c)) (fun c => W10 (ix2 (0 : Fin 1) c)) (fun c j => W11 (ix2 c j))
          (fun j => W12 (ix2 (0 : Fin 1) j)) j := by
  rw [pay17_apply]
  unfold k0_pay10 k0_pay11 k0_pay12 o2K
  rw [shapeCast_self, shapeCast_self, shapeCast_self]
  refine congrArg (fun h => act h _ _ j) (funext fun c => ?_)
  unfold hid2K
  refine congrArg (· + _) (Finset.sum_congr rfl fun i _ => ?_)
  rw [pay13_apply]

/-- One half's first stored value at (r, j). -/
theorem halfA_apply (r : Fin 1000) (j : Fin 64) :
    halfA X Y E W4 W5 W6 W7 W8 W9 W10 W11 W12 (ix2 r j)
      = o1K (fun a => X (ix2 r a)) (fun a => Y (ix2 r a)) (fun a k => W4 (ix2 a k)) (fun a k => W5 (ix2 a k))
          (fun k => W6 (ix2 (0 : Fin 1) k)) (fun k j => W7 (ix2 k j)) (fun j => W8 (ix2 (0 : Fin 1) j)) j
        * invK (o1K (fun a => X (ix2 r a)) (fun a => Y (ix2 r a)) (fun a k => W4 (ix2 a k)) (fun a k => W5 (ix2 a k))
              (fun k => W6 (ix2 (0 : Fin 1) k)) (fun k j => W7 (ix2 k j)) (fun j => W8 (ix2 (0 : Fin 1) j)))
            (o2K (fun i => E (ix2 r i)) (fun i c => W9 (ix2 i c)) (fun c => W10 (ix2 (0 : Fin 1) c)) (fun c j => W11 (ix2 c j))
              (fun j => W12 (ix2 (0 : Fin 1) j))) := by
  unfold halfA
  rw [pay19_apply, row1_eq, funext (row1_eq X Y W4 W5 W6 W7 W8 r), funext (row2_eq E W9 W10 W11 W12 r)]

/-- One half's second stored value at (r, j). -/
theorem halfB_apply (r : Fin 1000) (j : Fin 64) :
    halfB X Y E W4 W5 W6 W7 W8 W9 W10 W11 W12 (ix2 r j)
      = o2K (fun i => E (ix2 r i)) (fun i c => W9 (ix2 i c)) (fun c => W10 (ix2 (0 : Fin 1) c)) (fun c j => W11 (ix2 c j))
          (fun j => W12 (ix2 (0 : Fin 1) j)) j
        * invK (o1K (fun a => X (ix2 r a)) (fun a => Y (ix2 r a)) (fun a k => W4 (ix2 a k)) (fun a k => W5 (ix2 a k))
              (fun k => W6 (ix2 (0 : Fin 1) k)) (fun k j => W7 (ix2 k j)) (fun j => W8 (ix2 (0 : Fin 1) j)))
            (o2K (fun i => E (ix2 r i)) (fun i c => W9 (ix2 i c)) (fun c => W10 (ix2 (0 : Fin 1) c)) (fun c j => W11 (ix2 c j))
              (fun j => W12 (ix2 (0 : Fin 1) j))) := by
  unfold halfB
  rw [pay20_apply, row2_eq, funext (row1_eq X Y W4 W5 W6 W7 W8 r), funext (row2_eq E W9 W10 W11 W12 r)]

end HalfAt

end Cert.KernelIdeal.Hand

end
-- ==== Proof.KernelRow.lean ====
/-
  The kernel's output block, entry by entry, at the extended reals.

  After one grid step the [2000, 128] output block is the overlay of four stored [1000, 64] quarters. An entry (i, j)
  lies in exactly one of them: rows below 1000 belong to the first half, rows from 1000 on to the second; columns below
  64 hold branch 1, the others branch 2. Each quarter is one half's stored value, and a half reads its 1000 rows of the
  two feature blocks and its own mailbox block. So row i of the block is the kernel's arrangement of one node's 128
  outputs (kerRowOf) at that node's two feature rows, its mailbox row, and the weights.
-/
import proofs.«121214_g34196529611290_cont_8to1_b_1671_18_alg».proof.Proof.KernelIdealOut
import proofs.«121214_g34196529611290_cont_8to1_b_1671_18_alg».proof.Proof.RowBlock
import proofs.«121214_g34196529611290_cont_8to1_b_1671_18_alg».proof.Proof.KernelRow2
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.RowSpec

/-! ## The overlay of the four stored quarters at an entry -/

section Quarters
variable (p11 p10 p01 p00 : Vec Ideal S1000x64 .f32)

/-- Rows below 1000 lie outside a quarter that starts at row 1000. -/
theorem not_mem_lower (c : ℕ) (inb : ∀ a, (![1000, c] : Fin 2 → Nat) a + S1000x64.size a ≤ S2000x128.size a)
    (r : Fin 1000) (j : Fin 128) :
    ix2 (⟨r.val, by omega⟩ : Fin 2000) j ∉ (Rect.unit (s := S2000x128) ![1000, c] S1000x64.size inb).set := fun hm => by
  have h := (Rect.mem_set_unit.mp hm) 0
  have h' : 1000 ≤ r.val := h.1
  omega

/-- Columns below 64 lie outside a quarter that starts at column 64. -/
theorem not_mem_right (o : ℕ) (inb : ∀ a, (![o, 64] : Fin 2 → Nat) a + S1000x64.size a ≤ S2000x128.size a)
    (i : Fin 2000) (j : Fin 128) (hj : j.val < 64) :
    ix2 i j ∉ (Rect.unit (s := S2000x128) ![o, 64] S1000x64.size inb).set := fun hm => by
  have h := (Rect.mem_set_unit.mp hm) 1
  have h' : 64 ≤ j.val := h.1
  omega

/-- Rows from 1000 on, columns from 64 on: the last stored quarter. -/
theorem canon_q11 (r : Fin 1000) (j : Fin 64) :
    View.canon ([⟨rO11, p11⟩, ⟨rO10, p10⟩, ⟨rO01, p01⟩, ⟨rO00, p00⟩] : List (View.Piece (Elt Ideal) S2000x128 .f32))
        (ix2 (⟨r.val + 1000, by omega⟩ : Fin 2000) (⟨j.val + 64, by omega⟩ : Fin 128)) = p11 (ix2 r j) := by
  have e : ix2 (⟨r.val + 1000, by omega⟩ : Fin 2000) (⟨j.val + 64, by omega⟩ : Fin 128) = rO11.emb (ix2 r j) :=
    funext fun a => Fin.ext (by
      match a with
      | ⟨0, _⟩ => show r.val + 1000 = 1000 + 1 * r.val; omega
      | ⟨1, _⟩ => show j.val + 64 = 64 + 1 * j.val; omega)
  rw [e]
  exact View.canon_cons_emb rO11 p11 _ (ix2 r j)

/-- Rows from 1000 on, columns below 64. -/
theorem canon_q10 (r : Fin 1000) (j : Fin 64) :
    View.canon ([⟨rO11, p11⟩, ⟨rO10, p10⟩, ⟨rO01, p01⟩, ⟨rO00, p00⟩] : List (View.Piece (Elt Ideal) S2000x128 .f32))
        (ix2 (⟨r.val + 1000, by omega⟩ : Fin 2000) (⟨j.val, by omega⟩ : Fin 128)) = p10 (ix2 r j) := by
  refine (View.canon_cons_of_not_mem ⟨rO11, p11⟩ _ (not_mem_right 1000 inb_S2000x128_S1000x64_1000_64 _ _ j.isLt)).trans ?_
  have e : ix2 (⟨r.val + 1000, by omega⟩ : Fin 2000) (⟨j.val, by omega⟩ : Fin 128) = rO10.emb (ix2 r j) :=
    funext fun a => Fin.ext (by
      match a with
      | ⟨0, _⟩ => show r.val + 1000 = 1000 + 1 * r.val; omega
      | ⟨1, _⟩ => show j.val = 0 + 1 * j.val; omega)
  rw [e]
  exact View.canon_cons_emb rO10 p10 _ (ix2 r j)

/-- Rows below 1000, columns from 64 on. -/
theorem canon_q01 (r : Fin 1000) (j : Fin 64) :
    View.canon ([⟨rO11, p11⟩, ⟨rO10, p10⟩, ⟨rO01, p01⟩, ⟨rO00, p00⟩] : List (View.Piece (Elt Ideal) S2000x128 .f32))
        (ix2 (⟨r.val, by omega⟩ : Fin 2000) (⟨j.val + 64, by omega⟩ : Fin 128)) = p01 (ix2 r j) := by
  refine (View.canon_cons_of_not_mem ⟨rO11, p11⟩ _ (not_mem_lower 64 inb_S2000x128_S1000x64_1000_64 r _)).trans ?_
  refine (View.canon_cons_of_not_mem ⟨rO10, p10⟩ _ (not_mem_lower 0 inb_S2000x128_S1000x64_1000_0 r _)).trans ?_
  have e : ix2 (⟨r.val, by omega⟩ : Fin 2000) (⟨j.val + 64, by omega⟩ : Fin 128) = rO01.emb (ix2 r j) :=
    funext fun a => Fin.ext (by
      match a with
      | ⟨0, _⟩ => show r.val = 0 + 1 * r.val; omega
      | ⟨1, _⟩ => show j.val + 64 = 64 + 1 * j.val; omega)
  rw [e]
  exact View.canon_cons_emb rO01 p01 _ (ix2 r j)

/-- Rows below 1000, columns below 64: the first stored quarter, under none of the later three. -/
theorem canon_q00 (r : Fin 1000) (j : Fin 64) :
    View.canon ([⟨rO11, p11⟩, ⟨rO10, p10⟩, ⟨rO01, p01⟩, ⟨rO00, p00⟩] : List (View.Piece (Elt Ideal) S2000x128 .f32))
        (ix2 (⟨r.val, by omega⟩ : Fin 2000) (⟨j.val, by omega⟩ : Fin 128)) = p00 (ix2 r j) := by
  refine (View.canon_cons_of_not_mem ⟨rO11, p11⟩ _ (not_mem_lower 64 inb_S2000x128_S1000x64_1000_64 r _)).trans ?_
  refine (View.canon_cons_of_not_mem ⟨rO10, p10⟩ _ (not_mem_lower 0 inb_S2000x128_S1000x64_1000_0 r _)).trans ?_
  refine (View.canon_cons_of_not_mem ⟨rO01, p01⟩ _ (not_mem_right 0 inb_S2000x128_S1000x64_0_64 _ _ j.isLt)).trans ?_
  have e : ix2 (⟨r.val, by omega⟩ : Fin 2000) (⟨j.val, by omega⟩ : Fin 128) = rO00.emb (ix2 r j) :=
    funext fun a => Fin.ext (by
      match a with
      | ⟨0, _⟩ => show r.val = 0 + 1 * r.val; omega
      | ⟨1, _⟩ => show j.val = 0 + 1 * j.val; omega)
  rw [e]
  exact View.canon_cons_emb rO00 p00 _ (ix2 r j)

end Quarters

/-! ## What the loads read -/

/-- The first 1000 rows of a feature block, read through their rectangle. -/
theorem ld_top (x : Vec Ideal S2000x128 .f32) (r : Fin 1000) (a : Fin 128) :
    View.ld x rTop (ix2 r a) = x (ix2 (⟨r.val, by omega⟩ : Fin 2000) a) :=
  congrArg x (funext fun c => Fin.ext (by
    match c with
    | ⟨0, _⟩ => show 0 + 1 * r.val = r.val; omega
    | ⟨1, _⟩ => show 0 + 1 * a.val = a.val; omega))

/-- The last 1000 rows of a feature block, read through their rectangle. -/
theorem ld_bot (x : Vec Ideal S2000x128 .f32) (r : Fin 1000) (a : Fin 128) :
    View.ld x rBot (ix2 r a) = x (ix2 (⟨r.val + 1000, by omega⟩ : Fin 2000) a) :=
  congrArg x (funext fun c => Fin.ext (by
    match c with
    | ⟨0, _⟩ => show 1000 + 1 * r.val = r.val + 1000; omega
    | ⟨1, _⟩ => show 0 + 1 * a.val = a.val; omega))

/-- The zero offsets of a whole-buffer rectangle. -/
theorem zero2 : (![0, 0] : Fin 2 → Nat) = fun _ => 0 := funext fun a => by
  match a with
  | ⟨0, _⟩ => rfl
  | ⟨1, _⟩ => rfl

/-- A load through a whole-buffer rectangle reads the buffer. -/
theorem ld_rE (x : Vec Ideal S1000x1024 .f32) : View.ld x rE = x := View.ld_unit_zero zero2 _ x
theorem ld_rW1 (x : Vec Ideal S128x160 .f32) : View.ld x rW1 = x := View.ld_unit_zero zero2 _ x
theorem ld_rB1a (x : Vec Ideal S1x160 .f32) : View.ld x rB1a = x := View.ld_unit_zero zero2 _ x
theorem ld_rW1b (x : Vec Ideal S160x64 .f32) : View.ld x rW1b = x := View.ld_unit_zero zero2 _ x
theorem ld_rB64 (x : Vec Ideal S1x64 .f32) : View.ld x rB64 = x := View.ld_unit_zero zero2 _ x
theorem ld_rW2 (x : Vec Ideal S128x64 .f32) : View.ld x rW2 = x := View.ld_unit_zero zero2 _ x
theorem ld_rW2b (x : Vec Ideal S64x64 .f32) : View.ld x rW2b = x := View.ld_unit_zero zero2 _ x

/-! ## Two rows side by side -/

/-- Left of the middle the concatenation reads its first row. -/
theorem cat2_left {n : ℕ} (u v : Fin n → EReal) (a : Fin (n + n)) (h : a.val < n) : cat2 u v a = u ⟨a.val, h⟩ := dif_pos h

/-- From the middle on it reads its second row. -/
theorem cat2_right {n : ℕ} (u v : Fin n → EReal) (j : Fin n) (hj : j.val + n < n + n) : cat2 u v ⟨j.val + n, hj⟩ = v j := by
  unfold cat2
  rw [dif_neg (by show ¬ (j.val + n < n); omega)]
  exact congrArg v (Fin.ext (by show j.val + n - n = j.val; omega))

/-! ## The block's rows -/

section Block
variable (x0 x1 : Vec Ideal S2000x128 .f32) (x2 x3 : Vec Ideal S1000x1024 .f32) (x4 x5 : Vec Ideal S128x160 .f32) (x6 : Vec Ideal S1x160 .f32)
  (x7 : Vec Ideal S160x64 .f32) (x8 : Vec Ideal S1x64 .f32) (x9 : Vec Ideal S128x64 .f32) (x10 : Vec Ideal S1x64 .f32)
  (x11 : Vec Ideal S64x64 .f32) (x12 : Vec Ideal S1x64 .f32)

/-- Each stored quarter is a half's stored value at that half's loaded blocks: the second half's payloads are the first
    half's with the second half's rows and mailbox block in place of the first's. -/
theorem pay00_eq : pay00 x0 x1 x2 x4 x5 x6 x7 x8 x9 x10 x11 x12
    = halfA (View.ld x0 rTop) (View.ld x1 rTop) (View.ld x2 rE) (View.ld x4 rW1) (View.ld x5 rW1) (View.ld x6 rB1a) (View.ld x7 rW1b)
        (View.ld x8 rB64) (View.ld x9 rW2) (View.ld x10 rB64) (View.ld x11 rW2b) (View.ld x12 rB64) := rfl
theorem pay01_eq : pay01 x0 x1 x2 x4 x5 x6 x7 x8 x9 x10 x11 x12
    = halfB (View.ld x0 rTop) (View.ld x1 rTop) (View.ld x2 rE) (View.ld x4 rW1) (View.ld x5 rW1) (View.ld x6 rB1a) (View.ld x7 rW1b)
        (View.ld x8 rB64) (View.ld x9 rW2) (View.ld x10 rB64) (View.ld x11 rW2b) (View.ld x12 rB64) := rfl
theorem pay10_eq : pay10 x0 x1 x3 x4 x5 x6 x7 x8 x9 x10 x11 x12
    = halfA (View.ld x0 rBot) (View.ld x1 rBot) (View.ld x3 rE) (View.ld x4 rW1) (View.ld x5 rW1) (View.ld x6 rB1a) (View.ld x7 rW1b)
        (View.ld x8 rB64) (View.ld x9 rW2) (View.ld x10 rB64) (View.ld x11 rW2b) (View.ld x12 rB64) := rfl
theorem pay11_eq : pay11 x0 x1 x3 x4 x5 x6 x7 x8 x9 x10 x11 x12
    = halfB (View.ld x0 rBot) (View.ld x1 rBot) (View.ld x3 rE) (View.ld x4 rW1) (View.ld x5 rW1) (View.ld x6 rB1a) (View.ld x7 rW1b)
        (View.ld x8 rB64) (View.ld x9 rW2) (View.ld x10 rB64) (View.ld x11 rW2b) (View.ld x12 rB64) := rfl

/-- Rows below 1000, columns below 64: the first half's branch 1, scaled. -/
theorem top_left (r : Fin 1000) (j : Fin 64) :
    outBlock (F := Ideal) x0 x1 x2 x3 x4 x5 x6 x7 x8 x9 x10 x11 x12 (ix2 (⟨r.val, by omega⟩ : Fin 2000) (⟨j.val, by omega⟩ : Fin 128))
      = o1K (fun a => x0 (ix2 (⟨r.val, by omega⟩ : Fin 2000) a)) (fun a => x1 (ix2 (⟨r.val, by omega⟩ : Fin 2000) a))
            (fun a k => x4 (ix2 a k)) (fun a k => x5 (ix2 a k)) (fun k => x6 (ix2 (0 : Fin 1) k)) (fun k j => x7 (ix2 k j))
            (fun j => x8 (ix2 (0 : Fin 1) j)) j
        * invK (o1K (fun a => x0 (ix2 (⟨r.val, by omega⟩ : Fin 2000) a)) (fun a => x1 (ix2 (⟨r.val, by omega⟩ : Fin 2000) a))
            (fun a k => x4 (ix2 a k)) (fun a k => x5 (ix2 a k)) (fun k => x6 (ix2 (0 : Fin 1) k)) (fun k j => x7 (ix2 k j))
            (fun j => x8 (ix2 (0 : Fin 1) j)))
            (o2K (fun i => x2 (ix2 r i)) (fun i c => x9 (ix2 i c)) (fun c => x10 (ix2 (0 : Fin 1) c)) (fun c j => x11 (ix2 c j))
            (fun j => x12 (ix2 (0 : Fin 1) j))) := by
  unfold outBlock
  refine (canon_q00 _ _ _ _ r j).trans ?_
  rw [pay00_eq, ld_rE, ld_rW1 x4, ld_rW1 x5, ld_rB1a, ld_rW1b, ld_rB64 x8, ld_rW2, ld_rB64 x10, ld_rW2b, ld_rB64 x12, halfA_apply]
  rw [funext (ld_top x0 r), funext (ld_top x1 r)]

/-- Rows below 1000, columns from 64 on: the first half's branch 2, scaled. -/
theorem top_right (r : Fin 1000) (j : Fin 64) :
    outBlock (F := Ideal) x0 x1 x2 x3 x4 x5 x6 x7 x8 x9 x10 x11 x12 (ix2 (⟨r.val, by omega⟩ : Fin 2000) (⟨j.val + 64, by omega⟩ : Fin 128))
      = o2K (fun i => x2 (ix2 r i)) (fun i c => x9 (ix2 i c)) (fun c => x10 (ix2 (0 : Fin 1) c)) (fun c j => x11 (ix2 c j))
            (fun j => x12 (ix2 (0 : Fin 1) j)) j
        * invK (o1K (fun a => x0 (ix2 (⟨r.val, by omega⟩ : Fin 2000) a)) (fun a => x1 (ix2 (⟨r.val, by omega⟩ : Fin 2000) a))
            (fun a k => x4 (ix2 a k)) (fun a k => x5 (ix2 a k)) (fun k => x6 (ix2 (0 : Fin 1) k)) (fun k j => x7 (ix2 k j))
            (fun j => x8 (ix2 (0 : Fin 1) j)))
            (o2K (fun i => x2 (ix2 r i)) (fun i c => x9 (ix2 i c)) (fun c => x10 (ix2 (0 : Fin 1) c)) (fun c j => x11 (ix2 c j))
            (fun j => x12 (ix2 (0 : Fin 1) j))) := by
  unfold outBlock
  refine (canon_q01 _ _ _ _ r j).trans ?_
  rw [pay01_eq, ld_rE, ld_rW1 x4, ld_rW1 x5, ld_rB1a, ld_rW1b, ld_rB64 x8, ld_rW2, ld_rB64 x10, ld_rW2b, ld_rB64 x12, halfB_apply]
  rw [funext (ld_top x0 r), funext (ld_top x1 r)]

/-- Rows from 1000 on, columns below 64: the second half's branch 1, scaled. -/
theorem bot_left (r : Fin 1000) (j : Fin 64) :
    outBlock (F := Ideal) x0 x1 x2 x3 x4 x5 x6 x7 x8 x9 x10 x11 x12 (ix2 (⟨r.val + 1000, by omega⟩ : Fin 2000) (⟨j.val, by omega⟩ : Fin 128))
      = o1K (fun a => x0 (ix2 (⟨r.val + 1000, by omega⟩ : Fin 2000) a)) (fun a => x1 (ix2 (⟨r.val + 1000, by omega⟩ : Fin 2000) a))
            (fun a k => x4 (ix2 a k)) (fun a k => x5 (ix2 a k)) (fun k => x6 (ix2 (0 : Fin 1) k)) (fun k j => x7 (ix2 k j))
            (fun j => x8 (ix2 (0 : Fin 1) j)) j
        * invK (o1K (fun a => x0 (ix2 (⟨r.val + 1000, by omega⟩ : Fin 2000) a)) (fun a => x1 (ix2 (⟨r.val + 1000, by omega⟩ : Fin 2000) a))
            (fun a k => x4 (ix2 a k)) (fun a k => x5 (ix2 a k)) (fun k => x6 (ix2 (0 : Fin 1) k)) (fun k j => x7 (ix2 k j))
            (fun j => x8 (ix2 (0 : Fin 1) j)))
            (o2K (fun i => x3 (ix2 r i)) (fun i c => x9 (ix2 i c)) (fun c => x10 (ix2 (0 : Fin 1) c)) (fun c j => x11 (ix2 c j))
            (fun j => x12 (ix2 (0 : Fin 1) j))) := by
  unfold outBlock
  refine (canon_q10 _ _ _ _ r j).trans ?_
  rw [pay10_eq, ld_rE, ld_rW1 x4, ld_rW1 x5, ld_rB1a, ld_rW1b, ld_rB64 x8, ld_rW2, ld_rB64 x10, ld_rW2b, ld_rB64 x12, halfA_apply]
  rw [funext (ld_bot x0 r), funext (ld_bot x1 r)]

/-- Rows from 1000 on, columns from 64 on: the second half's branch 2, scaled. -/
theorem bot_right (r : Fin 1000) (j : Fin 64) :
    outBlock (F := Ideal) x0 x1 x2 x3 x4 x5 x6 x7 x8 x9 x10 x11 x12 (ix2 (⟨r.val + 1000, by omega⟩ : Fin 2000) (⟨j.val + 64, by omega⟩ : Fin 128))
      = o2K (fun i => x3 (ix2 r i)) (fun i c => x9 (ix2 i c)) (fun c => x10 (ix2 (0 : Fin 1) c)) (fun c j => x11 (ix2 c j))
            (fun j => x12 (ix2 (0 : Fin 1) j)) j
        * invK (o1K (fun a => x0 (ix2 (⟨r.val + 1000, by omega⟩ : Fin 2000) a)) (fun a => x1 (ix2 (⟨r.val + 1000, by omega⟩ : Fin 2000) a))
            (fun a k => x4 (ix2 a k)) (fun a k => x5 (ix2 a k)) (fun k => x6 (ix2 (0 : Fin 1) k)) (fun k j => x7 (ix2 k j))
            (fun j => x8 (ix2 (0 : Fin 1) j)))
            (o2K (fun i => x3 (ix2 r i)) (fun i c => x9 (ix2 i c)) (fun c => x10 (ix2 (0 : Fin 1) c)) (fun c j => x11 (ix2 c j))
            (fun j => x12 (ix2 (0 : Fin 1) j))) := by
  unfold outBlock
  refine (canon_q11 _ _ _ _ r j).trans ?_
  rw [pay11_eq, ld_rE, ld_rW1 x4, ld_rW1 x5, ld_rB1a, ld_rW1b, ld_rB64 x8, ld_rW2, ld_rB64 x10, ld_rW2b, ld_rB64 x12, halfB_apply]
  rw [funext (ld_bot x0 r), funext (ld_bot x1 r)]

/-- a row of the first half: block row r < 1000 -/
theorem outBlock_top (r : Fin 1000) (j : Fin 128) :
    outBlock (F := Ideal) x0 x1 x2 x3 x4 x5 x6 x7 x8 x9 x10 x11 x12 (ix2 (⟨r.val, by omega⟩ : Fin 2000) j)
      = kerRowOf (fun a => x0 (ix2 (⟨r.val, by omega⟩ : Fin 2000) a)) (fun a => x1 (ix2 (⟨r.val, by omega⟩ : Fin 2000) a)) (fun i => x2 (ix2 r i))
          (fun a k => x4 (ix2 a k)) (fun a k => x5 (ix2 a k)) (fun k => x6 (ix2 (0 : Fin 1) k)) (fun k j => x7 (ix2 k j)) (fun j => x8 (ix2 (0 : Fin 1) j))
          (fun i c => x9 (ix2 i c)) (fun c => x10 (ix2 (0 : Fin 1) c)) (fun c j => x11 (ix2 c j)) (fun j => x12 (ix2 (0 : Fin 1) j)) j := by
  by_cases h : j.val < 64
  · refine (top_left x0 x1 x2 x3 x4 x5 x6 x7 x8 x9 x10 x11 x12 r ⟨j.val, h⟩).trans ?_
    unfold kerRowOf
    rw [cat2_left (n := 64) _ _ j h]
  · obtain ⟨j', rfl⟩ : ∃ j' : Fin 64, j = (⟨j'.val + 64, Nat.add_lt_add_right j'.isLt 64⟩ : Fin 128) :=
      ⟨⟨j.val - 64, by omega⟩, Fin.ext (by show j.val = j.val - 64 + 64; omega)⟩
    refine (top_right x0 x1 x2 x3 x4 x5 x6 x7 x8 x9 x10 x11 x12 r j').trans ?_
    unfold kerRowOf
    rw [cat2_right (n := 64) _ _ j' _]

/-- a row of the second half: block row 1000 + r -/
theorem outBlock_bot (r : Fin 1000) (j : Fin 128) :
    outBlock (F := Ideal) x0 x1 x2 x3 x4 x5 x6 x7 x8 x9 x10 x11 x12 (ix2 (⟨r.val + 1000, by omega⟩ : Fin 2000) j)
      = kerRowOf (fun a => x0 (ix2 (⟨r.val + 1000, by omega⟩ : Fin 2000) a)) (fun a => x1 (ix2 (⟨r.val + 1000, by omega⟩ : Fin 2000) a)) (fun i => x3 (ix2 r i))
          (fun a k => x4 (ix2 a k)) (fun a k => x5 (ix2 a k)) (fun k => x6 (ix2 (0 : Fin 1) k)) (fun k j => x7 (ix2 k j)) (fun j => x8 (ix2 (0 : Fin 1) j))
          (fun i c => x9 (ix2 i c)) (fun c => x10 (ix2 (0 : Fin 1) c)) (fun c j => x11 (ix2 c j)) (fun j => x12 (ix2 (0 : Fin 1) j)) j := by
  by_cases h : j.val < 64
  · refine (bot_left x0 x1 x2 x3 x4 x5 x6 x7 x8 x9 x10 x11 x12 r ⟨j.val, h⟩).trans ?_
    unfold kerRowOf
    rw [cat2_left (n := 64) _ _ j h]
  · obtain ⟨j', rfl⟩ : ∃ j' : Fin 64, j = (⟨j'.val + 64, Nat.add_lt_add_right j'.isLt 64⟩ : Fin 128) :=
      ⟨⟨j.val - 64, by omega⟩, Fin.ext (by show j.val = j.val - 64 + 64; omega)⟩
    refine (bot_right x0 x1 x2 x3 x4 x5 x6 x7 x8 x9 x10 x11 x12 r j').trans ?_
    unfold kerRowOf
    rw [cat2_right (n := 64) _ _ j' _]

end Block

end Cert.KernelIdeal.Hand

end
-- ==== Proof.KernelIdealValue.lean ====
/-
  From the blocks the pipeline writes back to the kernel's whole result array, at the extended reals.

  Grid step `t` (of 25) writes back a [2000, 128] block to rows `2000 t … 2000 t + 1999` of the result. Row `r` of that
  block is the kernel's arrangement of one node's 128 outputs at the step's input blocks; each input block entry is an
  entry of an argument array, so the row is node `2000 t + r`'s row `kerRow … (2000 t + r)` of the eleven arguments.
  Hence what a step writes back is its block of ONE whole-array function `G`, the 25 blocks cover the array, and the
  array ends at `G`.
-/
import proofs.«121214_g34196529611290_cont_8to1_b_1671_18_alg».proof.Proof.KernelIdealFrame
import proofs.«121214_g34196529611290_cont_8to1_b_1671_18_alg».proof.Proof.KernelIdealValue1
import proofs.«121214_g34196529611290_cont_8to1_b_1671_18_alg».proof.Proof.KernelIdealCover
import proofs.«121214_g34196529611290_cont_8to1_b_1671_18_alg».proof.Proof.KernelRow
import proofs.«121214_g34196529611290_cont_8to1_b_1671_18_alg».proof.Proof.RowArgs
import proofs.«121214_g34196529611290_cont_8to1_b_1671_18_alg».proof.Proof.RowBlock
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx Cert.RowSpec
open Idealize.ShloMosaic.Pipeline (Dat)

/-! ## One step's output block from the node rows of the whole arrays -/

section
variable (x0 x1 : Vec Ideal S2000x128 .f32) (x2 x3 : Vec Ideal S1000x1024 .f32) (x4 x5 : Vec Ideal S128x160 .f32) (x6 : Vec Ideal S1x160 .f32)
  (x7 : Vec Ideal S160x64 .f32) (x8 : Vec Ideal S1x64 .f32) (x9 : Vec Ideal S128x64 .f32) (x10 : Vec Ideal S1x64 .f32) (x11 : Vec Ideal S64x64 .f32)
  (x12 : Vec Ideal S1x64 .f32)
  (a0 a1 : S50000x128.Idx → EReal) (a2 : S50000x16x64.Idx → EReal) (a3 : S256x160.Idx → EReal) (a4 : S160.Idx → EReal)
  (a5 : S160x64.Idx → EReal) (a6 : S64.Idx → EReal) (a7 : S64x64.Idx → EReal) (a8 : S64.Idx → EReal) (a9 : S64x64.Idx → EReal)
  (a10 : S64.Idx → EReal)

/-- If the thirteen input blocks of step `T` are what the index maps cut from the eleven arrays, entry `(r, q)` of the
    step's output block is entry `q` of node `2000 T + r`'s row. -/
theorem outBlock_eq_kerRow (T : Nat) (hT : T < 25)
    (h0 : ∀ (r : Fin 2000) (a : Fin 128), x0 (ix2 r a) = a0 (ix2 (⟨2000 * T + r.val, by omega⟩ : Fin 50000) a))
    (h1 : ∀ (r : Fin 2000) (a : Fin 128), x1 (ix2 r a) = a1 (ix2 (⟨2000 * T + r.val, by omega⟩ : Fin 50000) a))
    (h2 : ∀ (r : Fin 1000) (i : Fin 1024), x2 (ix2 r i)
      = a2 (ix3 (⟨2000 * T + r.val, by omega⟩ : Fin 50000) (⟨i.val / 64, by omega⟩ : Fin 16) (⟨i.val % 64, by omega⟩ : Fin 64)))
    (h3 : ∀ (r : Fin 1000) (i : Fin 1024), x3 (ix2 r i)
      = a2 (ix3 (⟨2000 * T + (r.val + 1000), by omega⟩ : Fin 50000) (⟨i.val / 64, by omega⟩ : Fin 16) (⟨i.val % 64, by omega⟩ : Fin 64)))
    (h4 : ∀ (a : Fin 128) (k : Fin 160), x4 (ix2 a k) = a3 (ix2 (⟨a.val, by omega⟩ : Fin 256) k))
    (h5 : ∀ (a : Fin 128) (k : Fin 160), x5 (ix2 a k) = a3 (ix2 (⟨a.val + 128, by omega⟩ : Fin 256) k))
    (h6 : ∀ k : Fin 160, x6 (ix2 (0 : Fin 1) k) = a4 (ix1 k))
    (h7 : ∀ (k : Fin 160) (j : Fin 64), x7 (ix2 k j) = a5 (ix2 k j))
    (h8 : ∀ j : Fin 64, x8 (ix2 (0 : Fin 1) j) = a6 (ix1 j))
    (h9 : ∀ (i : Fin 128) (c : Fin 64), x9 (ix2 i c) = stack (fun a c' => a7 (ix2 a c')) i c)
    (h10 : ∀ c : Fin 64, x10 (ix2 (0 : Fin 1) c) = a8 (ix1 c))
    (h11 : ∀ (c j : Fin 64), x11 (ix2 c j) = a9 (ix2 c j))
    (h12 : ∀ j : Fin 64, x12 (ix2 (0 : Fin 1) j) = a10 (ix1 j))
    (r : Fin 2000) (q : Fin 128) :
    outBlock (F := Ideal) x0 x1 x2 x3 x4 x5 x6 x7 x8 x9 x10 x11 x12 (ix2 r q)
      = kerRow a0 a1 a2 a3 a4 a5 a6 a7 a8 a9 a10 (⟨2000 * T + r.val, by have := r.isLt; omega⟩ : Fin 50000) q := by
  have e4 : (fun (a : Fin 128) (k : Fin 160) => x4 (ix2 a k)) = top (fun a k => a3 (ix2 a k)) := funext fun a => funext fun k => h4 a k
  have e5 : (fun (a : Fin 128) (k : Fin 160) => x5 (ix2 a k)) = bot (fun a k => a3 (ix2 a k)) := funext fun a => funext fun k => h5 a k
  have e6 : (fun k : Fin 160 => x6 (ix2 (0 : Fin 1) k)) = fun k => a4 (ix1 k) := funext h6
  have e7 : (fun (k : Fin 160) (j : Fin 64) => x7 (ix2 k j)) = fun k j => a5 (ix2 k j) := funext fun k => funext fun j => h7 k j
  have e8 : (fun j : Fin 64 => x8 (ix2 (0 : Fin 1) j)) = fun j => a6 (ix1 j) := funext h8
  have e9 : (fun (i : Fin 128) (c : Fin 64) => x9 (ix2 i c)) = stack (fun a c' => a7 (ix2 a c')) := funext fun i => funext fun c => h9 i c
  have e10 : (fun c : Fin 64 => x10 (ix2 (0 : Fin 1) c)) = fun c => a8 (ix1 c) := funext h10
  have e11 : (fun (c j : Fin 64) => x11 (ix2 c j)) = fun c j => a9 (ix2 c j) := funext fun c => funext fun j => h11 c j
  have e12 : (fun j : Fin 64 => x12 (ix2 (0 : Fin 1) j)) = fun j => a10 (ix1 j) := funext h12
  unfold kerRow
  rw [outK_eq_kerRowOf]
  by_cases hr : r.val < 1000
  · have e0 : (fun a : Fin 128 => x0 (ix2 (⟨(⟨r.val, hr⟩ : Fin 1000).val, by omega⟩ : Fin 2000) a))
        = fun a => a0 (ix2 (⟨2000 * T + r.val, by omega⟩ : Fin 50000) a) := funext fun a => h0 _ a
    have e1 : (fun a : Fin 128 => x1 (ix2 (⟨(⟨r.val, hr⟩ : Fin 1000).val, by omega⟩ : Fin 2000) a))
        = fun a => a1 (ix2 (⟨2000 * T + r.val, by omega⟩ : Fin 50000) a) := funext fun a => h1 _ a
    have e2 : (fun i : Fin 1024 => x2 (ix2 (⟨r.val, hr⟩ : Fin 1000) i))
        = flat (fun d c => a2 (ix3 (⟨2000 * T + r.val, by omega⟩ : Fin 50000) d c)) := funext fun i => h2 _ i
    have h := outBlock_top x0 x1 x2 x3 x4 x5 x6 x7 x8 x9 x10 x11 x12 ⟨r.val, hr⟩ q
    rw [e0, e1, e2, e4, e5, e6, e7, e8, e9, e10, e11, e12] at h
    exact h
  · have hr' : r.val - 1000 < 1000 := by have := r.isLt; omega
    have hrr : (⟨(⟨r.val - 1000, hr'⟩ : Fin 1000).val + 1000, by omega⟩ : Fin 2000) = r := Fin.ext (by show r.val - 1000 + 1000 = r.val; omega)
    have e0 : (fun a : Fin 128 => x0 (ix2 (⟨(⟨r.val - 1000, hr'⟩ : Fin 1000).val + 1000, by omega⟩ : Fin 2000) a))
        = fun a => a0 (ix2 (⟨2000 * T + r.val, by have := r.isLt; omega⟩ : Fin 50000) a) := by rw [hrr]; exact funext fun a => h0 r a
    have e1 : (fun a : Fin 128 => x1 (ix2 (⟨(⟨r.val - 1000, hr'⟩ : Fin 1000).val + 1000, by omega⟩ : Fin 2000) a))
        = fun a => a1 (ix2 (⟨2000 * T + r.val, by have := r.isLt; omega⟩ : Fin 50000) a) := by rw [hrr]; exact funext fun a => h1 r a
    have e3 : (fun i : Fin 1024 => x3 (ix2 (⟨r.val - 1000, hr'⟩ : Fin 1000) i))
        = flat (fun d c => a2 (ix3 (⟨2000 * T + r.val, by have := r.isLt; omega⟩ : Fin 50000) d c)) := funext fun i => by
      rw [h3]
      show a2 _ = a2 _
      congr 1
      funext d
      match d with
      | ⟨0, _⟩ => exact Fin.ext (by show 2000 * T + (r.val - 1000 + 1000) = 2000 * T + r.val; omega)
      | ⟨1, _⟩ => rfl
      | ⟨2, _⟩ => rfl
    have h := outBlock_bot x0 x1 x2 x3 x4 x5 x6 x7 x8 x9 x10 x11 x12 ⟨r.val - 1000, hr'⟩ q
    rw [e0, e1, e3, e4, e5, e6, e7, e8, e9, e10, e11, e12, hrr] at h
    exact h

end

/-! ## What a step writes back, and the whole result array -/

variable (m : (ℓ : Loc nD τ sig) → Buf (Elt Ideal) ℓ)

/-- The result array the kernel is to leave: at row `n`, node `n`'s row in the kernel's arrangement. -/
abbrev G (c : Dev nD) : S50000x128.Idx → EReal := fun i =>
  kerRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    ⟨(i 0).val, (i 0).isLt⟩ ⟨(i 1).val, (i 1).isLt⟩

/-- What step `t` writes back is block `t` of `G`: rows `2000 t … 2000 t + 1999`. -/
theorem flushed13_eq (c : Dev nD) (t : Fin cfg0.N) :
    (dats (F := Ideal) m 0 c).flushed 13 t = ((cfg0.win 13).blk t).view.read (Elt Ideal) (G m c) := by
  show (cfg0.win 13).cut (grid0.coords t) ((dats (F := Ideal) m 0 c).after 13 t) = _
  rw [after0_13]
  funext j
  obtain ⟨r, q, rfl⟩ : ∃ (r : Fin 2000) (q : Fin 128), j = ix2 r q := ⟨j 0, j 1, eq_ix2 j⟩
  have hN : t.val < 25 := by have h := t.isLt; have e : cfg0.N = 25 := N_0; omega
  obtain ⟨e0, e1⟩ := out_index t
  refine (outBlock_eq_kerRow (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    t.val hN
    (fun r a => blk0_apply m c t r a _ rfl rfl) (fun r a => blk1_apply m c t r a _ rfl rfl)
    (fun r i => blk2_apply m c t r i _ rfl rfl rfl) (fun r i => blk3_apply m c t r i _ rfl rfl rfl)
    (fun a k => blk4_apply m c t a k _ rfl rfl) (fun a k => blk5_apply m c t a k _ rfl rfl)
    (fun k => blk6_apply m c t k) (fun k j => blk7_apply m c t k j) (fun j => blk8_apply m c t j)
    (fun i c' => blk9_apply m c t i c') (fun c' => blk10_apply m c t c') (fun c' j => blk11_apply m c t c' j)
    (fun j => blk12_apply m c t j) r q).trans ?_
  show kerRow _ _ _ _ _ _ _ _ _ _ _ _ q = kerRow _ _ _ _ _ _ _ _ _ _ _ _ _
  congr 1
  · apply Fin.ext
    show 2000 * t.val + r.val = win0_13.index t (0 : Fin 2) * 2000 + 1 * r.val
    omega
  · apply Fin.ext
    show q.val = win0_13.index t (1 : Fin 2) * 128 + 1 * q.val
    omega

/-- The result array after the run: row `n` is node `n`'s row in the kernel's arrangement. -/
theorem final13 (m : (ℓ : Loc nD τ sig) → Buf (Elt Ideal) ℓ) (c : Dev nD) :
    (dats (F := Ideal) m 0 c).arrAt 13 cfg0.N = fun i : S50000x128.Idx =>
      kerRow (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        ⟨(i 0).val, (i 0).isLt⟩ ⟨(i 1).val, (i 1).isLt⟩ :=
  (dats (F := Ideal) m 0 c).arrAt_eq_of_cover 13 (G m c) (fun t _ => flushed13_eq m c t) cover13

end Cert.KernelIdeal.Hand

end
-- ==== Proof.RefRow.lean ====
/-
  The reference's value read at one node.

  For node `n` the reference computes, one operation at a time: the mailbox summed over its sixteen edges; the two
  feature rows side by side; branch 1's hidden layer (the concatenated row against `W1a`, plus `b1a`), rectified,
  against `W1b`, plus `b1b`, through tanh; branch 2 likewise from the summed mailbox with `W2a`, `b2a`, `W2b`, `b2b`;
  the two branches side by side; that row's squared sum, its square root, and each entry over the root.

  Each lemma below reads one of these values at explicit coordinates `(n, ·)` and states it as the matching term of
  RowSpec (`msg`, `cat2`, `hid1R`, `act`, `hid2R`, `catRow`). Every sum is rewritten term by term: the contraction's
  two index functions at `(n, j)` and `k` are the coordinate pairs `(n, k)` and `(k, j)`, and the scalar constants the
  sums and rectifiers use are zero. The last two statements are the row's norm (`norm_row`) and the reference's
  result (`out_row`).
-/
import proofs.«121214_g34196529611290_cont_8to1_b_1671_18_alg».proof.Proof.Gen.ReferenceIdeal.Read
import proofs.«121214_g34196529611290_cont_8to1_b_1671_18_alg».proof.Proof.RowArgs

noncomputable section

namespace Cert.RefRow

open Cert.ReferenceIdeal Cert.ReferenceIdeal.Read Idealize.ShloMosaic Idealize.ShloMosaic.ValueIdx Cert.RowSpec

variable (x0 x1 : FVec Ideal S50000x128 .f32) (x2 : FVec Ideal S50000x16x64 .f32) (x3 : FVec Ideal S256x160 .f32)
  (x4 : FVec Ideal S160 .f32) (x5 : FVec Ideal S160x64 .f32) (x6 : FVec Ideal S64 .f32) (x7 : FVec Ideal S64x64 .f32)
  (x8 : FVec Ideal S64 .f32) (x9 : FVec Ideal S64x64 .f32) (x10 : FVec Ideal S64 .f32)

/-- The scalar zero the sums start from. -/
theorem cst_zero (i : S_.Idx) : val_main_cst (F := Ideal) i = 0 := by
  rw [val_main_cst_apply, Ideal.ofBits_def, Ideal.ofBits_zero_f32]

/-- The mailbox summed over its sixteen edges, at node `n`, feature `c`. -/
theorem v0_row (n : Fin 50000) (c : Fin 64) :
    val_main_v0 (F := Ideal) x2 (ix2 n c) = msg (fun d c => x2 (ix3 n d c)) c := by
  rw [val_main_v0_apply, cst_zero, zero_add]
  unfold msg
  refine Finset.sum_congr rfl fun d _ => ?_
  exact congrArg x2 (funext fun a => Fin.ext (by match a with | ⟨0, _⟩ => rfl | ⟨1, _⟩ => rfl | ⟨2, _⟩ => rfl))

/-- The two feature rows side by side, at node `n`, position `a`. -/
theorem v1_row (n : Fin 50000) (a : Fin 256) :
    val_main_v1 (F := Ideal) x0 x1 (ix2 n a) = cat2 (fun a => x0 (ix2 n a)) (fun a => x1 (ix2 n a)) a := by
  unfold val_main_v1 cat2
  by_cases h : a.val < 128
  · rw [dif_pos h]
    exact concatenate_pair_apply_left (1 : Fin 2) x0 x1 Facts₀.concatenates_S50000x128_S50000x128_S50000x256_d1 (ix2 n a) rfl
      (ix2 n ⟨a.val, h⟩) (fun b => by match b with | ⟨0, _⟩ => rfl | ⟨1, _⟩ => rfl)
  · rw [dif_neg h]
    exact concatenate_pair_apply_right (1 : Fin 2) x0 x1 Facts₀.concatenates_S50000x128_S50000x128_S50000x256_d1 (ix2 n a) rfl rfl
      (ix2 n ⟨a.val - 128, by omega⟩) (fun b hb => by match b, hb with | ⟨0, _⟩, _ => rfl | ⟨1, _⟩, hb => exact absurd rfl hb)
      (by show a.val - 128 + 128 = a.val; omega)

/-- The second scalar zero, the one the first rectifier compares with. -/
theorem v6_zero (i : S50000x160.Idx) : val_main_v6 (F := Ideal) i = 0 := by
  rw [val_main_v6_apply, val_main_cst_0_apply, Ideal.ofBits_def, Ideal.ofBits_zero_f32]

/-- The third scalar zero, the one the second rectifier compares with. -/
theorem v17_zero (i : S50000x64.Idx) : val_main_v17 (F := Ideal) i = 0 := by
  rw [val_main_v17_apply, val_main_cst_1_apply, Ideal.ofBits_def, Ideal.ofBits_zero_f32]

/-- The scalar zero the squared sum starts from. -/
theorem call0_cst_zero (i : S_.Idx) : val_main_call0_cst (F := Ideal) i = 0 := by
  rw [val_main_call0_cst_apply, Ideal.ofBits_def, Ideal.ofBits_zero_f32]

/-- The bias `b1a` broadcast over the nodes. -/
theorem v4_row (n : Fin 50000) (k : Fin 160) : val_main_v4 (F := Ideal) x4 (ix2 n k) = x4 (ix1 k) := by
  rw [val_main_v4_apply, val_main_v3_apply]
  exact congrArg x4 (funext fun b => Fin.ext (by match b with | ⟨0, _⟩ => rfl))

/-- The bias `b1b` broadcast over the nodes. -/
theorem v10_row (n : Fin 50000) (j : Fin 64) : val_main_v10 (F := Ideal) x6 (ix2 n j) = x6 (ix1 j) := by
  rw [val_main_v10_apply, val_main_v9_apply]
  exact congrArg x6 (funext fun b => Fin.ext (by match b with | ⟨0, _⟩ => rfl))

/-- The bias `b2a` broadcast over the nodes. -/
theorem v15_row (n : Fin 50000) (c : Fin 64) : val_main_v15 (F := Ideal) x8 (ix2 n c) = x8 (ix1 c) := by
  rw [val_main_v15_apply, val_main_v14_apply]
  exact congrArg x8 (funext fun b => Fin.ext (by match b with | ⟨0, _⟩ => rfl))

/-- The bias `b2b` broadcast over the nodes. -/
theorem v21_row (n : Fin 50000) (j : Fin 64) : val_main_v21 (F := Ideal) x10 (ix2 n j) = x10 (ix1 j) := by
  rw [val_main_v21_apply, val_main_v20_apply]
  exact congrArg x10 (funext fun b => Fin.ext (by match b with | ⟨0, _⟩ => rfl))

/-- Branch 1's hidden layer: the concatenated row against `W1a` whole, plus `b1a`. -/
theorem v5_row (n : Fin 50000) (k : Fin 160) :
    val_main_v5 (F := Ideal) x0 x1 x3 x4 (ix2 n k)
      = hid1R (fun a => x0 (ix2 n a)) (fun a => x1 (ix2 n a)) (fun a k => x3 (ix2 a k)) (fun k => x4 (ix1 k)) k := by
  have hs : ∀ a : Fin 256, val_main_v1 (F := Ideal) x0 x1 (lidx_main_v2 (ix2 n k) a) * x3 (ridx_main_v2 (ix2 n k) a)
      = cat2 (fun a => x0 (ix2 n a)) (fun a => x1 (ix2 n a)) a * x3 (ix2 a k) := fun a => by
    have el : lidx_main_v2 (ix2 n k) a = ix2 n a := funext fun b => Fin.ext (by match b with | ⟨0, _⟩ => rfl | ⟨1, _⟩ => rfl)
    have er : ridx_main_v2 (ix2 n k) a = ix2 a k := funext fun b => Fin.ext (by match b with | ⟨0, _⟩ => rfl | ⟨1, _⟩ => rfl)
    rw [el, er, v1_row]
  rw [val_main_v5_apply, val_main_v2_apply, v4_row, Ideal.addf_def, Finset.sum_congr rfl fun a _ => hs a]
  rfl

/-- Branch 1's output: the rectified hidden layer against `W1b`, plus `b1b`, through tanh. -/
theorem v12_row (n : Fin 50000) (j : Fin 64) :
    val_main_v12 (F := Ideal) x0 x1 x3 x4 x5 x6 (ix2 n j)
      = act (hid1R (fun a => x0 (ix2 n a)) (fun a => x1 (ix2 n a)) (fun a k => x3 (ix2 a k)) (fun k => x4 (ix1 k)))
          (fun k j => x5 (ix2 k j)) (fun j => x6 (ix1 j)) j := by
  have hs : ∀ k : Fin 160, val_main_v7 (F := Ideal) x0 x1 x3 x4 (lidx_main_v8 (ix2 n j) k) * x5 (ridx_main_v8 (ix2 n j) k)
      = max (hid1R (fun a => x0 (ix2 n a)) (fun a => x1 (ix2 n a)) (fun a k => x3 (ix2 a k)) (fun k => x4 (ix1 k)) k) 0
          * x5 (ix2 k j) := fun k => by
    have el : lidx_main_v8 (ix2 n j) k = ix2 n k := funext fun b => Fin.ext (by match b with | ⟨0, _⟩ => rfl | ⟨1, _⟩ => rfl)
    have er : ridx_main_v8 (ix2 n j) k = ix2 k j := funext fun b => Fin.ext (by match b with | ⟨0, _⟩ => rfl | ⟨1, _⟩ => rfl)
    rw [el, er, val_main_v7_apply, v6_zero, v5_row, Ideal.maximumf_def]
  rw [val_main_v12_apply, val_main_v11_apply, val_main_v8_apply, v10_row, Ideal.hostUnary_tanh_def, Ideal.addf_def,
    Finset.sum_congr rfl fun k _ => hs k]
  rfl

/-- Branch 2's hidden layer: the summed mailbox against `W2a`, plus `b2a`. -/
theorem v16_row (n : Fin 50000) (c : Fin 64) :
    val_main_v16 (F := Ideal) x2 x7 x8 (ix2 n c)
      = hid2R (fun d c => x2 (ix3 n d c)) (fun a c => x7 (ix2 a c)) (fun c => x8 (ix1 c)) c := by
  have hs : ∀ a : Fin 64, val_main_v0 (F := Ideal) x2 (lidx_main_v13 (ix2 n c) a) * x7 (ridx_main_v13 (ix2 n c) a)
      = msg (fun d c => x2 (ix3 n d c)) a * x7 (ix2 a c) := fun a => by
    have el : lidx_main_v13 (ix2 n c) a = ix2 n a := funext fun b => Fin.ext (by match b with | ⟨0, _⟩ => rfl | ⟨1, _⟩ => rfl)
    have er : ridx_main_v13 (ix2 n c) a = ix2 a c := funext fun b => Fin.ext (by match b with | ⟨0, _⟩ => rfl | ⟨1, _⟩ => rfl)
    rw [el, er, v0_row]
  rw [val_main_v16_apply, val_main_v13_apply, v15_row, Ideal.addf_def, Finset.sum_congr rfl fun a _ => hs a]
  rfl

/-- Branch 2's output: the rectified hidden layer against `W2b`, plus `b2b`, through tanh. -/
theorem v23_row (n : Fin 50000) (j : Fin 64) :
    val_main_v23 (F := Ideal) x2 x7 x8 x9 x10 (ix2 n j)
      = act (hid2R (fun d c => x2 (ix3 n d c)) (fun a c => x7 (ix2 a c)) (fun c => x8 (ix1 c)))
          (fun c j => x9 (ix2 c j)) (fun j => x10 (ix1 j)) j := by
  have hs : ∀ k : Fin 64, val_main_v18 (F := Ideal) x2 x7 x8 (lidx_main_v19 (ix2 n j) k) * x9 (ridx_main_v19 (ix2 n j) k)
      = max (hid2R (fun d c => x2 (ix3 n d c)) (fun a c => x7 (ix2 a c)) (fun c => x8 (ix1 c)) k) 0 * x9 (ix2 k j) := fun k => by
    have el : lidx_main_v19 (ix2 n j) k = ix2 n k := funext fun b => Fin.ext (by match b with | ⟨0, _⟩ => rfl | ⟨1, _⟩ => rfl)
    have er : ridx_main_v19 (ix2 n j) k = ix2 k j := funext fun b => Fin.ext (by match b with | ⟨0, _⟩ => rfl | ⟨1, _⟩ => rfl)
    rw [el, er, val_main_v18_apply, v17_zero, v16_row, Ideal.maximumf_def]
  rw [val_main_v23_apply, val_main_v22_apply, val_main_v19_apply, v21_row, Ideal.hostUnary_tanh_def, Ideal.addf_def,
    Finset.sum_congr rfl fun k _ => hs k]
  rfl

/-- The unnormalised row: branch 1's sixty-four numbers, then branch 2's. -/
theorem v24_row (n : Fin 50000) (j : Fin 128) :
    val_main_v24 (F := Ideal) x0 x1 x2 x3 x4 x5 x6 x7 x8 x9 x10 (ix2 n j) = catRow x0 x1 x2 x3 x4 x5 x6 x7 x8 x9 x10 n j := by
  unfold val_main_v24 catRow catR cat2
  by_cases h : j.val < 64
  · rw [dif_pos h]
    refine (concatenate_pair_apply_left (t := S50000x128) (s₁ := S50000x64) (s₂ := S50000x64) (1 : Fin 2)
      (val_main_v12 (F := Ideal) x0 x1 x3 x4 x5 x6) (val_main_v23 (F := Ideal) x2 x7 x8 x9 x10)
      Facts₀.concatenates_S50000x64_S50000x64_S50000x128_d1 (ix2 n j) rfl
      (ix2 n ⟨j.val, h⟩) (fun b => by match b with | ⟨0, _⟩ => rfl | ⟨1, _⟩ => rfl)).trans ?_
    exact v12_row x0 x1 x3 x4 x5 x6 n ⟨j.val, h⟩
  · rw [dif_neg h]
    refine (concatenate_pair_apply_right (t := S50000x128) (s₁ := S50000x64) (s₂ := S50000x64) (1 : Fin 2)
      (val_main_v12 (F := Ideal) x0 x1 x3 x4 x5 x6) (val_main_v23 (F := Ideal) x2 x7 x8 x9 x10)
      Facts₀.concatenates_S50000x64_S50000x64_S50000x128_d1 (ix2 n j) rfl rfl
      (ix2 n ⟨j.val - 64, by omega⟩) (fun b hb => by match b, hb with | ⟨0, _⟩, _ => rfl | ⟨1, _⟩, hb => exact absurd rfl hb)
      (by show j.val - 64 + 64 = j.val; omega)).trans ?_
    exact v23_row x2 x7 x8 x9 x10 n ⟨j.val - 64, by omega⟩

/-- The row's squared sum. -/
theorem sq_row (n : Fin 50000) :
    val_main_call0_v1 (F := Ideal) x0 x1 x2 x3 x4 x5 x6 x7 x8 x9 x10 (ix1 n)
      = ∑ j : Fin 128, catRow x0 x1 x2 x3 x4 x5 x6 x7 x8 x9 x10 n j * catRow x0 x1 x2 x3 x4 x5 x6 x7 x8 x9 x10 n j := by
  have hs : ∀ j : Fin 128, val_main_call0_v0 (F := Ideal) x0 x1 x2 x3 x4 x5 x6 x7 x8 x9 x10 (idx_main_call0_v1 (ix1 n) j)
      = catRow x0 x1 x2 x3 x4 x5 x6 x7 x8 x9 x10 n j * catRow x0 x1 x2 x3 x4 x5 x6 x7 x8 x9 x10 n j := fun j => by
    have e : idx_main_call0_v1 (ix1 n) j = ix2 n j := funext fun b => Fin.ext (by match b with | ⟨0, _⟩ => rfl | ⟨1, _⟩ => rfl)
    rw [e, val_main_call0_v0_apply, v24_row, Ideal.mulf_def]
  rw [val_main_call0_v1_apply, call0_cst_zero, zero_add, Finset.sum_congr rfl fun j _ => hs j]

/-- The row's Euclidean norm, kept in a column of width one. -/
theorem norm_row (n : Fin 50000) (z : Fin 1) :
    val_main_v25 (F := Ideal) x0 x1 x2 x3 x4 x5 x6 x7 x8 x9 x10 (ix2 n z) = nrmR (catRow x0 x1 x2 x3 x4 x5 x6 x7 x8 x9 x10 n) := by
  have e : idx_main_call0_v2 (ix2 n z) = ix1 n := funext fun b => Fin.ext (by match b with | ⟨0, _⟩ => rfl)
  rw [val_main_v25_apply, val_main_call0_v2_apply, Ideal.hostUnary_sqrt_def, e, sq_row]
  rfl

/-- The reference's result: each entry of the row over the row's norm. -/
theorem out_row (n : Fin 50000) (j : Fin 128) :
    val_main_v27 (F := Ideal) x0 x1 x2 x3 x4 x5 x6 x7 x8 x9 x10 (ix2 n j) = outR (catRow x0 x1 x2 x3 x4 x5 x6 x7 x8 x9 x10 n) j := by
  have e : idx_main_v26 (ix2 n j) = ix2 n (⟨0, Nat.one_pos⟩ : Fin 1) := funext fun b => Fin.ext (by match b with | ⟨0, _⟩ => rfl | ⟨1, _⟩ => rfl)
  rw [val_main_v27_apply, val_main_v26_apply, Ideal.hostDivf_def, v24_row, e, norm_row]
  rfl

end Cert.RefRow

end
-- ==== Proof.PreFacts.lean ====
import proofs.«121214_g34196529611290_cont_8to1_b_1671_18_alg».proof.Pre_finite_inputs
import proofs.«121214_g34196529611290_cont_8to1_b_1671_18_alg».proof.Proof.Gen.Pre_finite_inputs
import proofs.«121214_g34196529611290_cont_8to1_b_1671_18_alg».proof.Proof.Gen.ReferenceIdeal.Read
import Idealize.ShloMosaic.Lib.ReduceAll
import Idealize.ShloMosaic.Lib.ValueIdx

/-!
# The precondition, decoded

The precondition is a one-bit array: the conjunction, over the eleven float inputs, of "every entry has
absolute value below +∞", and of "every row norm of the reference's concatenated feature matrix is above zero".
Its value being 1 gives, entry by entry: the mailbox array and the first mailbox weight matrix hold reals,
and the reference's norm (its own denominator) is positive at every row.
-/

namespace Cert.PreFacts
open Idealize.ShloMosaic

/-- A rank-0 array has exactly one index. -/
instance : Subsingleton Cert.Pre_finite_inputs.S_.Idx := ⟨fun a b => funext fun d => d.elim0⟩

/-- The entrywise `and` of two one-bit arrays is 1 at an index exactly when both are. -/
theorem vandi_eq_one {s : Shape} (a b : IVec s 1) (i : s.Idx) : andi a b i = 1#1 ↔ a i = 1#1 ∧ b i = 1#1 :=
  IntOp.andi_eq_one

/-- An extended real with `max a (-a) < ⊤` is neither infinity, so it is a real. -/
theorem real_of_abs_lt_top (a : EReal) (h : max a (-a) < ⊤) : ∃ r : ℝ, a = (r : EReal) := by
  induction a using EReal.rec with
  | bot => simp at h
  | coe r => exact ⟨r, rfl⟩
  | top => simp at h

/-- The ordered "less than" comparison of extended reals answers 1 only when the strict inequality holds. -/
theorem olt_eq_one {a b : EReal} (h : Ideal.cmp .olt a b = 1#1) : a < b := by
  unfold Ideal.cmp at h
  have hb : ∀ c : Bool, BitVec.ofBool c = 1#1 → c = true := by decide
  exact of_decide_eq_true (hb _ h)

/-- The bit pattern `0x7F800000` is +∞. -/
theorem inf_bits : Ideal.ofBits .f32 0x7F800000#32 = (⊤ : EReal) := by
  simp [Ideal.ofBits, Ideal.ieee]

/-- `all (|x| < +∞) = 1` gives a real witness for every entry of `x`. -/
theorem finite_of_all {s : Shape} {axes : List (Fin s.rank)} (x : FVec Ideal s .f32)
    (hb : Cert.Pre_finite_inputs.S_.BroadcastsInDim s ![]) (hr : s.ReducesTo axes Cert.Pre_finite_inputs.S_)
    (h0 : 0 < Cert.Pre_finite_inputs.S_.numel)
    (e : Host.reduce IntOp.andi (cmpf .olt (Host.absf x) (broadcastInDim s ![] hb (constant Cert.Pre_finite_inputs.S_ .f32 0x7F800000#32)))
      (constantI Cert.Pre_finite_inputs.S_ 1 1#1) hr h0 ValueIdx.ix0 = 1#1) (i : s.Idx) : ∃ r : ℝ, x i = (r : EReal) := by
  have hi := Host.reduce_andi_all _ _ hr h0 _ e i
  have h2 : Ideal.cmp .olt (max (x i) (-(x i))) (Ideal.ofBits .f32 0x7F800000#32) = 1#1 := hi
  rw [inf_bits] at h2
  exact real_of_abs_lt_top _ (olt_eq_one h2)

/-- `all (0 < y) = 1` gives `0 < y i` at every index. -/
theorem pos_of_all {s : Shape} {axes : List (Fin s.rank)} (y : FVec Ideal s .f32)
    (hb : Cert.Pre_finite_inputs.S_.BroadcastsInDim s ![]) (hr : s.ReducesTo axes Cert.Pre_finite_inputs.S_)
    (h0 : 0 < Cert.Pre_finite_inputs.S_.numel)
    (e : Host.reduce IntOp.andi (cmpf .olt (broadcastInDim s ![] hb (constant Cert.Pre_finite_inputs.S_ .f32 0x00000000#32)) y)
      (constantI Cert.Pre_finite_inputs.S_ 1 1#1) hr h0 ValueIdx.ix0 = 1#1) (i : s.Idx) : (0 : EReal) < y i := by
  have hi := Host.reduce_andi_all _ _ hr h0 _ e i
  have h2 : Ideal.cmp .olt (Ideal.ofBits .f32 0x00000000#32) (y i) = 1#1 := hi
  rw [Ideal.ofBits_zero_f32] at h2
  exact olt_eq_one h2

/-- From the precondition: the mailbox `x2` and the weight matrix `x7` hold reals, and the reference's row norm is
    positive at every row. The conjunction is nested to the left, in the order `x0, …, x10`, then the norm; the norm
    the predicate compares with zero is the same composition of operations on the same inputs as the reference's. -/
theorem decode [Cert.Pre_finite_inputs.Facts] (x0 x1 : FVec Ideal Cert.ReferenceIdeal.S50000x128 .f32) (x2 : FVec Ideal Cert.ReferenceIdeal.S50000x16x64 .f32) (x3 : FVec Ideal Cert.ReferenceIdeal.S256x160 .f32) (x4 : FVec Ideal Cert.ReferenceIdeal.S160 .f32) (x5 : FVec Ideal Cert.ReferenceIdeal.S160x64 .f32) (x6 : FVec Ideal Cert.ReferenceIdeal.S64 .f32) (x7 : FVec Ideal Cert.ReferenceIdeal.S64x64 .f32) (x8 : FVec Ideal Cert.ReferenceIdeal.S64 .f32) (x9 : FVec Ideal Cert.ReferenceIdeal.S64x64 .f32) (x10 : FVec Ideal Cert.ReferenceIdeal.S64 .f32)
    (h : Cert.Pre_finite_inputs.fn (F := Ideal) x0 x1 x2 x3 x4 x5 x6 x7 x8 x9 x10 = fun _ => 1#1) :
    (∀ i, ∃ r : ℝ, x2 i = (r : EReal)) ∧ (∀ i, ∃ r : ℝ, x7 i = (r : EReal))
      ∧ ∀ i, 0 < Cert.ReferenceIdeal.Read.val_main_v25 (F := Ideal) x0 x1 x2 x3 x4 x5 x6 x7 x8 x9 x10 i := by
  have h0 := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at h0
  obtain ⟨h10, eN⟩ := (vandi_eq_one _ _ _).1 h0
  obtain ⟨h9, -⟩ := (vandi_eq_one _ _ _).1 h10
  obtain ⟨h8, -⟩ := (vandi_eq_one _ _ _).1 h9
  obtain ⟨h7, -⟩ := (vandi_eq_one _ _ _).1 h8
  obtain ⟨h6, e7⟩ := (vandi_eq_one _ _ _).1 h7
  obtain ⟨h5, -⟩ := (vandi_eq_one _ _ _).1 h6
  obtain ⟨h4, -⟩ := (vandi_eq_one _ _ _).1 h5
  obtain ⟨h3, -⟩ := (vandi_eq_one _ _ _).1 h4
  obtain ⟨h2, -⟩ := (vandi_eq_one _ _ _).1 h3
  obtain ⟨-, e2⟩ := (vandi_eq_one _ _ _).1 h2
  clear h0 h10 h9 h8 h7 h6 h5 h4 h3 h2
  refine ⟨finite_of_all x2 _ _ _ e2, finite_of_all x7 _ _ _ e7, fun i => ?_⟩
  exact pos_of_all (s := Cert.ReferenceIdeal.S50000x1) (Cert.ReferenceIdeal.Read.val_main_v25 (F := Ideal) x0 x1 x2 x3 x4 x5 x6 x7 x8 x9 x10) _ _ _ eN i

end Cert.PreFacts
-- ==== Proof.RowAlgebra.lean ====
/-
  One node's row: the kernel's arrangement of the sums equals the reference's.

  Three facts, each about sums of extended reals only.

  1. A sum over the 256 entries of the concatenated row x ‖ y against W1a is the sum over x against the
     first 128 rows of W1a plus the sum over y against the last 128 rows.  Addition of extended reals is a
     commutative monoid, so this needs no finiteness.

  2. The flat mailbox folded to 128 lanes puts in lane 64 h + c (h = 0, 1) the sum of the eight edge states
     E d c with d ≡ h (mod 2); the product with W2a stacked on itself therefore gives, for each feature c,
     (even edges) · W2a c + (odd edges) · W2a c, which is (all sixteen edges) · W2a c once multiplication
     distributes over the sum.  On the extended reals it does so when the summands are finite, which is
     what the two finiteness hypotheses give.

  3. Every value of tanh is a real in [-1, 1], so the squared sum S of the row is the coercion of a real
     s ≥ 0; a positive norm √s gives s ≠ 0, so rsqrt S = (√s)⁻¹ and o / √s = o · (√s)⁻¹ entry by entry.
-/
import proofs.«121214_g34196529611290_cont_8to1_b_1671_18_alg».proof.Proof.RowSpec
import Mathlib.Algebra.BigOperators.Fin
import Mathlib.Data.EReal.Inv
import Mathlib.Analysis.Real.Sqrt

noncomputable section

namespace Cert.RowSpec

open Idealize.ShloMosaic

/-! ## Concatenation -/

/-- The concatenated row on its first half. -/
theorem cat2_castAdd {n : ℕ} (u v : Fin n → EReal) (a : Fin n) : cat2 u v (Fin.castAdd n a) = u a := by
  have h : (Fin.castAdd n a).val < n := a.isLt
  simp only [cat2, dif_pos h]
  rfl

/-- The concatenated row on its second half. -/
theorem cat2_natAdd {n : ℕ} (u v : Fin n → EReal) (a : Fin n) : cat2 u v (Fin.natAdd n a) = v a := by
  have h : ¬ (Fin.natAdd n a).val < n := by simp
  simp only [cat2, dif_neg h]
  congr 1
  apply Fin.ext
  simp

/-- A sum over the concatenated index set is the sum over the first half plus the sum over the second. -/
theorem sum_cat2 {n : ℕ} (u v : Fin n → EReal) (g : Fin (n + n) → EReal) :
    (∑ a : Fin (n + n), cat2 u v a * g a)
      = (∑ a : Fin n, u a * g (Fin.castAdd n a)) + (∑ a : Fin n, v a * g (Fin.natAdd n a)) := by
  rw [Fin.sum_univ_add]
  simp only [cat2_castAdd, cat2_natAdd]

/-- Scaling both halves scales the concatenation. -/
theorem cat2_mul {n : ℕ} (u v : Fin n → EReal) (c : EReal) (a : Fin (n + n)) :
    cat2 (fun j => u j * c) (fun j => v j * c) a = cat2 u v a * c := by
  unfold cat2
  split <;> rfl

/-! ## Branch 1: the split product -/

/-- Branch 1's hidden layer: x against the first 128 rows of W1a plus y against the last 128 is x ‖ y against W1a. -/
theorem hid1K_eq_hid1R (x y : Fin 128 → EReal) (W1a : Fin 256 → Fin 160 → EReal) (b1a : Fin 160 → EReal) :
    hid1K x y (top W1a) (bot W1a) b1a = hid1R x y W1a b1a := by
  funext k
  have h := sum_cat2 x y (fun a : Fin (128 + 128) => W1a a k)
  unfold hid1K hid1R
  rw [show (∑ a : Fin 256, cat2 x y a * W1a a k) = ∑ a : Fin (128 + 128), cat2 x y a * W1a a k from rfl, h]
  congr 2

/-! ## Finite extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two finite extended reals is finite. -/
theorem fin_add {a b : EReal} (ha : ∃ r : ℝ, a = r) (hb : ∃ r : ℝ, b = r) : ∃ r : ℝ, a + b = r := by
  obtain ⟨ra, rfl⟩ := ha
  obtain ⟨rb, rfl⟩ := hb
  exact ⟨ra + rb, (EReal.coe_add ra rb).symm⟩

/-- Multiplication distributes over a sum of finite extended reals. -/
theorem fin_add_mul {a b w : EReal} (ha : ∃ r : ℝ, a = r) (hb : ∃ r : ℝ, b = r) (hw : ∃ r : ℝ, w = r) :
    a * w + b * w = (a + b) * w := by
  obtain ⟨ra, rfl⟩ := ha
  obtain ⟨rb, rfl⟩ := hb
  obtain ⟨rw, rfl⟩ := hw
  rw [← EReal.coe_mul, ← EReal.coe_mul, ← EReal.coe_add, ← EReal.coe_add, ← EReal.coe_mul, add_mul]

/-! ## Branch 2: the folded mailbox -/

/-- The flat mailbox at 64 d + c is edge d, feature c. -/
theorem flat_at (E : Fin 16 → Fin 64 → EReal) (i : Fin 1024) (d : Fin 16) (c : Fin 64)
    (h : i.val = 64 * d.val + c.val) : flat E i = E d c := by
  have hd : (⟨i.val / 64, by omega⟩ : Fin 16) = d := Fin.ext (by simp only []; omega)
  have hc : (⟨i.val % 64, by omega⟩ : Fin 64) = c := Fin.ext (by simp only []; omega)
  unfold flat
  rw [hd, hc]

/-- Lane 64 h + c of the folded flat mailbox is the sum of the eight edges of parity h at feature c. -/
theorem lane_flat (E : Fin 16 → Fin 64 → EReal) (i : Fin 128) (h : ℕ) (hh : h < 2) (c : Fin 64)
    (hi : i.val = 64 * h + c.val) :
    lane (flat E) i
      = ((E ⟨h, by omega⟩ c + E ⟨8 + h, by omega⟩ c) + (E ⟨4 + h, by omega⟩ c + E ⟨12 + h, by omega⟩ c))
        + ((E ⟨2 + h, by omega⟩ c + E ⟨10 + h, by omega⟩ c) + (E ⟨6 + h, by omega⟩ c + E ⟨14 + h, by omega⟩ c)) := by
  unfold lane
  rw [flat_at E ⟨i.val, by omega⟩ ⟨h, by omega⟩ c (by simp only []; omega),
    flat_at E ⟨i.val + 512, by omega⟩ ⟨8 + h, by omega⟩ c (by simp only []; omega),
    flat_at E ⟨i.val + 256, by omega⟩ ⟨4 + h, by omega⟩ c (by simp only []; omega),
    flat_at E ⟨i.val + 768, by omega⟩ ⟨12 + h, by omega⟩ c (by simp only []; omega),
    flat_at E ⟨i.val + 128, by omega⟩ ⟨2 + h, by omega⟩ c (by simp only []; omega),
    flat_at E ⟨i.val + 640, by omega⟩ ⟨10 + h, by omega⟩ c (by simp only []; omega),
    flat_at E ⟨i.val + 384, by omega⟩ ⟨6 + h, by omega⟩ c (by simp only []; omega),
    flat_at E ⟨i.val + 896, by omega⟩ ⟨14 + h, by omega⟩ c (by simp only []; omega)]

/-- A sum over sixteen indices written out. -/
theorem sum16 (f : Fin 16 → EReal) :
    ∑ d : Fin 16, f d
      = f ⟨0, by omega⟩ + (f ⟨1, by omega⟩ + (f ⟨2, by omega⟩ + (f ⟨3, by omega⟩ + (f ⟨4, by omega⟩ + (f ⟨5, by omega⟩
        + (f ⟨6, by omega⟩ + (f ⟨7, by omega⟩ + (f ⟨8, by omega⟩ + (f ⟨9, by omega⟩ + (f ⟨10, by omega⟩ + (f ⟨11, by omega⟩
        + (f ⟨12, by omega⟩ + (f ⟨13, by omega⟩ + (f ⟨14, by omega⟩ + f ⟨15, by omega⟩)))))))))))))) := by
  simp only [Fin.sum_univ_succ, Fin.sum_univ_zero, add_zero]
  rfl

/-- The sixteen edges are the eight even ones and the eight odd ones. -/
theorem msg_split (E : Fin 16 → Fin 64 → EReal) (c : Fin 64) :
    (((E ⟨0, by omega⟩ c + E ⟨8 + 0, by omega⟩ c) + (E ⟨4 + 0, by omega⟩ c + E ⟨12 + 0, by omega⟩ c))
        + ((E ⟨2 + 0, by omega⟩ c + E ⟨10 + 0, by omega⟩ c) + (E ⟨6 + 0, by omega⟩ c + E ⟨14 + 0, by omega⟩ c)))
      + (((E ⟨1, by omega⟩ c + E ⟨8 + 1, by omega⟩ c) + (E ⟨4 + 1, by omega⟩ c + E ⟨12 + 1, by omega⟩ c))
        + ((E ⟨2 + 1, by omega⟩ c + E ⟨10 + 1, by omega⟩ c) + (E ⟨6 + 1, by omega⟩ c + E ⟨14 + 1, by omega⟩ c)))
      = msg E c := by
  unfold msg
  rw [sum16]
  simp only [Nat.reduceAdd]
  ac_rfl

/-- A sum of eight finite extended reals, grouped as the folding groups them, is finite. -/
theorem fin_eight {a b c d e f g h : EReal} (ha : ∃ r : ℝ, a = r) (hb : ∃ r : ℝ, b = r) (hc : ∃ r : ℝ, c = r)
    (hd : ∃ r : ℝ, d = r) (he : ∃ r : ℝ, e = r) (hf : ∃ r : ℝ, f = r) (hg : ∃ r : ℝ, g = r) (hh : ∃ r : ℝ, h = r) :
    ∃ r : ℝ, ((a + b) + (c + d)) + ((e + f) + (g + h)) = r :=
  fin_add (fin_add (fin_add ha hb) (fin_add hc hd)) (fin_add (fin_add he hf) (fin_add hg hh))

/-- W2a stacked on itself, on its first copy. -/
theorem stack_castAdd (W : Fin 64 → Fin 64 → EReal) (a c : Fin 64) : stack W (Fin.castAdd 64 a) c = W a c := by
  have h : (Fin.castAdd 64 a).val < 64 := a.isLt
  simp only [stack, dif_pos h]
  rfl

/-- W2a stacked on itself, on its second copy. -/
theorem stack_natAdd (W : Fin 64 → Fin 64 → EReal) (a c : Fin 64) : stack W (Fin.natAdd 64 a) c = W a c := by
  have h : ¬ (Fin.natAdd 64 a).val < 64 := by simp
  simp only [stack, dif_neg h]
  congr 1
  apply Fin.ext
  simp

/-- Branch 2's hidden layer: the 128 lanes against W2a stacked on itself is the mailbox summed over its sixteen
    edges against W2a, for a finite mailbox and finite weights. -/
theorem hid2K_eq_hid2R (E : Fin 16 → Fin 64 → EReal) (W2a : Fin 64 → Fin 64 → EReal) (b2a : Fin 64 → EReal)
    (hE : ∀ d c, ∃ r : ℝ, E d c = (r : EReal)) (hW : ∀ a c, ∃ r : ℝ, W2a a c = (r : EReal)) :
    hid2K (flat E) (stack W2a) b2a = hid2R E W2a b2a := by
  funext c
  unfold hid2K hid2R
  congr 1
  rw [show (∑ i : Fin 128, lane (flat E) i * stack W2a i c)
        = ∑ i : Fin (64 + 64), lane (flat E) i * stack W2a i c from rfl,
    Fin.sum_univ_add, ← Finset.sum_add_distrib]
  refine Finset.sum_congr rfl (fun c' _ => ?_)
  rw [stack_castAdd, stack_natAdd,
    lane_flat E (Fin.castAdd 64 c') 0 (by omega) c' (by simp),
    lane_flat E (Fin.natAdd 64 c') 1 (by omega) c' (by simp only [Fin.coe_natAdd]),
    fin_add_mul (fin_eight (hE _ _) (hE _ _) (hE _ _) (hE _ _) (hE _ _) (hE _ _) (hE _ _) (hE _ _))
      (fin_eight (hE _ _) (hE _ _) (hE _ _) (hE _ _) (hE _ _) (hE _ _) (hE _ _) (hE _ _)) (hW c' c),
    msg_split]

/-! ## The normalisation -/

/-- Every value of tanh is finite. -/
theorem tanh_fin (z : EReal) : ∃ r : ℝ, Ideal.tanh z = r := by
  induction z with
  | bot => exact ⟨-1, by simp⟩
  | coe r => exact ⟨Real.tanh r, rfl⟩
  | top => exact ⟨1, by simp⟩

/-- Every value of a tanh layer is finite. -/
theorem act_fin {K : ℕ} (h : Fin K → EReal) (W : Fin K → Fin 64 → EReal) (b : Fin 64 → EReal) (j : Fin 64) :
    ∃ r : ℝ, act h W b j = r := tanh_fin _

/-- The two halves' squared sums added are a real s ≥ 0. -/
theorem sq_sum_fin (o1 o2 : Fin 64 → EReal) (h1 : ∀ j, ∃ r : ℝ, o1 j = r) (h2 : ∀ j, ∃ r : ℝ, o2 j = r) :
    ∃ s : ℝ, 0 ≤ s ∧ (∑ j : Fin 64, o1 j * o1 j) + (∑ j : Fin 64, o2 j * o2 j) = (s : EReal) := by
  choose p hp using h1
  choose q hq using h2
  refine ⟨(∑ j, p j * p j) + (∑ j, q j * q j),
    add_nonneg (Finset.sum_nonneg fun j _ => mul_self_nonneg _) (Finset.sum_nonneg fun j _ => mul_self_nonneg _), ?_⟩
  simp only [hp, hq, ← EReal.coe_mul]
  rw [EReal.coe_add, coe_sum, coe_sum]

/-- Multiplying by rsqrt of the squared sum is dividing by the norm, when the norm is positive. -/
theorem scale_eq (o1 o2 : Fin 64 → EReal) (h1 : ∀ j, ∃ r : ℝ, o1 j = r) (h2 : ∀ j, ∃ r : ℝ, o2 j = r)
    (hn : 0 < nrmR (cat2 o1 o2)) (j : Fin 128) :
    cat2 (fun j => o1 j * invK o1 o2) (fun j => o2 j * invK o1 o2) j = outR (cat2 o1 o2) j := by
  obtain ⟨s, hs0, hS⟩ := sq_sum_fin o1 o2 h1 h2
  have hN : nrmR (cat2 o1 o2) = (Real.sqrt s : EReal) := by
    unfold nrmR
    rw [show (∑ j : Fin 128, cat2 o1 o2 j * cat2 o1 o2 j)
          = ∑ j : Fin (64 + 64), cat2 o1 o2 j * cat2 o1 o2 j from rfl, sum_cat2 o1 o2 (cat2 o1 o2)]
    simp only [cat2_castAdd, cat2_natAdd]
    rw [hS, Ideal.sqrt_coe, if_neg (not_lt.mpr hs0)]
  rw [hN, EReal.coe_pos] at hn
  have hsq : Real.sqrt s ≠ 0 := ne_of_gt hn
  have hs1 : s ≠ 0 := fun h => hsq (by rw [h, Real.sqrt_zero])
  have hI : invK o1 o2 = ((1 / Real.sqrt s : ℝ) : EReal) := by
    unfold invK
    rw [hS, Ideal.rsqrt_coe, if_neg (not_lt.mpr hs0), if_neg hs1, one_div]
  rw [cat2_mul, outR, hN, Ideal.div_coe hsq, hI]

/-! ## The row -/

/-- The kernel's row is the reference's row, for a finite mailbox, finite W2a and a positive norm. -/
theorem outK_eq_outR (x y : Fin 128 → EReal) (E : Fin 16 → Fin 64 → EReal) (W1a : Fin 256 → Fin 160 → EReal) (b1a : Fin 160 → EReal)
    (W1b : Fin 160 → Fin 64 → EReal) (b1b : Fin 64 → EReal) (W2a : Fin 64 → Fin 64 → EReal) (b2a : Fin 64 → EReal)
    (W2b : Fin 64 → Fin 64 → EReal) (b2b : Fin 64 → EReal)
    (hE : ∀ d c, ∃ r : ℝ, E d c = (r : EReal)) (hW : ∀ a c, ∃ r : ℝ, W2a a c = (r : EReal))
    (hn : 0 < nrmR (catR x y E W1a b1a W1b b1b W2a b2a W2b b2b)) (j : Fin 128) :
    outK x y E W1a b1a W1b b1b W2a b2a W2b b2b j = outR (catR x y E W1a b1a W1b b1b W2a b2a W2b b2b) j := by
  unfold outK o1K o2K
  rw [hid1K_eq_hid1R x y W1a b1a, hid2K_eq_hid2R E W2a b2a hE hW]
  exact scale_eq _ _ (act_fin _ _ _) (act_fin _ _ _) hn j

end Cert.RowSpec

end
-- ==== Proof.lean ====
/-
  The kernel computes, for each of 50000 graph nodes, two small tanh networks — one on the node's two feature rows, one on
  the sum of its sixteen incoming edge states — and divides the 128 results by their Euclidean norm; the reference does the
  same with plain array operations. The kernel arranges the sums differently (the feature rows against the two halves of
  the first weight matrix; the edge states added by three halvings of the flat mailbox and finished inside the product with
  the second network's first matrix stacked on itself) and multiplies by the reciprocal square root where the reference
  divides by the square root. On finite inputs the two arrangements of the sums agree on the extended reals, and where a
  node's norm is positive so do `x · rsqrt s` and `x / sqrt s`; where the norm is zero the reference itself is 0/0, and
  the precondition keeps those inputs out.

  The three programs run to their ends leaving their arguments unchanged: the two kernels' runs through the pipelined
  region (the flat mailbox is handed to the region through two windows, each holding the array at half a share), the
  reference's as a straight line of host operations. The kernel's result array is, node by node, the kernel's arrangement
  of the row (`RowSpec.kerRow`); the reference's is the reference's (`RowSpec.outR` of `catRow`); `RowSpec.outK_eq_outR`
  joins them under the precondition's facts.
-/
import proofs.«121214_g34196529611290_cont_8to1_b_1671_18_alg».proof.Defs
import proofs.«121214_g34196529611290_cont_8to1_b_1671_18_alg».proof.Proof.Gen.Kernel
import proofs.«121214_g34196529611290_cont_8to1_b_1671_18_alg».proof.Proof.Gen.Kernel.Skeleton
import proofs.«121214_g34196529611290_cont_8to1_b_1671_18_alg».proof.Proof.Gen.Kernel.Launch
import proofs.«121214_g34196529611290_cont_8to1_b_1671_18_alg».proof.Proof.Gen.Kernel.Points
import proofs.«121214_g34196529611290_cont_8to1_b_1671_18_alg».proof.Proof.Gen.KernelIdeal
import proofs.«121214_g34196529611290_cont_8to1_b_1671_18_alg».proof.Proof.Gen.KernelIdeal.Skeleton
import proofs.«121214_g34196529611290_cont_8to1_b_1671_18_alg».proof.Proof.Gen.KernelIdeal.Launch
import proofs.«121214_g34196529611290_cont_8to1_b_1671_18_alg».proof.Proof.Gen.KernelIdeal.Points
import proofs.«121214_g34196529611290_cont_8to1_b_1671_18_alg».proof.Proof.Gen.ReferenceIdeal
import proofs.«121214_g34196529611290_cont_8to1_b_1671_18_alg».proof.Proof.Gen.Pre_finite_inputs
import proofs.«121214_g34196529611290_cont_8to1_b_1671_18_alg».proof.Proof.Gen.ReferenceIdeal.Run
import proofs.«121214_g34196529611290_cont_8to1_b_1671_18_alg».proof.Proof.Gen.ReferenceIdeal.Read
import proofs.«121214_g34196529611290_cont_8to1_b_1671_18_alg».proof.Proof.KernelFrame
import proofs.«121214_g34196529611290_cont_8to1_b_1671_18_alg».proof.Proof.KernelIdealFrame
import proofs.«121214_g34196529611290_cont_8to1_b_1671_18_alg».proof.Proof.KernelIdealValue
import proofs.«121214_g34196529611290_cont_8to1_b_1671_18_alg».proof.Proof.RefRow
import proofs.«121214_g34196529611290_cont_8to1_b_1671_18_alg».proof.Proof.PreFacts
import proofs.«121214_g34196529611290_cont_8to1_b_1671_18_alg».proof.Proof.RowAlgebra
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_kernel : Cert.frame_Kernel := fun m ρ _ => Cert.Kernel.Hand.frame m ρ

theorem frame_kernelIdeal : Cert.frame_KernelIdeal := fun m ρ _ => Cert.KernelIdeal.Hand.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-! ## The kernel's run with its result named -/

section
open Cert.KernelIdeal Cert.KernelIdeal.Gen Cert.KernelIdeal.Hand
open Idealize.ShloMosaic.Pipeline (Dat)

/-- The idealized kernel's run: the result array ends at what the 25 write-backs left, the arguments as they began. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (dats (F := Ideal) m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1 13,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 7).trans (((dats m 0 c).arrAt_in 7 rfl _).trans ((A_eq m c 7).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 11).trans (((dats m 0 c).arrAt_in 11 rfl _).trans ((A_eq m c 11).trans (V_main_arg9 m c))),
      ((h c).2 main_arg10 (Pipeline.mem_restRefs_of main_arg10 (by decide) (by decide))).trans (V_main_arg10 m c)⟩) (run_main m ρ)

end

/-! ## The value claim -/

/-- From memories agreeing on the arguments both idealized programs end with node `n`'s row at the kernel's arrangement
    `kerRow`: the kernel by its blocks, the reference by its operations read at an index and the row algebra, whose
    hypotheses — the mailbox and the second network's first matrix finite, every node's norm positive — the
    precondition states. -/
theorem algebraic : Cert.algebraic_KernelIdeal_ReferenceIdeal := by
  intro m ρ m' ρ' hpre hagree
  refine ⟨fun c => fun i : Cert.KernelIdeal.S50000x128.Idx =>
      Cert.RowSpec.kerRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        ⟨(i 0).val, (i 0).isLt⟩ ⟨(i 1).val, (i 1).isLt⟩, ?_, ?_⟩
  · exact (θ_run Cert.KernelIdeal.defs _ _).mono
      (fun r h c => ⟨(h c).1.trans (Cert.KernelIdeal.Hand.final13 m c), (h c).2⟩) (run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v27_eq, h0, h1, h2, h3, h4, h5, h6, h7, h8, h9, h10]
    obtain ⟨hE, hW, hN⟩ := Cert.PreFacts.decode _ _ _ _ _ _ _ _ _ _ _ (hpre c)
    funext i
    obtain ⟨n, j, rfl⟩ : ∃ (n : Fin 50000) (j : Fin 128), i = ix2 n j := ⟨i 0, i 1, eq_ix2 i⟩
    rw [Cert.RefRow.out_row]
    have hn := hN (ix2 n (0 : Fin 1))
    rw [Cert.RefRow.norm_row] at hn
    exact (Cert.RowSpec.outK_eq_outR _ _ _ _ _ _ _ _ _ _ _ (fun d c' => hE (ix3 n d c')) (fun a c' => hW (ix2 a c')) hn j).symm

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
